-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x64 : Shape := ⟨2, ![1600000, 64]⟩
abbrev S128x16 : Shape := ⟨2, ![128, 16]⟩
abbrev S16 : Shape := ⟨1, ![16]⟩
abbrev S16x32 : Shape := ⟨2, ![16, 32]⟩
abbrev S32 : Shape := ⟨1, ![32]⟩
abbrev S64x16 : Shape := ⟨2, ![64, 16]⟩
abbrev S16x64 : Shape := ⟨2, ![16, 64]⟩
abbrev S64 : Shape := ⟨1, ![64]⟩
abbrev S192 : Shape := ⟨1, ![192]⟩
abbrev S192x32 : Shape := ⟨2, ![192, 32]⟩
abbrev S32x32 : Shape := ⟨2, ![32, 32]⟩
abbrev S32x64 : Shape := ⟨2, ![32, 64]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S64x16 : S_.BroadcastsInDim S64x16 (![] : Fin 0 → Fin S64x16.rank)
  reducesTo_S64x16_S_d0_1 : S64x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S192 : S_.BroadcastsInDim S192 (![] : Fin 0 → Fin S192.rank)
  reducesTo_S192_S_d0 : S192.ReducesTo [0] S_
  bcast_S_S192x32 : S_.BroadcastsInDim S192x32 (![] : Fin 0 → Fin S192x32.rank)
  reducesTo_S192x32_S_d0_1 : S192x32.ReducesTo [0, 1] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part6 {F : FTy → Type} [FloatOps F] (main_arg1 : IVec S2x1600000 32) (main_arg22 : FVec F S64 .f32) (main_v98 : IVec S_ 1) (main_v101 : IVec S32x64 1) (main_c_39 : IVec S_ 1) : IVec S_ 1 :=
  let main_v102 : IVec S_ 1 := (fun x v => Host.reduce IntOp.andi x v reducesTo_S32x64_S_d0_1 h_S_) main_v101 main_c_39
  let main_v103 : IVec S_ 1 := andi main_v98 main_v102
  let main_v104 : FVec F S64 .f32 := Host.absf main_arg22
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : IVec S1x1600000 32 := (extractStridedSlice S1x1600000 ![0, 0] · slices_S2x1600000_S1x1600000_0_0) main_arg1
  let main_v110 : IVec S1600000 32 := shapeCast S1600000 main_v109 shapeCasts_S1x1600000_S1600000
  let main_c_42 : IVec S_ 32 := constantI S_ 32 0#32
  let main_v111 : IVec S1600000 32 := broadcastInDim S1600000 ![] bcast_S_S1600000 main_c_42
  let main_v112 : IVec S1600000 1 := cmpi .sge main_v110 main_v111
  let main_v113 : IVec S1x1600000 32 := (extractStridedSlice S1x1600000 ![0, 0] · slices_S2x1600000_S1x1600000_0_0) main_arg1
  let main_v114 : IVec S1600000 32 := shapeCast S1600000 main_v113 shapeCasts_S1x1600000_S1600000
  let main_c_43 : IVec S_ 32 := constantI S_ 32 100000#32
  let main_v115 : IVec S1600000 32 := broadcastInDim S1600000 ![] bcast_S_S1600000 main_c_43
  let main_v116 : IVec S1600000 1 := cmpi .slt main_v114 main_v115
  let main_v117 : IVec S1600000 1 := andi main_v112 main_v116
  let main_c_44 : IVec S_ 1 := constantI S_ 1 1#1
  let main_v118 : IVec S_ 1 := (fun x v => Host.reduce IntOp.andi x v reducesTo_S1600000_S_d0 h_S_) main_v117 main_c_44
  let main_v119 : IVec S_ 1 := andi main_v108 main_v118
  main_v119

def fn_part5 {F : FTy → Type} [FloatOps F] (main_arg1 : IVec S2x1600000 32) (main_arg19 : FVec F S32x32 .f32) (main_arg20 : FVec F S32 .f32) (main_arg21 : FVec F S32x64 .f32) (main_arg22 : FVec F S64 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32x32 .f32 := Host.absf main_arg19
  let main_cst_34 : FVec F S_ .f32 := constant S_ .f32 0x7F800000#32
  let main_v90 : FVec F S32x32 .f32 := broadcastInDim S32x32 ![] bcast_S_S32x32 main_cst_34
  let main_v91 : IVec S32x32 1 := cmpf .olt main_v89 main_v90
  let main_c_35 : IVec S_ 1 := constantI S_ 1 1#1
  let main_v92 : IVec S_ 1 := (fun x v => Host.reduce IntOp.andi x v reducesTo_S32x32_S_d0_1 h_S_) main_v91 main_c_35
  let main_v93 : IVec S_ 1 := andi main_v88 main_v92
  let main_v94 : FVec F S32 .f32 := Host.absf main_arg20
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32x64 .f32 := Host.absf main_arg21
  let main_cst_38 : FVec F S_ .f32 := constant S_ .f32 0x7F800000#32
  let main_v100 : FVec F S32x64 .f32 := broadcastInDim S32x64 ![] bcast_S_S32x64 main_cst_38
  let main_v101 : IVec S32x64 1 := cmpf .olt main_v99 main_v100
  let main_c_39 : IVec S_ 1 := constantI S_ 1 1#1
  fn_part6 (F := F) main_arg1 main_arg22 main_v98 main_v101 main_c_39

def fn_part4 {F : FTy → Type} [FloatOps F] (main_arg1 : IVec S2x1600000 32) (main_arg15 : FVec F S192 .f32) (main_arg16 : FVec F S192 .f32) (main_arg17 : FVec F S192x32 .f32) (main_arg18 : FVec F S32 .f32) (main_arg19 : FVec F S32x32 .f32) (main_arg20 : FVec F S32 .f32) (main_arg21 : FVec F S32x64 .f32) (main_arg22 : FVec F S64 .f32) (main_v63 : IVec S_ 1) (main_v67 : IVec S_ 1) : IVec S_ 1 :=
  let main_v68 : IVec S_ 1 := andi main_v63 main_v67
  let main_v69 : FVec F S192 .f32 := Host.absf main_arg15
  let main_cst_26 : FVec F S_ .f32 := constant S_ .f32 0x7F800000#32
  let main_v70 : FVec F S192 .f32 := broadcastInDim S192 ![] bcast_S_S192 main_cst_26
  let main_v71 : IVec S192 1 := cmpf .olt main_v69 main_v70
  let main_c_27 : IVec S_ 1 := constantI S_ 1 1#1
  let main_v72 : IVec S_ 1 := (fun x v => Host.reduce IntOp.andi x v reducesTo_S192_S_d0 h_S_) main_v71 main_c_27
  let main_v73 : IVec S_ 1 := andi main_v68 main_v72
  let main_v74 : FVec F S192 .f32 := Host.absf main_arg16
  let main_cst_28 : FVec F S_ .f32 := constant S_ .f32 0x7F800000#32
  let main_v75 : FVec F S192 .f32 := broadcastInDim S192 ![] bcast_S_S192 main_cst_28
  let main_v76 : IVec S192 1 := cmpf .olt main_v74 main_v75
  let main_c_29 : IVec S_ 1 := constantI S_ 1 1#1
  let main_v77 : IVec S_ 1 := (fun x v => Host.reduce IntOp.andi x v reducesTo_S192_S_d0 h_S_) main_v76 main_c_29
  let main_v78 : IVec S_ 1 := andi main_v73 main_v77
  let main_v79 : FVec F S192x32 .f32 := Host.absf main_arg17
  let main_cst_30 : FVec F S_ .f32 := constant S_ .f32 0x7F800000#32
  let main_v80 : FVec F S192x32 .f32 := broadcastInDim S192x32 ![] bcast_S_S192x32 main_cst_30
  let main_v81 : IVec S192x32 1 := cmpf .olt main_v79 main_v80
  let main_c_31 : IVec S_ 1 := constantI S_ 1 1#1
  let main_v82 : IVec S_ 1 := (fun x v => Host.reduce IntOp.andi x v reducesTo_S192x32_S_d0_1 h_S_) main_v81 main_c_31
  let main_v83 : IVec S_ 1 := andi main_v78 main_v82
  let main_v84 : FVec F S32 .f32 := Host.absf main_arg18
  let main_cst_32 : FVec F S_ .f32 := constant S_ .f32 0x7F800000#32
  fn_part5 (F := F) main_arg1 main_arg19 main_arg20 main_arg21 main_arg22 main_v83 main_v84 main_cst_32

def fn_part3 {F : FTy → Type} [FloatOps F] (main_arg1 : IVec S2x1600000 32) (main_arg12 : FVec F S16 .f32) (main_arg13 : FVec F S16x64 .f32) (main_arg14 : FVec F S64 .f32) (main_arg15 : FVec F S192 .f32) (main_arg16 : FVec F S192 .f32) (main_arg17 : FVec F S192x32 .f32) (main_arg18 : FVec F S32 .f32) (main_arg19 : FVec F S32x32 .f32) (main_arg20 : FVec F S32 .f32) (main_arg21 : FVec F S32x64 .f32) (main_arg22 : FVec F S64 .f32) (main_v48 : IVec S_ 1) (main_v49 : FVec F S64x16 .f32) (main_v50 : FVec F S64x16 .f32) : IVec S_ 1 :=
  let main_v51 : IVec S64x16 1 := cmpf .olt main_v49 main_v50
  let main_c_19 : IVec S_ 1 := constantI S_ 1 1#1
  let main_v52 : IVec S_ 1 := (fun x v => Host.reduce IntOp.andi x v reducesTo_S64x16_S_d0_1 h_S_) main_v51 main_c_19
  let main_v53 : IVec S_ 1 := andi main_v48 main_v52
  let main_v54 : FVec F S16 .f32 := Host.absf main_arg12
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16x64 .f32 := Host.absf main_arg13
  let main_cst_22 : FVec F S_ .f32 := constant S_ .f32 0x7F800000#32
  let main_v60 : FVec F S16x64 .f32 := broadcastInDim S16x64 ![] bcast_S_S16x64 main_cst_22
  let main_v61 : IVec S16x64 1 := cmpf .olt main_v59 main_v60
  let main_c_23 : IVec S_ 1 := constantI S_ 1 1#1
  let main_v62 : IVec S_ 1 := (fun x v => Host.reduce IntOp.andi x v reducesTo_S16x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_arg15 main_arg16 main_arg17 main_arg18 main_arg19 main_arg20 main_arg21 main_arg22 main_v63 main_v67

def fn_part2 {F : FTy → Type} [FloatOps F] (main_arg1 : IVec S2x1600000 32) (main_arg8 : FVec F S16 .f32) (main_arg9 : FVec F S16x32 .f32) (main_arg10 : FVec F S32 .f32) (main_arg11 : FVec F S64x16 .f32) (main_arg12 : FVec F S16 .f32) (main_arg13 : FVec F S16x64 .f32) (main_arg14 : FVec F S64 .f32) (main_arg15 : FVec F S192 .f32) (main_arg16 : FVec F S192 .f32) (main_arg17 : FVec F S192x32 .f32) (main_arg18 : FVec F S32 .f32) (main_arg19 : FVec F S32x32 .f32) (main_arg20 : FVec F S32 .f32) (main_arg21 : FVec F S32x64 .f32) (main_arg22 : FVec F S64 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x32 .f32 := Host.absf main_arg9
  let main_cst_14 : FVec F S_ .f32 := constant S_ .f32 0x7F800000#32
  let main_v40 : FVec F S16x32 .f32 := broadcastInDim S16x32 ![] bcast_S_S16x32 main_cst_14
  let main_v41 : IVec S16x32 1 := cmpf .olt main_v39 main_v40
  let main_c_15 : IVec S_ 1 := constantI S_ 1 1#1
  let main_v42 : IVec S_ 1 := (fun x v => Host.reduce IntOp.andi x v reducesTo_S16x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S64x16 .f32 := Host.absf main_arg11
  let main_cst_18 : FVec F S_ .f32 := constant S_ .f32 0x7F800000#32
  let main_v50 : FVec F S64x16 .f32 := broadcastInDim S64x16 ![] bcast_S_S64x16 main_cst_18
  fn_part3 (F := F) main_arg1 main_arg12 main_arg13 main_arg14 main_arg15 main_arg16 main_arg17 main_arg18 main_arg19 main_arg20 main_arg21 main_arg22 main_v48 main_v49 main_v50

def fn_part1 {F : FTy → Type} [FloatOps F] (main_arg1 : IVec S2x1600000 32) (main_arg5 : FVec F S16x32 .f32) (main_arg6 : FVec F S32 .f32) (main_arg7 : FVec F S64x16 .f32) (main_arg8 : FVec F S16 .f32) (main_arg9 : FVec F S16x32 .f32) (main_arg10 : FVec F S32 .f32) (main_arg11 : FVec F S64x16 .f32) (main_arg12 : FVec F S16 .f32) (main_arg13 : FVec F S16x64 .f32) (main_arg14 : FVec F S64 .f32) (main_arg15 : FVec F S192 .f32) (main_arg16 : FVec F S192 .f32) (main_arg17 : FVec F S192x32 .f32) (main_arg18 : FVec F S32 .f32) (main_arg19 : FVec F S32x32 .f32) (main_arg20 : FVec F S32 .f32) (main_arg21 : FVec F S32x64 .f32) (main_arg22 : FVec F S64 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x32 .f32 := Host.absf main_arg5
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x16 .f32 := Host.absf main_arg7
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x128 .f32) (main_arg1 : IVec S2x1600000 32) (main_arg2 : FVec F S1600000x64 .f32) (main_arg3 : FVec F S128x16 .f32) (main_arg4 : FVec F S16 .f32) (main_arg5 : FVec F S16x32 .f32) (main_arg6 : FVec F S32 .f32) (main_arg7 : FVec F S64x16 .f32) (main_arg8 : FVec F S16 .f32) (main_arg9 : FVec F S16x32 .f32) (main_arg10 : FVec F S32 .f32) (main_arg11 : FVec F S64x16 .f32) (main_arg12 : FVec F S16 .f32) (main_arg13 : FVec F S16x64 .f32) (main_arg14 : FVec F S64 .f32) (main_arg15 : FVec F S192 .f32) (main_arg16 : FVec F S192 .f32) (main_arg17 : FVec F S192x32 .f32) (main_arg18 : FVec F S32 .f32) (main_arg19 : FVec F S32x32 .f32) (main_arg20 : FVec F S32 .f32) (main_arg21 : FVec F S32x64 .f32) (main_arg22 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x64 .f32 := Host.absf main_arg2
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S128x16 .f32 := Host.absf main_arg3
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x128 : Shape := ⟨2, ![100000, 128]⟩
abbrev S2x1600000 : Shape := ⟨2, ![2, 1600000]⟩
abbrev S1600000x64 : Shape := ⟨2, ![1600000, 64]⟩
abbrev S128x16 : Shape := ⟨2, ![128, 16]⟩
abbrev S16 : Shape := ⟨1, ![16]⟩
abbrev S16x32 : Shape := ⟨2, ![16, 32]⟩
abbrev S32 : Shape := ⟨1, ![32]⟩
abbrev S64x16 : Shape := ⟨2, ![64, 16]⟩
abbrev S16x64 : Shape := ⟨2, ![16, 64]⟩
abbrev S64 : Shape := ⟨1, ![64]⟩
abbrev S192 : Shape := ⟨1, ![192]⟩
abbrev S192x32 : Shape := ⟨2, ![192, 32]⟩
abbrev S32x32 : Shape := ⟨2, ![32, 32]⟩
abbrev S32x64 : Shape := ⟨2, ![32, 64]⟩
abbrev S1x1600000 : Shape := ⟨2, ![1, 1600000]⟩
abbrev S1600000 : Shape := ⟨1, ![1600000]⟩
abbrev S100000x32 : Shape := ⟨2, ![100000, 32]⟩
abbrev S5000x128 : Shape := ⟨2, ![5000, 128]⟩
abbrev S5000x32 : Shape := ⟨2, ![5000, 32]⟩
abbrev S5000x16 : Shape := ⟨2, ![5000, 16]⟩
abbrev S1x16 : Shape := ⟨2, ![1, 16]⟩
abbrev S1x32 : Shape := ⟨2, ![1, 32]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x32 : Shape := ⟨2, ![1600000, 32]⟩
abbrev S8000x64 : Shape := ⟨2, ![8000, 64]⟩
abbrev S8000x32 : Shape := ⟨2, ![8000, 32]⟩
abbrev S8000x16 : Shape := ⟨2, ![8000, 16]⟩
abbrev S1x64 : Shape := ⟨2, ![1, 64]⟩
abbrev S100000x64 : Shape := ⟨2, ![100000, 64]⟩
abbrev S5000x64 : Shape := ⟨2, ![5000, 64]⟩
abbrev S5000x192 : Shape := ⟨2, ![5000, 192]⟩
abbrev S5000 : Shape := ⟨1, ![5000]⟩
abbrev S5000x1 : Shape := ⟨2, ![5000, 1]⟩
abbrev S1x192 : Shape := ⟨2, ![1, 192]⟩

abbrev nBuf : Space → Nat
  | .hbm => 57
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x64, .f32⟩
  | .hbm, ⟨3, _⟩ => ⟨S128x16, .f32⟩
  | .hbm, ⟨4, _⟩ => ⟨S16, .f32⟩
  | .hbm, ⟨5, _⟩ => ⟨S16x32, .f32⟩
  | .hbm, ⟨6, _⟩ => ⟨S32, .f32⟩
  | .hbm, ⟨7, _⟩ => ⟨S64x16, .f32⟩
  | .hbm, ⟨8, _⟩ => ⟨S16, .f32⟩
  | .hbm, ⟨9, _⟩ => ⟨S16x32, .f32⟩
  | .hbm, ⟨10, _⟩ => ⟨S32, .f32⟩
  | .hbm, ⟨11, _⟩ => ⟨S64x16, .f32⟩
  | .hbm, ⟨12, _⟩ => ⟨S16, .f32⟩
  | .hbm, ⟨13, _⟩ => ⟨S16x64, .f32⟩
  | .hbm, ⟨14, _⟩ => ⟨S64, .f32⟩
  | .hbm, ⟨15, _⟩ => ⟨S192, .f32⟩
  | .hbm, ⟨16, _⟩ => ⟨S192, .f32⟩
  | .hbm, ⟨17, _⟩ => ⟨S192x32, .f32⟩
  | .hbm, ⟨18, _⟩ => ⟨S32, .f32⟩
  | .hbm, ⟨19, _⟩ => ⟨S32x32, .f32⟩
  | .hbm, ⟨20, _⟩ => ⟨S32, .f32⟩
  | .hbm, ⟨21, _⟩ => ⟨S32x64, .f32⟩
  | .hbm, ⟨22, _⟩ => ⟨S64, .f32⟩
  | .hbm, ⟨23, _⟩ => ⟨S1x1600000, .i32⟩
  | .hbm, ⟨24, _⟩ => ⟨S1600000, .i32⟩
  | .hbm, ⟨25, _⟩ => ⟨S1x1600000, .i32⟩
  | .hbm, ⟨26, _⟩ => ⟨S1600000, .i32⟩
  | .hbm, ⟨27, _⟩ => ⟨S100000x32, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1, .i32⟩
  | .hbm, ⟨37, _⟩ => ⟨S_, .i32⟩
  | .hbm, ⟨38, _⟩ => ⟨S1600000x1, .i32⟩
  | .hbm, ⟨39, _⟩ => ⟨S1600000x1, .i1⟩
  | .hbm, ⟨40, _⟩ => ⟨S1x1, .i32⟩
  | .hbm, ⟨41, _⟩ => ⟨S1600000x1, .i32⟩
  | .hbm, ⟨42, _⟩ => ⟨S1600000x1, .i1⟩
  | .hbm, ⟨43, _⟩ => ⟨S1600000x1, .i1⟩
  | .hbm, ⟨44, _⟩ => ⟨S_, .i1⟩
  | .hbm, ⟨45, _⟩ => ⟨S1600000, .i1⟩
  | .hbm, ⟨46, _⟩ => ⟨S1600000x32, .f32⟩
  | .hbm, ⟨47, _⟩ => ⟨S1600000x32, .i1⟩
  | .hbm, ⟨48, _⟩ => ⟨S_, .f32⟩
  | .hbm, ⟨49, _⟩ => ⟨S1600000x32, .f32⟩
  | .hbm, ⟨50, _⟩ => ⟨S1600000x32, .f32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S16, .f32⟩
  | .local _ .vmem, ⟨4, _⟩ => ⟨S16x32, .f32⟩
  | .local _ .vmem, ⟨5, _⟩ => ⟨S32, .f32⟩
  | .local _ .vmem, ⟨6, _⟩ => ⟨S5000x32, .f32⟩
  | .local _ .vmem, ⟨7, _⟩ => ⟨S5000x32, .f32⟩
  | .local _ .vmem, ⟨8, _⟩ => ⟨S8000x64, .f32⟩
  | .local _ .vmem, ⟨9, _⟩ => ⟨S8000x64, .f32⟩
  | .local _ .vmem, ⟨10, _⟩ => ⟨S8000x32, .f32⟩
  | .local _ .vmem, ⟨11, _⟩ => ⟨S8000x32, .f32⟩
  | .local _ .vmem, ⟨12, _⟩ => ⟨S64x16, .f32⟩
  | .local _ .vmem, ⟨13, _⟩ => ⟨S16, .f32⟩
  | .local _ .vmem, ⟨14, _⟩ => ⟨S16x32, .f32⟩
  | .local _ .vmem, ⟨15, _⟩ => ⟨S32, .f32⟩
  | .local _ .vmem, ⟨16, _⟩ => ⟨S64x16, .f32⟩
  | .local _ .vmem, ⟨17, _⟩ => ⟨S16, .f32⟩
  | .local _ .vmem, ⟨18, _⟩ => ⟨S16x64, .f32⟩
  | .local _ .vmem, ⟨19, _⟩ => ⟨S64, .f32⟩
  | .local _ .vmem, ⟨20, _⟩ => ⟨S8000x64, .f32⟩
  | .local _ .vmem, ⟨21, _⟩ => ⟨S8000x64, .f32⟩
  | .local _ .vmem, ⟨22, _⟩ => ⟨S5000x64, .f32⟩
  | .local _ .vmem, ⟨23, _⟩ => ⟨S5000x64, .f32⟩
  | .local _ .vmem, ⟨24, _⟩ => ⟨S5000x128, .f32⟩
  | .local _ .vmem, ⟨25, _⟩ => ⟨S5000x128, .f32⟩
  | .local _ .vmem, ⟨26, _⟩ => ⟨S192, .f32⟩
  | .local _ .vmem, ⟨27, _⟩ => ⟨S192, .f32⟩
  | .local _ .vmem, ⟨28, _⟩ => ⟨S192x32, .f32⟩
  | .local _ .vmem, ⟨29, _⟩ => ⟨S32, .f32⟩
  | .local _ .vmem, ⟨30, _⟩ => ⟨S32x32, .f32⟩
  | .local _ .vmem, ⟨31, _⟩ => ⟨S32, .f32⟩
  | .local _ .vmem, ⟨32, _⟩ => ⟨S32x64, .f32⟩
  | .local _ .vmem, ⟨33, _⟩ => ⟨S64, .f32⟩
  | .local _ .vmem, ⟨34, _⟩ => ⟨S5000x64, .f32⟩
  | .local _ .vmem, ⟨35, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v5 : Ref sig .tc := ⟨.hbm, 50, rfl⟩
abbrev main_v6 : Ref sig .tc := ⟨.hbm, 51, rfl⟩
abbrev main_cst : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg10_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem10_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S16x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S8000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S192x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S32x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  inb_S128x16_S128x16_0_0 : ∀ a, (![0, 0] : Fin 2 → Nat) a + S128x16.size a ≤ S128x16.size a
  h_S128x16 : 0 < S128x16.numel
  bitsLt_bf16_f32 : FTy.bits .bf16 < FTy.bits .f32
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S16x32_S16x32_0_0 : ∀ a, (![0, 0] : Fin 2 → Nat) a + S16x32.size a ≤ S16x32.size a
  h_S16x32 : 0 < S16x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  inb_S8000x64_S8000x64_0_0 : ∀ a, (![0, 0] : Fin 2 → Nat) a + S8000x64.size a ≤ S8000x64.size a
  h_S8000x64 : 0 < S8000x64.numel
  inb_S64x16_S64x16_0_0 : ∀ a, (![0, 0] : Fin 2 → Nat) a + S64x16.size a ≤ S64x16.size a
  h_S64x16 : 0 < S64x16.numel
  broadcasts_S1x16_S8000x16 : S1x16.Broadcasts S8000x16
  broadcasts_S1x32_S8000x32 : S1x32.Broadcasts S8000x32
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  concatenates_S8000x32_S8000x32_S8000x64_d1 : Shape.Concatenates [S8000x32, S8000x32] S8000x64 1
  inb_S16x64_S16x64_0_0 : ∀ a, (![0, 0] : Fin 2 → Nat) a + S16x64.size a ≤ S16x64.size a
  h_S16x64 : 0 < S16x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x128_S5000x192_d1 : Shape.Concatenates [S5000x64, S5000x128] S5000x192 1
  reduces_S5000x192_S5000 : S5000x192.Reduces [1] S5000
  shapeCasts_S5000_S5000x1 : S5000.ShapeCasts S5000x1
  broadcasts_S5000x1_S5000x192 : S5000x1.Broadcasts S5000x192
  inb_S192_S192_0 : ∀ a, (![0] : Fin 1 → Nat) a + S192.size a ≤ S192.size a
  h_S192 : 0 < S192.numel
  shapeCasts_S192_S1x192 : S192.ShapeCasts S1x192
  broadcasts_S1x192_S5000x192 : S1x192.Broadcasts S5000x192
  inb_S192x32_S192x32_0_0 : ∀ a, (![0, 0] : Fin 2 → Nat) a + S192x32.size a ≤ S192x32.size a
  h_S192x32 : 0 < S192x32.numel
  inb_S32x32_S32x32_0_0 : ∀ a, (![0, 0] : Fin 2 → Nat) a + S32x32.size a ≤ S32x32.size a
  h_S32x32 : 0 < S32x32.numel
  inb_S32x64_S32x64_0_0 : ∀ a, (![0, 0] : Fin 2 → Nat) a + S32x64.size a ≤ S32x64.size a
  h_S32x64 : 0 < S32x64.numel
  broadcasts_S1x64_S5000x64 : S1x64.Broadcasts S5000x64
  dot_S5000x128_S128x16_S5000x16_1_0_0_1_n_n_wf : DotDims.WF S5000x128 S128x16 S5000x16 [1] [0] [0] [1] [] []
  dot_S5000x16_S16x32_S5000x32_1_0_0_1_n_n_wf : DotDims.WF S5000x16 S16x32 S5000x32 [1] [0] [0] [1] [] []
  gather_S100000x32_S1600000x1_S1600000x32_1_0_n_n_0_1_132_wf : GatherDims.WF S100000x32 S1600000x1 S1600000x32 [1] [0] [] [0] [] 1 ![1, 32]
  dot_S8000x64_S64x16_S8000x16_1_0_0_1_n_n_wf : DotDims.WF S8000x64 S64x16 S8000x16 [1] [0] [0] [1] [] []
  dot_S8000x16_S16x32_S8000x32_1_0_0_1_n_n_wf : DotDims.WF S8000x16 S16x32 S8000x32 [1] [0] [0] [1] [] []
  dot_S8000x16_S16x64_S8000x64_1_0_0_1_n_n_wf : DotDims.WF S8000x16 S16x64 S8000x64 [1] [0] [0] [1] [] []
  scatter_S100000x64_S1600000x1_S1600000x64_1_0_0_1_wf : ScatterDims.WF S100000x64 S1600000x1 S1600000x64 [1] [0] [0] 1
  dot_S5000x192_S192x32_S5000x32_1_0_0_1_n_n_wf : DotDims.WF S5000x192 S192x32 S5000x32 [1] [0] [0] [1] [] []
  dot_S5000x32_S32x32_S5000x32_1_0_0_1_n_n_wf : DotDims.WF S5000x32 S32x32 S5000x32 [1] [0] [0] [1] [] []
  dot_S5000x32_S32x64_S5000x64_1_0_0_1_n_n_wf : DotDims.WF S5000x32 S32x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1600000x64.size a
  hwx1_0 : ∀ i : grid1.Coords, EltTy.bits .f32 = 32 ∨ (Rect.block (s := S1600000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x32.size a ≤ S1600000x32.size a
  hwx1_1 : ∀ i : grid1.Coords, EltTy.bits .f32 = 32 ∨ (Rect.block (s := S1600000x32) S8000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16.size a ≤ S16.size a
  hwx1_3 : ∀ i : grid1.Coords, EltTy.bits .f32 = 32 ∨ (Rect.block (s := S16) S16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x32.size a ≤ S16x32.size a
  hwx1_4 : ∀ i : grid1.Coords, EltTy.bits .f32 = 32 ∨ (Rect.block (s := S16x32) S16x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32.size a ≤ S32.size a
  hwx1_5 : ∀ i : grid1.Coords, EltTy.bits .f32 = 32 ∨ (Rect.block (s := S32) S32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x16.size a ≤ S64x16.size a
  hwx1_6 : ∀ i : grid1.Coords, EltTy.bits .f32 = 32 ∨ (Rect.block (s := S64x16) S64x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16.size a ≤ S16.size a
  hwx1_7 : ∀ i : grid1.Coords, EltTy.bits .f32 = 32 ∨ (Rect.block (s := S16) S16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S16x64.size a ≤ S16x64.size a
  hwx1_8 : ∀ i : grid1.Coords, EltTy.bits .f32 = 32 ∨ (Rect.block (s := S16x64) S16x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S8000x64.size a ≤ S1600000x64.size a
  hwx1_10 : ∀ i : grid1.Coords, EltTy.bits .f32 = 32 ∨ (Rect.block (s := S1600000x64) S8000x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S192.size a ≤ S192.size a
  hwx2_2 : ∀ i : grid2.Coords, EltTy.bits .f32 = 32 ∨ (Rect.block (s := S192) S192.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S192.size a ≤ S192.size a
  hwx2_3 : ∀ i : grid2.Coords, EltTy.bits .f32 = 32 ∨ (Rect.block (s := S192) S192.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S192x32.size a ≤ S192x32.size a
  hwx2_4 : ∀ i : grid2.Coords, EltTy.bits .f32 = 32 ∨ (Rect.block (s := S192x32) S192x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32.size a ≤ S32.size a
  hwx2_5 : ∀ i : grid2.Coords, EltTy.bits .f32 = 32 ∨ (Rect.block (s := S32) S32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x32.size a ≤ S32x32.size a
  hwx2_6 : ∀ i : grid2.Coords, EltTy.bits .f32 = 32 ∨ (Rect.block (s := S32x32) S32x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32.size a ≤ S32.size a
  hwx2_7 : ∀ i : grid2.Coords, EltTy.bits .f32 = 32 ∨ (Rect.block (s := S32) S32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S32x64.size a ≤ S32x64.size a
  hwx2_8 : ∀ i : grid2.Coords, EltTy.bits .f32 = 32 ∨ (Rect.block (s := S32x64) S32x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64.size a ≤ S64.size a
  hwx2_9 : ∀ i : grid2.Coords, EltTy.bits .f32 = 32 ∨ (Rect.block (s := S64) S64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x64.size a ≤ S100000x64.size a
  hwx2_10 : ∀ i : grid2.Coords, EltTy.bits .f32 = 32 ∨ (Rect.block (s := S100000x64) S5000x64.size (cc2_transform_10 i) (hinb2_10 i)).WholeWords (EltTy.packing .f32)

variable [Facts₀]

def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S8000x64_S64x16_S8000x16_1_0_0_1_n_n : DotDims S8000x64 S64x16 S8000x16 where
  lhsContracting := [1]
  rhsContracting := [0]
  lhsNonContracting := [0]
  rhsNonContracting := [1]
  lhsBatch := []
  rhsBatch := []
  wf := dot_S8000x64_S64x16_S8000x16_1_0_0_1_n_n_wf
def dot_S8000x16_S16x32_S8000x32_1_0_0_1_n_n : DotDims S8000x16 S16x32 S8000x32 where
  lhsContracting := [1]
  rhsContracting := [0]
  lhsNonContracting := [0]
  rhsNonContracting := [1]
  lhsBatch := []
  rhsBatch := []
  wf := dot_S8000x16_S16x32_S8000x32_1_0_0_1_n_n_wf
def dot_S8000x16_S16x64_S8000x64_1_0_0_1_n_n : DotDims S8000x16 S16x64 S8000x64 where
  lhsContracting := [1]
  rhsContracting := [0]
  lhsNonContracting := [0]
  rhsNonContracting := [1]
  lhsBatch := []
  rhsBatch := []
  wf := dot_S8000x16_S16x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x192_S192x32_S5000x32_1_0_0_1_n_n : DotDims S5000x192 S192x32 S5000x32 where
  lhsContracting := [1]
  rhsContracting := [0]
  lhsNonContracting := [0]
  rhsNonContracting := [1]
  lhsBatch := []
  rhsBatch := []
  wf := dot_S5000x192_S192x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S8000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S16x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S64x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S16x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg14) S64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v6) S8000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v9) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg15) S192.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S192.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg17) S192x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg18) S32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg19) S32x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg20) S32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg21) S32x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg22) S64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v10) S5000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x64 : Shape := ⟨2, ![1600000, 64]⟩
abbrev S128x16 : Shape := ⟨2, ![128, 16]⟩
abbrev S16 : Shape := ⟨1, ![16]⟩
abbrev S16x32 : Shape := ⟨2, ![16, 32]⟩
abbrev S32 : Shape := ⟨1, ![32]⟩
abbrev S64x16 : Shape := ⟨2, ![64, 16]⟩
abbrev S16x64 : Shape := ⟨2, ![16, 64]⟩
abbrev S64 : Shape := ⟨1, ![64]⟩
abbrev S192 : Shape := ⟨1, ![192]⟩
abbrev S192x32 : Shape := ⟨2, ![192, 32]⟩
abbrev S32x32 : Shape := ⟨2, ![32, 32]⟩
abbrev S32x64 : Shape := ⟨2, ![32, 64]⟩
abbrev S1x1600000 : Shape := ⟨2, ![1, 1600000]⟩
abbrev S1600000 : Shape := ⟨1, ![1600000]⟩
abbrev S100000x16 : Shape := ⟨2, ![100000, 16]⟩
abbrev S1x16 : Shape := ⟨2, ![1, 16]⟩
abbrev S_ : Shape := ⟨0, ![]⟩
abbrev S100000x32 : Shape := ⟨2, ![100000, 32]⟩
abbrev S1x32 : Shape := ⟨2, ![1, 32]⟩
abbrev S1600000x16 : Shape := ⟨2, ![1600000, 16]⟩
abbrev S1600000x32 : Shape := ⟨2, ![1600000, 32]⟩
abbrev S1600000x1 : Shape := ⟨2, ![1600000, 1]⟩
abbrev S1x64 : Shape := ⟨2, ![1, 64]⟩
abbrev S100000x64 : Shape := ⟨2, ![100000, 64]⟩
abbrev S100000x192 : Shape := ⟨2, ![100000, 192]⟩
abbrev S100000 : Shape := ⟨1, ![100000]⟩
abbrev S100000x1 : Shape := ⟨2, ![100000, 1]⟩
abbrev S1x192 : Shape := ⟨2, ![1, 192]⟩

abbrev nBuf : Space → Nat
  | .hbm => 171
  | .vmem => 0
  | .smem => 0
  | _ => 0

abbrev hbmTy0_0 (i : Nat) : BufTy := match i % 128 with
  | 0 => ⟨S100000x128, .f32⟩
  | 1 => ⟨S2x1600000, .i32⟩
  | 2 => ⟨S1600000x64, .f32⟩
  | 3 => ⟨S128x16, .f32⟩
  | 4 => ⟨S16, .f32⟩
  | 5 => ⟨S16x32, .f32⟩
  | 6 => ⟨S32, .f32⟩
  | 7 => ⟨S64x16, .f32⟩
  | 8 => ⟨S16, .f32⟩
  | 9 => ⟨S16x32, .f32⟩
  | 10 => ⟨S32, .f32⟩
  | 11 => ⟨S64x16, .f32⟩
  | 12 => ⟨S16, .f32⟩
  | 13 => ⟨S16x64, .f32⟩
  | 14 => ⟨S64, .f32⟩
  | 15 => ⟨S192, .f32⟩
  | 16 => ⟨S192, .f32⟩
  | 17 => ⟨S192x32, .f32⟩
  | 18 => ⟨S32, .f32⟩
  | 19 => ⟨S32x32, .f32⟩
  | 20 => ⟨S32, .f32⟩
  | 21 => ⟨S32x64, .f32⟩
  | 22 => ⟨S64, .f32⟩
  | 23 => ⟨S1x1600000, .i32⟩
  | 24 => ⟨S1600000, .i32⟩
  | 25 => ⟨S1x1600000, .i32⟩
  | 26 => ⟨S1600000, .i32⟩
  | 27 => ⟨S100000x16, .f32⟩
  | 28 => ⟨S1x16, .f32⟩
  | 29 => ⟨S100000x16, .f32⟩
  | 30 => ⟨S100000x16, .f32⟩
  | 31 => ⟨S_, .f32⟩
  | 32 => ⟨S_, .f32⟩
  | 33 => ⟨S100000x16, .f32⟩
  | 34 => ⟨S100000x16, .i1⟩
  | 35 => ⟨S_, .f32⟩
  | 36 => ⟨S100000x16, .f32⟩
  | 37 => ⟨S100000x16, .f32⟩
  | 38 => ⟨S100000x16, .f32⟩
  | 39 => ⟨S100000x32, .f32⟩
  | 40 => ⟨S1x32, .f32⟩
  | 41 => ⟨S100000x32, .f32⟩
  | 42 => ⟨S100000x32, .f32⟩
  | 43 => ⟨S_, .f32⟩
  | 44 => ⟨S_, .f32⟩
  | 45 => ⟨S100000x32, .f32⟩
  | 46 => ⟨S100000x32, .i1⟩
  | 47 => ⟨S_, .f32⟩
  | 48 => ⟨S100000x32, .f32⟩
  | 49 => ⟨S100000x32, .f32⟩
  | 50 => ⟨S100000x32, .f32⟩
  | 51 => ⟨S1600000x16, .f32⟩
  | 52 => ⟨S1x16, .f32⟩
  | 53 => ⟨S1600000x16, .f32⟩
  | 54 => ⟨S1600000x16, .f32⟩
  | 55 => ⟨S_, .f32⟩
  | 56 => ⟨S_, .f32⟩
  | 57 => ⟨S1600000x16, .f32⟩
  | 58 => ⟨S1600000x16, .i1⟩
  | 59 => ⟨S_, .f32⟩
  | 60 => ⟨S1600000x16, .f32⟩
  | 61 => ⟨S1600000x16, .f32⟩
  | 62 => ⟨S1600000x16, .f32⟩
  | 63 => ⟨S1600000x32, .f32⟩
  | 64 => ⟨S1x32, .f32⟩
  | 65 => ⟨S1600000x32, .f32⟩
  | 66 => ⟨S1600000x32, .f32⟩
  | 67 => ⟨S_, .f32⟩
  | 68 => ⟨S_, .f32⟩
  | 69 => ⟨S1600000x32, .f32⟩
  | 70 => ⟨S1600000x32, .i1⟩
  | 71 => ⟨S_, .f32⟩
  | 72 => ⟨S1600000x32, .f32⟩
  | 73 => ⟨S1600000x32, .f32⟩
  | 74 => ⟨S1600000x32, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x32, .f32⟩
  | 84 => ⟨S1600000x64, .f32⟩
  | 85 => ⟨S1600000x16, .f32⟩
  | 86 => ⟨S1x16, .f32⟩
  | 87 => ⟨S1600000x16, .f32⟩
  | 88 => ⟨S1600000x16, .f32⟩
  | 89 => ⟨S_, .f32⟩
  | 90 => ⟨S_, .f32⟩
  | 91 => ⟨S1600000x16, .f32⟩
  | 92 => ⟨S1600000x16, .i1⟩
  | 93 => ⟨S_, .f32⟩
  | 94 => ⟨S1600000x16, .f32⟩
  | 95 => ⟨S1600000x16, .f32⟩
  | 96 => ⟨S1600000x16, .f32⟩
  | 97 => ⟨S1600000x64, .f32⟩
  | 98 => ⟨S1x64, .f32⟩
  | 99 => ⟨S1600000x64, .f32⟩
  | 100 => ⟨S1600000x64, .f32⟩
  | 101 => ⟨S_, .f32⟩
  | 102 => ⟨S_, .f32⟩
  | 103 => ⟨S1600000x64, .f32⟩
  | 104 => ⟨S1600000x64, .i1⟩
  | 105 => ⟨S_, .f32⟩
  | 106 => ⟨S1600000x64, .f32⟩
  | 107 => ⟨S1600000x64, .f32⟩
  | 108 => ⟨S1600000x64, .f32⟩
  | 109 => ⟨S_, .f32⟩
  | 110 => ⟨S100000x64, .f32⟩
  | 111 => ⟨S1600000x1, .i32⟩
  | 112 => ⟨S100000x64, .f32⟩
  | 113 => ⟨S100000x192, .f32⟩
  | 114 => ⟨S_, .f32⟩
  | 115 => ⟨S100000, .f32⟩
  | 116 => ⟨S100000x1, .f32⟩
  | 117 => ⟨S_, .f32⟩
  | 118 => ⟨S100000x1, .f32⟩
  | 119 => ⟨S100000x1, .f32⟩
  | 120 => ⟨S100000x192, .f32⟩
  | 121 => ⟨S100000x192, .f32⟩
  | 122 => ⟨S100000x192, .f32⟩
  | 123 => ⟨S_, .f32⟩
  | 124 => ⟨S100000, .f32⟩
  | 125 => ⟨S100000x1, .f32⟩
  | 126 => ⟨S_, .f32⟩
  | 127 => ⟨S100000x1, .f32⟩
  | _ => ⟨S100000x128, .f32⟩

abbrev hbmTy0_1 (i : Nat) : BufTy := match i % 128 with
  | 0 => ⟨S100000x1, .f32⟩
  | 1 => ⟨S100000x192, .f32⟩
  | 2 => ⟨S100000x192, .f32⟩
  | 3 => ⟨S_, .f32⟩
  | 4 => ⟨S100000x1, .f32⟩
  | 5 => ⟨S100000x1, .f32⟩
  | 6 => ⟨S100000x1, .f32⟩
  | 7 => ⟨S100000x192, .f32⟩
  | 8 => ⟨S100000x192, .f32⟩
  | 9 => ⟨S1x192, .f32⟩
  | 10 => ⟨S100000x192, .f32⟩
  | 11 => ⟨S100000x192, .f32⟩
  | 12 => ⟨S1x192, .f32⟩
  | 13 => ⟨S100000x192, .f32⟩
  | 14 => ⟨S100000x192, .f32⟩
  | 15 => ⟨S100000x32, .f32⟩
  | 16 => ⟨S1x32, .f32⟩
  | 17 => ⟨S100000x32, .f32⟩
  | 18 => ⟨S100000x32, .f32⟩
  | 19 => ⟨S_, .f32⟩
  | 20 => ⟨S_, .f32⟩
  | 21 => ⟨S100000x32, .f32⟩
  | 22 => ⟨S100000x32, .i1⟩
  | 23 => ⟨S_, .f32⟩
  | 24 => ⟨S100000x32, .f32⟩
  | 25 => ⟨S100000x32, .f32⟩
  | 26 => ⟨S100000x32, .f32⟩
  | 27 => ⟨S100000x32, .f32⟩
  | 28 => ⟨S1x32, .f32⟩
  | 29 => ⟨S100000x32, .f32⟩
  | 30 => ⟨S100000x32, .f32⟩
  | 31 => ⟨S_, .f32⟩
  | 32 => ⟨S_, .f32⟩
  | 33 => ⟨S100000x32, .f32⟩
  | 34 => ⟨S100000x32, .i1⟩
  | 35 => ⟨S_, .f32⟩
  | 36 => ⟨S100000x32, .f32⟩
  | 37 => ⟨S100000x32, .f32⟩
  | 38 => ⟨S100000x32, .f32⟩
  | 39 => ⟨S100000x64, .f32⟩
  | 40 => ⟨S1x64, .f32⟩
  | 41 => ⟨S100000x64, .f32⟩
  | 42 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_0 : Ref sig .tc := ⟨.hbm, 43, rfl⟩
abbrev main_call1_cst : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_cst_1 : Ref sig .tc := ⟨.hbm, 55, rfl⟩
abbrev main_call2_cst : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_cst_2 : Ref sig .tc := ⟨.hbm, 67, rfl⟩
abbrev main_call3_cst : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_v23 : Ref sig .tc := ⟨.hbm, 74, rfl⟩
abbrev main_c : Ref sig .tc := ⟨.hbm, 75, rfl⟩
abbrev main_v24 : Ref sig .tc := ⟨.hbm, 76, rfl⟩
abbrev main_v25 : Ref sig .tc := ⟨.hbm, 77, rfl⟩
abbrev main_c_3 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_cst_4 : Ref sig .tc := ⟨.hbm, 89, rfl⟩
abbrev main_call4_cst : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_cst_5 : Ref sig .tc := ⟨.hbm, 101, rfl⟩
abbrev main_call5_cst : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_v41 : Ref sig .tc := ⟨.hbm, 108, rfl⟩
abbrev main_cst_6 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_cst_7 : Ref sig .tc := ⟨.hbm, 114, rfl⟩
abbrev main_v46 : Ref sig .tc := ⟨.hbm, 115, rfl⟩
abbrev main_v47 : Ref sig .tc := ⟨.hbm, 116, rfl⟩
abbrev main_cst_8 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_cst_9 : Ref sig .tc := ⟨.hbm, 123, rfl⟩
abbrev main_v53 : Ref sig .tc := ⟨.hbm, 124, rfl⟩
abbrev main_v54 : Ref sig .tc := ⟨.hbm, 125, rfl⟩
abbrev main_cst_10 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_cst_11 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_cst_12 : Ref sig .tc := ⟨.hbm, 147, rfl⟩
abbrev main_call6_cst : Ref sig .tc := ⟨.hbm, 148, rfl⟩
abbrev main_call6_v0 : Ref sig .tc := ⟨.hbm, 149, rfl⟩
abbrev main_call6_v1 : Ref sig .tc := ⟨.hbm, 150, rfl⟩
abbrev main_call6_v2 : Ref sig .tc := ⟨.hbm, 151, rfl⟩
abbrev main_call6_v3 : Ref sig .tc := ⟨.hbm, 152, rfl⟩
abbrev main_call6_v4 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_cst_13 : Ref sig .tc := ⟨.hbm, 159, rfl⟩
abbrev main_call7_cst : Ref sig .tc := ⟨.hbm, 160, rfl⟩
abbrev main_call7_v0 : Ref sig .tc := ⟨.hbm, 161, rfl⟩
abbrev main_call7_v1 : Ref sig .tc := ⟨.hbm, 162, rfl⟩
abbrev main_call7_v2 : Ref sig .tc := ⟨.hbm, 163, rfl⟩
abbrev main_call7_v3 : Ref sig .tc := ⟨.hbm, 164, rfl⟩
abbrev main_call7_v4 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1x16_S1600000x16_0_1 : S1x16.BroadcastsInDim S1600000x16 (![0, 1] : Fin 2 → Fin S1600000x16.rank)
  bcast_S_S1600000x16 : S_.BroadcastsInDim S1600000x16 (![] : Fin 0 → Fin S1600000x16.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x64_d1 : Shape.Concatenates [S1600000x32, S1600000x32] S1600000x64 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  concatenates_S100000x64_S100000x128_S100000x192_d1 : Shape.Concatenates [S100000x64, S100000x128] S100000x192 1
  reducesTo_S100000x192_S100000_d1 : S100000x192.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x192_0_1 : S100000x1.BroadcastsInDim S100000x192 (![0, 1] : Fin 2 → Fin S100000x192.rank)
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  bcast_S1x64_S100000x64_0_1 : S1x64.BroadcastsInDim S100000x64 (![0, 1] : Fin 2 → Fin S100000x64.rank)
  dot_S100000x128_S128x16_S100000x16_1_0_0_1_n_n_wf : DotDims.WF S100000x128 S128x16 S100000x16 [1] [0] [0] [1] [] []
  dot_S100000x16_S16x32_S100000x32_1_0_0_1_n_n_wf : DotDims.WF S100000x16 S16x32 S100000x32 [1] [0] [0] [1] [] []
  dot_S1600000x64_S64x16_S1600000x16_1_0_0_1_n_n_wf : DotDims.WF S1600000x64 S64x16 S1600000x16 [1] [0] [0] [1] [] []
  dot_S1600000x16_S16x32_S1600000x32_1_0_0_1_n_n_wf : DotDims.WF S1600000x16 S16x32 S1600000x32 [1] [0] [0] [1] [] []
  gather_S100000x32_S1600000x1_S1600000x32_1_0_n_n_0_1_132_wf : GatherDims.WF S100000x32 S1600000x1 S1600000x32 [1] [0] [] [0] [] 1 ![1, 32]
  dot_S1600000x16_S16x64_S1600000x64_1_0_0_1_n_n_wf : DotDims.WF S1600000x16 S16x64 S1600000x64 [1] [0] [0] [1] [] []
  scatter_S100000x64_S1600000x1_S1600000x64_1_0_0_1_wf : ScatterDims.WF S100000x64 S1600000x1 S1600000x64 [1] [0] [0] 1
  dot_S100000x192_S192x32_S100000x32_1_0_0_1_n_n_wf : DotDims.WF S100000x192 S192x32 S100000x32 [1] [0] [0] [1] [] []
  dot_S100000x32_S32x32_S100000x32_1_0_0_1_n_n_wf : DotDims.WF S100000x32 S32x32 S100000x32 [1] [0] [0] [1] [] []
  dot_S100000x32_S32x64_S100000x64_1_0_0_1_n_n_wf : DotDims.WF S100000x32 S32x64 S100000x64 [1] [0] [0] [1] [] []

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def dot_S1600000x64_S64x16_S1600000x16_1_0_0_1_n_n : DotDims S1600000x64 S64x16 S1600000x16 where
  lhsContracting := [1]
  rhsContracting := [0]
  lhsNonContracting := [0]
  rhsNonContracting := [1]
  lhsBatch := []
  rhsBatch := []
  wf := dot_S1600000x64_S64x16_S1600000x16_1_0_0_1_n_n_wf
def dot_S1600000x16_S16x32_S1600000x32_1_0_0_1_n_n : DotDims S1600000x16 S16x32 S1600000x32 where
  lhsContracting := [1]
  rhsContracting := [0]
  lhsNonContracting := [0]
  rhsNonContracting := [1]
  lhsBatch := []
  rhsBatch := []
  wf := dot_S1600000x16_S16x32_S1600000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x16_S16x64_S1600000x64_1_0_0_1_n_n : DotDims S1600000x16 S16x64 S1600000x64 where
  lhsContracting := [1]
  rhsContracting := [0]
  lhsNonContracting := [0]
  rhsNonContracting := [1]
  lhsBatch := []
  rhsBatch := []
  wf := dot_S1600000x16_S16x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x192_S192x32_S100000x32_1_0_0_1_n_n : DotDims S100000x192 S192x32 S100000x32 where
  lhsContracting := [1]
  rhsContracting := [0]
  lhsNonContracting := [0]
  rhsNonContracting := [1]
  lhsBatch := []
  rhsBatch := []
  wf := dot_S100000x192_S192x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf

class Facts : Prop extends Facts₀ where

variable [Facts]
-- ==== Proof.Spec.lean ====
/-
  The stages of the computation, each as ONE function of whole arrays on the extended reals.

  A graph layer over N = 100000 nodes and E = 1600000 edges:
    node encoding   ne  = φ(φ(x·W₁ + b₁)·W₂ + b₂)                           [N, 32]
    edge encoding   ee  = φ(φ(a·U₁ + c₁)·U₂ + c₂)                           [E, 32]
    source rows     nj  = ne[src]            (src = row 0 of the edge index, negative entries wrapped by N)
    message         msg = φ(φ([ee | nj]·G₁ + g₁)·G₂ + g₂)                    [E, 64]
    aggregation     agg = Σ over the edges e with dst(e) = n of msg[e]       [N, 64]
    output          out = ψ(ψ(LN([agg | x])·P₁ + p₁)·P₂ + p₂)·P₃ + p₃        [N, 64]
  where φ = ψ is the leaky rectifier v ↦ (v if v ≥ 0, else 0.01·v, the slope being the f32 nearest 0.01) and LN
  normalises each row of 192 entries by its mean and variance (ε the f32 nearest 1e-5) and scales by γ, shifts by β.
  Each stage is spelt with the operations of the jnp program, so the run of that program ends at these terms
  literally; the three kernel regions are shown to compute the same functions block of rows by block of rows.
-/
import proofs.«413093_j68839735820749_1_alg».proof.ReferenceIdeal
import proofs.«413093_j68839735820749_1_alg».proof.Proof.Gen.ReferenceIdeal
import Idealize.ShloMosaic.PureOps.Ideal

noncomputable section

namespace Cert.Spec

open Idealize.ShloMosaic Cert.ReferenceIdeal Cert.ReferenceIdeal.Facts₀ Cert.ReferenceIdeal.Facts

/-- The slope of the leaky rectifier: the f32 nearest 0.01. -/
def slope : FVec Ideal S_ .f32 := constant S_ .f32 0x3C23D70A#32

/-- The leaky rectifier, entry by entry: v where v ≥ 0, slope · v elsewhere. -/
def lrelu {S : Shape} (h : S_.BroadcastsInDim S (![] : Fin 0 → Fin S.rank)) (v : FVec Ideal S .f32) : FVec Ideal S .f32 :=
  select (cmpf .oge v (broadcastInDim S ![] h (constant S_ .f32 0x00000000#32))) v (mulf (broadcastInDim S ![] h (id slope)) v)

/-- Node encoding: two affine layers, each followed by the leaky rectifier. -/
def nodeEnc (x : FVec Ideal S100000x128 .f32) (w1 : FVec Ideal S128x16 .f32) (b1 : FVec Ideal S16 .f32)
    (w2 : FVec Ideal S16x32 .f32) (b2 : FVec Ideal S32 .f32) : FVec Ideal S100000x32 .f32 :=
  lrelu bcast_S_S100000x32
    (addf (Host.dotGeneral dot_S100000x16_S16x32_S100000x32_1_0_0_1_n_n none
      (lrelu bcast_S_S100000x16
        (addf (Host.dotGeneral dot_S100000x128_S128x16_S100000x16_1_0_0_1_n_n none x w1)
          (broadcastInDim S100000x16 ![0, 1] bcast_S1x16_S100000x16_0_1 (broadcastInDim S1x16 ![1] bcast_S16_S1x16_1 b1)))) w2)
      (broadcastInDim S100000x32 ![0, 1] bcast_S1x32_S100000x32_0_1 (broadcastInDim S1x32 ![1] bcast_S32_S1x32_1 b2)))

/-- Edge encoding: the same two layers over the edge attributes. -/
def edgeEnc (a : FVec Ideal S1600000x64 .f32) (w1 : FVec Ideal S64x16 .f32) (b1 : FVec Ideal S16 .f32)
    (w2 : FVec Ideal S16x32 .f32) (b2 : FVec Ideal S32 .f32) : FVec Ideal S1600000x32 .f32 :=
  lrelu bcast_S_S1600000x32
    (addf (Host.dotGeneral dot_S1600000x16_S16x32_S1600000x32_1_0_0_1_n_n none
      (lrelu bcast_S_S1600000x16
        (addf (Host.dotGeneral dot_S1600000x64_S64x16_S1600000x16_1_0_0_1_n_n none a w1)
          (broadcastInDim S1600000x16 ![0, 1] bcast_S1x16_S1600000x16_0_1 (broadcastInDim S1x16 ![1] bcast_S16_S1x16_1 b1)))) w2)
      (broadcastInDim S1600000x32 ![0, 1] bcast_S1x32_S1600000x32_0_1 (broadcastInDim S1x32 ![1] bcast_S32_S1x32_1 b2)))

/-- Row 0 of the edge index: the source node of each edge. -/
def srcOf (ei : IVec S2x1600000 32) : IVec S1600000 32 :=
  shapeCast S1600000 (extractStridedSlice S1x1600000 ![0, 0] ei slices_S2x1600000_S1x1600000_0_0) shapeCasts_S1x1600000_S1600000

/-- Row 1 of the edge index: the destination node of each edge. -/
def dstOf (ei : IVec S2x1600000 32) : IVec S1600000 32 :=
  shapeCast S1600000 (extractStridedSlice S1x1600000 ![1, 0] ei slices_S2x1600000_S1x1600000_1_0) shapeCasts_S1x1600000_S1600000

/-- The source indices with negative entries wrapped by the number of nodes, as a column. -/
def srcIdx (ei : IVec S2x1600000 32) : IVec S1600000x1 32 :=
  broadcastInDim S1600000x1 ![0] bcast_S1600000_S1600000x1_0
    (select (cmpi .slt (srcOf ei) (broadcastInDim S1600000 ![] bcast_S_S1600000 (constantI S_ 32 0#32)))
      (addi (srcOf ei) (broadcastInDim S1600000 ![] bcast_S_S1600000 (constantI S_ 32 100000#32))) (srcOf ei))

/-- The node encoding's rows at the source indices. -/
def nodeJ (ne : FVec Ideal S100000x32 .f32) (ei : IVec S2x1600000 32) : FVec Ideal S1600000x32 .f32 :=
  Host.gather gather_S100000x32_S1600000x1_S1600000x32_1_0_n_n_0_1_132 ne (srcIdx ei)

/-- The message of each edge: two layers over the edge encoding beside the source row. -/
def msgOf (ee nj : FVec Ideal S1600000x32 .f32) (w1 : FVec Ideal S64x16 .f32) (b1 : FVec Ideal S16 .f32)
    (w2 : FVec Ideal S16x64 .f32) (b2 : FVec Ideal S64 .f32) : FVec Ideal S1600000x64 .f32 :=
  lrelu bcast_S_S1600000x64
    (addf (Host.dotGeneral dot_S1600000x16_S16x64_S1600000x64_1_0_0_1_n_n none
      (lrelu bcast_S_S1600000x16
        (addf (Host.dotGeneral dot_S1600000x64_S64x16_S1600000x16_1_0_0_1_n_n none
            (concatenate S1600000x64 1 [⟨S1600000x32, ee⟩, ⟨S1600000x32, nj⟩] concatenates_S1600000x32_S1600000x32_S1600000x64_d1) w1)
          (broadcastInDim S1600000x16 ![0, 1] bcast_S1x16_S1600000x16_0_1 (broadcastInDim S1x16 ![1] bcast_S16_S1x16_1 b1)))) w2)
      (broadcastInDim S1600000x64 ![0, 1] bcast_S1x64_S1600000x64_0_1 (broadcastInDim S1x64 ![1] bcast_S64_S1x64_1 b2)))

/-- The messages summed at their destination nodes, from zero. -/
def aggOf (msg : FVec Ideal S1600000x64 .f32) (ei : IVec S2x1600000 32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (dstOf ei)) msg

/-- A row's mean over its 192 entries, as a column. -/
def rowMean (h : FVec Ideal S100000x192 .f32) : FVec Ideal S100000x1 .f32 :=
  Host.divf (broadcastInDim S100000x1 ![0] bcast_S100000_S100000x1_0
      (Host.reduceAdd h (constant S_ .f32 0x00000000#32) reducesTo_S100000x192_S100000_d1 h_S_))
    (broadcastInDim S100000x1 ![] bcast_S_S100000x1 (constant S_ .f32 0x43400000#32))

/-- A row's deviations from its mean. -/
def centred (h : FVec Ideal S100000x192 .f32) : FVec Ideal S100000x192 .f32 :=
  subf h (broadcastInDim S100000x192 ![0, 1] bcast_S100000x1_S100000x192_0_1 (rowMean h))

/-- Row normalisation: (h − mean) · rsqrt(var + ε) · γ + β. -/
def layerNorm (h : FVec Ideal S100000x192 .f32) (g b : FVec Ideal S192 .f32) : FVec Ideal S100000x192 .f32 :=
  addf (mulf (mulf (centred h)
      (broadcastInDim S100000x192 ![0, 1] bcast_S100000x1_S100000x192_0_1
        (Host.rsqrt (addf (rowMean (mulf (centred h) (centred h)))
          (broadcastInDim S100000x1 ![] bcast_S_S100000x1 (constant S_ .f32 0x3727C5AC#32))))))
      (broadcastInDim S100000x192 ![0, 1] bcast_S1x192_S100000x192_0_1 (broadcastInDim S1x192 ![1] bcast_S192_S1x192_1 g)))
    (broadcastInDim S100000x192 ![0, 1] bcast_S1x192_S100000x192_0_1 (broadcastInDim S1x192 ![1] bcast_S192_S1x192_1 b))

/-- The output: the aggregate beside the node features, normalised, then three layers (no rectifier after the last). -/
def postProc (agg : FVec Ideal S100000x64 .f32) (x : FVec Ideal S100000x128 .f32) (g b : FVec Ideal S192 .f32)
    (w1 : FVec Ideal S192x32 .f32) (b1 : FVec Ideal S32 .f32) (w2 : FVec Ideal S32x32 .f32) (b2 : FVec Ideal S32 .f32)
    (w3 : FVec Ideal S32x64 .f32) (b3 : FVec Ideal S64 .f32) : FVec Ideal S100000x64 .f32 :=
  addf (Host.dotGeneral dot_S100000x32_S32x64_S100000x64_1_0_0_1_n_n none
      (lrelu bcast_S_S100000x32
        (addf (Host.dotGeneral dot_S100000x32_S32x32_S100000x32_1_0_0_1_n_n none
            (lrelu bcast_S_S100000x32
              (addf (Host.dotGeneral dot_S100000x192_S192x32_S100000x32_1_0_0_1_n_n none
                  (layerNorm (concatenate S100000x192 1 [⟨S100000x64, agg⟩, ⟨S100000x128, x⟩] concatenates_S100000x64_S100000x128_S100000x192_d1) g b) w1)
                (broadcastInDim S100000x32 ![0, 1] bcast_S1x32_S100000x32_0_1 (broadcastInDim S1x32 ![1] bcast_S32_S1x32_1 b1)))) w2)
          (broadcastInDim S100000x32 ![0, 1] bcast_S1x32_S100000x32_0_1 (broadcastInDim S1x32 ![1] bcast_S32_S1x32_1 b2)))) w3)
    (broadcastInDim S100000x64 ![0, 1] bcast_S1x64_S100000x64_0_1 (broadcastInDim S1x64 ![1] bcast_S64_S1x64_1 b3))

/-- The whole computation as one function of the inputs. -/
def result (x : FVec Ideal S100000x128 .f32) (ei : IVec S2x1600000 32) (a : FVec Ideal S1600000x64 .f32)
    (nw1 : FVec Ideal S128x16 .f32) (nb1 : FVec Ideal S16 .f32) (nw2 : FVec Ideal S16x32 .f32) (nb2 : FVec Ideal S32 .f32)
    (ew1 : FVec Ideal S64x16 .f32) (eb1 : FVec Ideal S16 .f32) (ew2 : FVec Ideal S16x32 .f32) (eb2 : FVec Ideal S32 .f32)
    (gw1 : FVec Ideal S64x16 .f32) (gb1 : FVec Ideal S16 .f32) (gw2 : FVec Ideal S16x64 .f32) (gb2 : FVec Ideal S64 .f32)
    (lg lb : FVec Ideal S192 .f32) (pw1 : FVec Ideal S192x32 .f32) (pb1 : FVec Ideal S32 .f32)
    (pw2 : FVec Ideal S32x32 .f32) (pb2 : FVec Ideal S32 .f32) (pw3 : FVec Ideal S32x64 .f32) (pb3 : FVec Ideal S64 .f32) :
    FVec Ideal S100000x64 .f32 :=
  postProc (aggOf (msgOf (edgeEnc a ew1 eb1 ew2 eb2) (nodeJ (nodeEnc x nw1 nb1 nw2 nb2) ei) gw1 gb1 gw2 gb2) ei) x lg lb pw1 pb1 pw2 pb2 pw3 pb3

end Cert.Spec

end
-- ==== Proof.Region0.lean ====
/-
  Region 0, the node encoder, over a grid of 20 points: point t fetches rows 5000·t … 5000·t + 4999 of the node
  features and the whole weights, computes φ(φ(x·W₁ + b₁)·W₂ + b₂) on the block, and writes the 5000 × 32 result back
  to the same rows. The blocks tile the array, and every row of the result depends on the same row of x only, so
  the array the region leaves is the node encoding of the whole-array specification.

  The order of the argument: a plain product of matrices read entry by entry as a sum over the contracted axis;
  both programs' products are such plain products; one row of the encoding as ONE expression in the row of x and
  the weights, which the kernel's payload at (p, q) of a block and the specification at (5000·t + p, q) of the
  array both are; each window's block at point t as rows of its array; so what point t writes back is block t of
  the specification; row R lies in the block of point R / 5000; hence the array.
-/
import proofs.«413093_j68839735820749_1_alg».proof.Proof.Gen.KernelIdeal.Frame
import proofs.«413093_j68839735820749_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Region0

open Idealize.ShloMosaic Idealize.ShloMosaic.TcCoe Idealize.SL.Sem
open Idealize.ShloMosaic.Pipeline (Dat Cfg Window)
open Cert.KernelIdeal Cert.KernelIdeal.Gen
open Idealize.ShloMosaic.ValueIdx
open scoped BigOperators

/-! ## A plain product of matrices, entry by entry -/

theorem plain_lhs_0 (m K n : Nat) (j : (⟨2, ![m, n]⟩ : Shape).Idx) (k : (DotDims.plain m K n).contr.Idx) :
    ((DotDims.plain m K n).lhsIdx j k 0 : ℕ) = j 0 := rfl
theorem plain_lhs_1 (m K n : Nat) (j : (⟨2, ![m, n]⟩ : Shape).Idx) (k : (DotDims.plain m K n).contr.Idx) :
    ((DotDims.plain m K n).lhsIdx j k 1 : ℕ) = k ⟨0, Nat.one_pos⟩ := rfl
theorem plain_rhs_0 (m K n : Nat) (j : (⟨2, ![m, n]⟩ : Shape).Idx) (k : (DotDims.plain m K n).contr.Idx) :
    ((DotDims.plain m K n).rhsIdx j k 0 : ℕ) = k ⟨0, Nat.one_pos⟩ := rfl
theorem plain_rhs_1 (m K n : Nat) (j : (⟨2, ![m, n]⟩ : Shape).Idx) (k : (DotDims.plain m K n).contr.Idx) :
    ((DotDims.plain m K n).rhsIdx j k 1 : ℕ) = j 1 := rfl

/-- The sum of products over the contracted axis of an [m, K] by [K, n] product at entry (p, q) runs over `Fin K`:
    row p of the left factor against column q of the right one. -/
theorem plain_sum (m K n : Nat) (L : (⟨2, ![m, K]⟩ : Shape).Idx → EReal) (R : (⟨2, ![K, n]⟩ : Shape).Idx → EReal)
    (p : Fin m) (q : Fin n) :
    (∑ k : (DotDims.plain m K n).contr.Idx, L ((DotDims.plain m K n).lhsIdx (ix2 p q) k) * R ((DotDims.plain m K n).rhsIdx (ix2 p q) k))
      = ∑ i : Fin K, L (ix2 p i) * R (ix2 i q) := by
  rw [← Equiv.sum_comp (contrEquiv1 (DotDims.plain m K n) K rfl rfl).symm]
  refine Finset.sum_congr rfl fun i _ => ?_
  congr 2
  · apply Shape.idx_ext₂
    · exact plain_lhs_0 m K n _ _
    · exact (plain_lhs_1 m K n _ _).trans (contrEquiv1_symm_val (DotDims.plain m K n) K rfl rfl i)
  · apply Shape.idx_ext₂
    · exact (plain_rhs_0 m K n _ _).trans (contrEquiv1_symm_val (DotDims.plain m K n) K rfl rfl i)
    · exact plain_rhs_1 m K n _ _

/-! ## The two programs' products are plain ones -/

theorem kdot1_eq : dot_S5000x128_S128x16_S5000x16_1_0_0_1_n_n = DotDims.plain 5000 128 16 := rfl
theorem kdot2_eq : dot_S5000x16_S16x32_S5000x32_1_0_0_1_n_n = DotDims.plain 5000 16 32 := rfl
theorem rdot1_eq : Cert.ReferenceIdeal.dot_S100000x128_S128x16_S100000x16_1_0_0_1_n_n = DotDims.plain 100000 128 16 := rfl
theorem rdot2_eq : Cert.ReferenceIdeal.dot_S100000x16_S16x32_S100000x32_1_0_0_1_n_n = DotDims.plain 100000 16 32 := rfl

/-- The block's first product into a zero accumulator, at row p and column k: row p of the block against column k of W₁. -/
theorem kmatmul1_apply {φ₁ φ₂ : FTy} (lhs : FVec Ideal S5000x128 φ₁) (rhs : FVec Ideal S128x16 φ₂) (p : Fin 5000) (k : Fin 16) :
    matmul dot_S5000x128_S128x16_S5000x16_1_0_0_1_n_n none lhs rhs (constant S5000x16 .f32 0x00000000#32) (ix2 p k)
      = ∑ i : Fin 128, lhs (ix2 p i) * rhs (ix2 i k) := by
  rw [kdot1_eq]
  exact (Ideal.matmul_constant_zero_apply _ none lhs rhs (ix2 p k)).trans (plain_sum 5000 128 16 lhs rhs p k)

/-- The block's second product, at row p and column q. -/
theorem kmatmul2_apply {φ₁ φ₂ : FTy} (lhs : FVec Ideal S5000x16 φ₁) (rhs : FVec Ideal S16x32 φ₂) (p : Fin 5000) (q : Fin 32) :
    matmul dot_S5000x16_S16x32_S5000x32_1_0_0_1_n_n none lhs rhs (constant S5000x32 .f32 0x00000000#32) (ix2 p q)
      = ∑ k : Fin 16, lhs (ix2 p k) * rhs (ix2 k q) := by
  rw [kdot2_eq]
  exact (Ideal.matmul_constant_zero_apply _ none lhs rhs (ix2 p q)).trans (plain_sum 5000 16 32 lhs rhs p q)

/-- The whole array's first product, at row R and column k. -/
theorem rdot1_apply {φ₁ φ₂ : FTy} (lhs : FVec Ideal Cert.ReferenceIdeal.S100000x128 φ₁) (rhs : FVec Ideal Cert.ReferenceIdeal.S128x16 φ₂)
    (R : Fin 100000) (k : Fin 16) :
    Host.dotGeneral Cert.ReferenceIdeal.dot_S100000x128_S128x16_S100000x16_1_0_0_1_n_n none lhs rhs (ix2 R k)
      = ∑ i : Fin 128, lhs (ix2 R i) * rhs (ix2 i k) := by
  rw [rdot1_eq]
  exact (Ideal.dotGeneral_apply _ none .single lhs rhs (ix2 R k)).trans (plain_sum 100000 128 16 lhs rhs R k)

/-- The whole array's second product, at row R and column q. -/
theorem rdot2_apply {φ₁ φ₂ : FTy} (lhs : FVec Ideal Cert.ReferenceIdeal.S100000x16 φ₁) (rhs : FVec Ideal Cert.ReferenceIdeal.S16x32 φ₂)
    (R : Fin 100000) (q : Fin 32) :
    Host.dotGeneral Cert.ReferenceIdeal.dot_S100000x16_S16x32_S100000x32_1_0_0_1_n_n none lhs rhs (ix2 R q)
      = ∑ k : Fin 16, lhs (ix2 R k) * rhs (ix2 k q) := by
  rw [rdot2_eq]
  exact (Ideal.dotGeneral_apply _ none .single lhs rhs (ix2 R q)).trans (plain_sum 100000 16 32 lhs rhs R q)

/-! ## The bias rows -/

/-- A vector laid as one row and repeated down the block reads, at (p, k), its entry k. -/
theorem krow_apply {α : Type} {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (k : Fin b) :
    broadcastTo ⟨2, ![a, b]⟩ (shapeCast ⟨2, ![1, b]⟩ v h1) h2 (ix2 p k) = v (ix1 k) :=
  (broadcastTo_1b_ab_apply _ h2 p k).trans (shapeCast_a_1a_apply v h1 0 k)

/-- The host's spelling of the same row: broadcast to one row, then down the array. -/
theorem rrow_apply {α : Type} {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (R : Fin a) (k : Fin b) :
    broadcastInDim ⟨2, ![a, b]⟩ ![0, 1] h2 (broadcastInDim ⟨2, ![1, b]⟩ ![1] h1 v) (ix2 R k) = v (ix1 k) := by
  refine (broadcastInDim_apply ![0, 1] h2 _ (ix2 R k) (ix2 (0 : Fin 1) k) fun ax => ?_).trans
    (broadcastInDim_apply ![1] h1 v (ix2 (0 : Fin 1) k) (ix1 k) fun ax => ?_)
  · match ax with
    | ⟨0, _⟩ => rfl
    | ⟨1, _⟩ =>
      show k.val = if b = 1 then 0 else k.val
      split
      · have := k.isLt; omega
      · rfl
  · match ax with
    | ⟨0, _⟩ =>
      show k.val = if b = 1 then 0 else k.val
      split
      · have := k.isLt; omega
      · rfl

/-! ## One row of the node encoding -/

/-- The leaky rectifier on one extended real: v where v ≥ 0, the slope times v elsewhere. -/
def phi (v : EReal) : EReal :=
  Scalar.select (FloatOps.cmpf (F := Ideal) (φ := .f32) .oge v (Ideal.ofBits .f32 0x00000000#32)) v
    (Ideal.ofBits .f32 0x3C23D70A#32 * v)

/-- The hidden layer of one row: entry k of φ(row · W₁ + b₁). -/
def hid (xr : Fin 128 → EReal) (w1 : S128x16.Idx → EReal) (b1 : S16.Idx → EReal) (k : Fin 16) : EReal :=
  phi ((∑ i : Fin 128, xr i * w1 (ix2 i k)) + b1 (ix1 k))

/-- The encoding of one row: entry q of φ(φ(row · W₁ + b₁) · W₂ + b₂). -/
def enc (xr : Fin 128 → EReal) (w1 : S128x16.Idx → EReal) (b1 : S16.Idx → EReal) (w2 : S16x32.Idx → EReal)
    (b2 : S32.Idx → EReal) (q : Fin 32) : EReal :=
  phi ((∑ k : Fin 16, hid xr w1 b1 k * w2 (ix2 k q)) + b2 (ix1 q))

/-- The specification's rectifier, entry by entry. -/
theorem lrelu_apply {S : Shape} (h : Cert.ReferenceIdeal.S_.BroadcastsInDim S (![] : Fin 0 → Fin S.rank)) (v : FVec Ideal S .f32)
    (j : S.Idx) : Cert.Spec.lrelu h v j = phi (v j) := rfl

/-- The kernel's payload at row p and column q of a block is the encoding of row p of the block. -/
theorem pay_apply (x0 : Vec Ideal S5000x128 .f32) (x1 : Vec Ideal S128x16 .f32) (x2 : Vec Ideal S16 .f32)
    (x3 : Vec Ideal S16x32 .f32) (x4 : Vec Ideal S32 .f32) (p : Fin 5000) (q : Fin 32) :
    k0_pay1 (F := Ideal) x0 x1 x2 x3 x4 (ix2 p q) = enc (fun i => x0 (ix2 p i)) x1 x2 x3 x4 q := by
  unfold k0_pay1
  simp only [select_apply, cmpf_apply, addf_apply, mulf_apply, broadcast_apply, truncf_apply, kmatmul1_apply, kmatmul2_apply,
    krow_apply]
  have hphi : ∀ v : EReal, Scalar.select (FloatOps.cmpf (F := Ideal) (φ := .f32) .oge v (FloatOps.ofBits .f32 0x00000000#32)) v
      (v * FloatOps.ofBits (F := Ideal) .f32 0x3C23D70A#32) = phi v := fun v => by
    unfold phi; rw [mul_comm]; rfl
  simp only [hphi]
  rfl

/-- The specification's two bias rows, as it spells them. -/
theorem rrow16_apply (b1 : FVec Ideal Cert.ReferenceIdeal.S16 .f32) (R : Fin 100000) (k : Fin 16) :
    broadcastInDim Cert.ReferenceIdeal.S100000x16 ![0, 1] Cert.ReferenceIdeal.Facts₀.bcast_S1x16_S100000x16_0_1
      (broadcastInDim Cert.ReferenceIdeal.S1x16 ![1] Cert.ReferenceIdeal.Facts₀.bcast_S16_S1x16_1 b1) (ix2 R k) = b1 (ix1 k) :=
  rrow_apply b1 _ _ R k
theorem rrow32_apply (b2 : FVec Ideal Cert.ReferenceIdeal.S32 .f32) (R : Fin 100000) (q : Fin 32) :
    broadcastInDim Cert.ReferenceIdeal.S100000x32 ![0, 1] Cert.ReferenceIdeal.Facts₀.bcast_S1x32_S100000x32_0_1
      (broadcastInDim Cert.ReferenceIdeal.S1x32 ![1] Cert.ReferenceIdeal.Facts₀.bcast_S32_S1x32_1 b2) (ix2 R q) = b2 (ix1 q) :=
  rrow_apply b2 _ _ R q

/-- The specification at row R and column q is the encoding of row R of x. -/
theorem nodeEnc_apply (x : FVec Ideal Cert.ReferenceIdeal.S100000x128 .f32) (w1 : FVec Ideal Cert.ReferenceIdeal.S128x16 .f32)
    (b1 : FVec Ideal Cert.ReferenceIdeal.S16 .f32) (w2 : FVec Ideal Cert.ReferenceIdeal.S16x32 .f32)
    (b2 : FVec Ideal Cert.ReferenceIdeal.S32 .f32) (R : Fin 100000) (q : Fin 32) :
    Cert.Spec.nodeEnc x w1 b1 w2 b2 (ix2 R q) = enc (fun i => x (ix2 R i)) w1 b1 w2 b2 q := by
  unfold Cert.Spec.nodeEnc
  rw [lrelu_apply, addf_apply, rdot2_apply, rrow32_apply]
  unfold enc
  congr 2
  refine Finset.sum_congr rfl fun k _ => ?_
  congr 1
  rw [lrelu_apply, addf_apply, rdot1_apply, rrow16_apply]
  rfl

/-! ## From the blocks to the array -/

theorem hz2 : (![0, 0] : Fin 2 → Nat) = fun _ => 0 := funext fun a => by fin_cases a <;> rfl
theorem hz1 : (![0] : Fin 1 → Nat) = fun _ => 0 := funext fun a => by fin_cases a; rfl

/-- Where the index maps put each window's block at point t: the node features' and the result's at block t of the
    rows, the four weights' at their whole arrays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Row p of the node features' block at point t is row 5000·t + p of the array. -/
theorem xblk_apply (c : Dev nD) (t : Fin cfg0.N) (p : Fin 5000) (i : Fin 128) (R : Fin 100000) (hR : R.val = 5000 * t.val + p.val) :
    (iblk0 (F := Ideal) V c 0 t : Vec Ideal S5000x128 .f32) (ix2 p i) = (V c main_arg0 : S100000x128.Idx → EReal) (ix2 R i) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = R.val; rw [e0, hR]; omega
  | ⟨1, _⟩ => show win0_0.index t (1 : Fin 2) * 128 + 1 * i.val = i.val; rw [e1]; omega

/-- The weights' blocks are their whole arrays at every point. -/
theorem w1blk_eq (c : Dev nD) (t : Fin cfg0.N) : (iblk0 (F := Ideal) V c 1 t : Vec Ideal S128x16 .f32) = V c main_arg3 := by
  obtain ⟨-, -, e0, e1, -⟩ := idx_facts t
  funext j
  unfold iblk0
  rw [View.read_apply]
  show V c main_arg3 _ = V c main_arg3 _
  congr 1
  funext a
  apply Fin.ext
  match a with
  | ⟨0, _⟩ => show win0_1.index t (0 : Fin 2) * 128 + 1 * (j 0).val = (j 0).val; rw [e0]; omega
  | ⟨1, _⟩ => show win0_1.index t (1 : Fin 2) * 16 + 1 * (j 1).val = (j 1).val; rw [e1]; omega

theorem b1blk_eq (c : Dev nD) (t : Fin cfg0.N) : (iblk0 (F := Ideal) V c 2 t : Vec Ideal S16 .f32) = V c main_arg4 := by
  obtain ⟨-, -, -, -, e0, -⟩ := idx_facts t
  funext j
  unfold iblk0
  rw [View.read_apply]
  show V c main_arg4 _ = V c main_arg4 _
  congr 1
  funext a
  apply Fin.ext
  match a with
  | ⟨0, _⟩ => show win0_2.index t (0 : Fin 1) * 16 + 1 * (j 0).val = (j 0).val; rw [e0]; omega

theorem w2blk_eq (c : Dev nD) (t : Fin cfg0.N) : (iblk0 (F := Ideal) V c 3 t : Vec Ideal S16x32 .f32) = V c main_arg5 := by
  obtain ⟨-, -, -, -, -, e0, e1, -⟩ := idx_facts t
  funext j
  unfold iblk0
  rw [View.read_apply]
  show V c main_arg5 _ = V c main_arg5 _
  congr 1
  funext a
  apply Fin.ext
  match a with
  | ⟨0, _⟩ => show win0_3.index t (0 : Fin 2) * 16 + 1 * (j 0).val = (j 0).val; rw [e0]; omega
  | ⟨1, _⟩ => show win0_3.index t (1 : Fin 2) * 32 + 1 * (j 1).val = (j 1).val; rw [e1]; omega

theorem b2blk_eq (c : Dev nD) (t : Fin cfg0.N) : (iblk0 (F := Ideal) V c 4 t : Vec Ideal S32 .f32) = V c main_arg6 := by
  obtain ⟨-, -, -, -, -, -, -, e0, -⟩ := idx_facts t
  funext j
  unfold iblk0
  rw [View.read_apply]
  show V c main_arg6 _ = V c main_arg6 _
  congr 1
  funext a
  apply Fin.ext
  match a with
  | ⟨0, _⟩ => show win0_4.index t (0 : Fin 1) * 32 + 1 * (j 0).val = (j 0).val; rw [e0]; omega

/-- Encodings of equal rows under equal weights are equal. -/
theorem enc_congr {xr xr' : Fin 128 → EReal} {w1 w1' : S128x16.Idx → EReal} {b1 b1' : S16.Idx → EReal}
    {w2 w2' : S16x32.Idx → EReal} {b2 b2' : S32.Idx → EReal} (hx : xr = xr') (h1 : w1 = w1') (h2 : b1 = b1') (h3 : w2 = w2')
    (h4 : b2 = b2') (q : Fin 32) : enc xr w1 b1 w2 b2 q = enc xr' w1' b1' w2' b2' q := by
  subst hx h1 h2 h3 h4; rfl

/-- Entry (p, q) of what the body computes on the blocks of point t is entry (5000·t + p, q) of the node encoding of the
    whole arrays: the row depends on the same row of x only. -/
theorem block_apply (c : Dev nD) (t : Fin cfg0.N) (p : Fin 5000) (q : Fin 32) (R : Fin 100000) (hR : R.val = 5000 * t.val + p.val) :
    k0_pay1 (F := Ideal) (iblk0 V c 0 t) (iblk0 V c 1 t) (iblk0 V c 2 t) (iblk0 V c 3 t) (iblk0 V c 4 t) (ix2 p q)
      = Cert.Spec.nodeEnc (V c main_arg0) (V c main_arg3) (V c main_arg4) (V c main_arg5) (V c main_arg6) (ix2 R q) := by
  refine (pay_apply (iblk0 V c 0 t) (iblk0 V c 1 t) (iblk0 V c 2 t) (iblk0 V c 3 t) (iblk0 V c 4 t) p q).trans ?_
  refine Eq.trans ?_ (nodeEnc_apply (V c main_arg0) (V c main_arg3) (V c main_arg4) (V c main_arg5) (V c main_arg6) R q).symm
  exact enc_congr (funext fun i => xblk_apply V c t p i R hR) (w1blk_eq V c t) (b1blk_eq V c t) (w2blk_eq V c t) (b2blk_eq V c t) q

/-- Entry (p, q) of the result's block at point t sits at (5000·t + p, q) of the array. -/
theorem oblk_emb (t : Fin cfg0.N) (p : Fin 5000) (q : Fin 32) (R : Fin 100000) (hR : R.val = 5000 * t.val + p.val) :
    ((cfg0.win 5).blk t).view.emb (ix2 p q : S5000x32.Idx) = (ix2 R q : S100000x32.Idx) := by
  obtain ⟨-, -, -, -, -, -, -, -, e0, e1⟩ := idx_facts t
  funext a
  apply Fin.ext
  match a with
  | ⟨0, _⟩ => show win0_5.index t (0 : Fin 2) * 5000 + 1 * p.val = R.val; rw [e0, hR]; omega
  | ⟨1, _⟩ => show win0_5.index t (1 : Fin 2) * 32 + 1 * q.val = q.val; rw [e1]; omega

/-- What point t writes back is block t of the node encoding of the arrays as the region finds them. -/
theorem flushed_eq (c : Dev nD) (t : Fin cfg0.N) :
    (dat0 (F := Ideal) V c).flushed 5 t = ((cfg0.win 5).blk t).view.read (Elt Ideal)
      (Cert.Spec.nodeEnc (V c main_arg0) (V c main_arg3) (V c main_arg4) (V c main_arg5) (V c main_arg6)) := by
  show (cfg0.win 5).cut (grid0.coords t) ((dat0 (F := Ideal) V c).after 5 t) = _
  rw [after0_5]
  unfold out0_5
  rw [View.canon_unit_zero hz2]
  simp only [View.ld_unit_zero (S := S5000x128) hz2, View.ld_unit_zero (S := S128x16) hz2, View.ld_unit_zero (S := S16) hz1,
    View.ld_unit_zero (S := S16x32) hz2, View.ld_unit_zero (S := S32) hz1]
  have ht : t.val < 20 := lt_of_lt_of_eq t.isLt N_0
  funext j
  obtain ⟨p, q, rfl⟩ : ∃ (p : Fin 5000) (q : Fin 32), j = ix2 p q := ⟨j 0, j 1, eq_ix2 j⟩
  have hR : 5000 * t.val + p.val < 100000 := by have := p.isLt; omega
  show k0_pay1 (F := Ideal) (iblk0 V c 0 t) (iblk0 V c 1 t) (iblk0 V c 2 t) (iblk0 V c 3 t) (iblk0 V c 4 t) (ix2 p q)
    = Cert.Spec.nodeEnc (V c main_arg0) (V c main_arg3) (V c main_arg4) (V c main_arg5) (V c main_arg6)
        (((cfg0.win 5).blk t).view.emb (ix2 p q : S5000x32.Idx))
  rw [oblk_emb t p q ⟨5000 * t.val + p.val, hR⟩ rfl]
  exact block_apply V c t p q ⟨5000 * t.val + p.val, hR⟩ rfl

/-- Row R of the result lies in the block of point R / 5000: the twenty blocks tile the array. -/
theorem covered (i : S100000x32.Idx) :
    ∃ t : Fin cfg0.N, (cfg0.win 5).flush t = true ∧ i ∈ ((cfg0.win 5).blk t).view.set := by
  have hi0 : (i 0).val < 100000 := (i 0).isLt
  have hi1 : (i 1).val < 32 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, -, -, -, -, e0, e1⟩ := idx_facts t
  refine ⟨t, flush0_5 t, ?_⟩
  show i ∈ ((View.whole main_v4).slice (win0_5.rect t)).set
  rw [View.set_slice_whole, Rect.mem_set_unit]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 32 ≤ (i 1).val ∧ (i 1).val < win0_5.index t (1 : Fin 2) * 32 + 32
    rw [e1]; omega

/-- What region 0 leaves in its output array is the node encoding of its input arrays as the region finds them. -/
theorem node_enc (c : Dev nD) :
    (dat0 (F := Ideal) V c).arrAt 5 cfg0.N
      = Cert.Spec.nodeEnc (V c main_arg0) (V c main_arg3) (V c main_arg4) (V c main_arg5) (V c main_arg6) :=
  (dat0 (F := Ideal) V c).arrAt_eq_of_cover 5 _ (fun t _ => flushed_eq V c t) covered

end Cert.KernelIdeal.Region0

end
-- ==== Proof.Region1.lean ====
/-
  Region 1, the edge encoder fused with the message layers, over a grid of 200 points: point t fetches rows
  8000·t … 8000·t + 7999 of the edge attributes and of the gathered source rows and the whole weights, computes the
  edge encoding of the block, sets it beside the source rows, applies the two message layers and writes the
  8000 × 64 block back. Every row of the result depends on the same row of the two inputs only.
-/
import proofs.«413093_j68839735820749_1_alg».proof.Proof.Gen.KernelIdeal.Frame
import proofs.«413093_j68839735820749_1_alg».proof.Proof.Spec
import Idealize.ShloMosaic.Lib.StackMember
import Idealize.ShloMosaic.Lib.ValueLayout

set_option maxRecDepth 16384

noncomputable section

namespace Cert.KernelIdeal.Region1

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-! ## One row of one layer, as the block and as the whole array spell it

A block of 8000 rows and the whole array of 1600000 rows go through the same layers. Each layer's entry at a row
depends on that row of its operand only, so where row p of the block's operand is row R of the array's operand, row p
of the block's result is row R of the array's. One lemma per kind of layer says so, for any two row counts. -/

section Layers
variable {n m a b : Nat}

/-- An affine layer x·W + c. At row p of the block: the matrix unit's product into a zero accumulator, plus the bias
    cast to one row and laid along the rows. At row R of the array: the host's product, plus the bias broadcast in two
    steps. Both are the sum over the contracted coordinate of x(row, k)·W(k, q), plus c(q); the narrowing of the
    operands before the product is the identity on the extended reals. -/
theorem affine_agree
    (dK : DotDims ⟨2, ![n, a]⟩ ⟨2, ![a, b]⟩ ⟨2, ![n, b]⟩) (hK : dK = DotDims.plain n a b)
    (dS : DotDims ⟨2, ![m, a]⟩ ⟨2, ![a, b]⟩ ⟨2, ![m, b]⟩) (hS : dS = DotDims.plain m a b)
    (hb : FTy.bits .bf16 < FTy.bits .f32)
    (h1 : (⟨1, ![b]⟩ : Shape).ShapeCasts ⟨2, ![1, b]⟩) (h2 : (⟨2, ![1, b]⟩ : Shape).Broadcasts ⟨2, ![n, b]⟩)
    (g1 : (⟨1, ![b]⟩ : Shape).BroadcastsInDim ⟨2, ![1, b]⟩ ![1])
    (g2 : (⟨2, ![1, b]⟩ : Shape).BroadcastsInDim ⟨2, ![m, b]⟩ ![0, 1])
    (xk : FVec Ideal ⟨2, ![n, a]⟩ .f32) (xs : FVec Ideal ⟨2, ![m, a]⟩ .f32) (w : FVec Ideal ⟨2, ![a, b]⟩ .f32)
    (c : FVec Ideal ⟨1, ![b]⟩ .f32) (p : Fin n) (R : Fin m)
    (hx : ∀ k : Fin a, xk (ix2 p k) = xs (ix2 R k)) (q : Fin b) :
    addf (matmul dK none (truncf .bf16 xk hb) (truncf .bf16 w hb) (constant ⟨2, ![n, b]⟩ .f32 0x00000000#32))
        (broadcastTo ⟨2, ![n, b]⟩ (shapeCast ⟨2, ![1, b]⟩ c h1) h2) (ix2 p q)
      = addf (Host.dotGeneral dS none xs w)
        (broadcastInDim ⟨2, ![m, b]⟩ ![0, 1] g2 (broadcastInDim ⟨2, ![1, b]⟩ ![1] g1 c)) (ix2 R q) := by
  subst hK hS
  rw [addf_apply, addf_apply, matmul_zero_eq_dotGeneral, StackMember.dotGeneral_plain_apply,
    StackMember.dotGeneral_plain_apply, broadcastTo_1b_ab_apply, shapeCast_a_1a_apply, broadcastInDim_oneRow_apply]
  have e : broadcastInDim ⟨2, ![1, b]⟩ ![1] g1 c (ix2 (0 : Fin 1) q) = c (ix1 q) :=
    broadcastInDim_apply ![1] g1 c (ix2 (0 : Fin 1) q) (ix1 q) (fun ax => by
      match ax with
      | ⟨0, _⟩ =>
        show q.val = if b = 1 then 0 else q.val
        split
        · have := q.isLt; omega
        · rfl)
  rw [e]
  refine congrArg (· + c (ix1 q)) (Finset.sum_congr rfl fun k _ => ?_)
  show xk (ix2 p k) * w (ix2 k q) = xs (ix2 R k) * w (ix2 k q)
  rw [hx k]

/-- The leaky rectifier, entry by entry. The block compares with a splat of zero and multiplies by a splat of the
    slope on the right; the array compares with a broadcast zero constant and multiplies by the broadcast slope on
    the left. At one entry both select v where v ≥ 0 and slope·v elsewhere (the product commutes). -/
theorem lrelu_agree {S T : Shape} (h : Cert.ReferenceIdeal.S_.BroadcastsInDim T (![] : Fin 0 → Fin T.rank))
    (vk : FVec Ideal S .f32) (vs : FVec Ideal T .f32) (i : S.Idx) (j : T.Idx) (hv : vk i = vs j) :
    select (cmpf .oge vk (broadcast S (Scalar.ofBits .f32 0x00000000#32))) vk
        (mulf vk (broadcast S (Scalar.ofBits .f32 0x3C23D70A#32))) i
      = Cert.Spec.lrelu h vs j := by
  unfold Cert.Spec.lrelu Cert.Spec.slope
  show Scalar.select (FloatOps.cmpf .oge (vk i) (Ideal.ofBits .f32 0x00000000#32)) (vk i)
      ((vk i : EReal) * Ideal.ofBits .f32 0x3C23D70A#32)
    = Scalar.select (FloatOps.cmpf .oge (vs j) (Ideal.ofBits .f32 0x00000000#32)) (vs j)
      (Ideal.ofBits .f32 0x3C23D70A#32 * (vs j : EReal))
  rw [hv, mul_comm]

/-- Two arrays set side by side along the columns. Column j of the result is column j of the first where j is below
    the first's width, column j less that width of the second elsewhere, in the block and in the array alike. -/
theorem concat_agree {α : Type} {c : Nat} (hc : a + b = c)
    (hK : Shape.Concatenates [(⟨2, ![n, a]⟩ : Shape), ⟨2, ![n, b]⟩] ⟨2, ![n, c]⟩ 1)
    (hS : Shape.Concatenates [(⟨2, ![m, a]⟩ : Shape), ⟨2, ![m, b]⟩] ⟨2, ![m, c]⟩ 1)
    (uk : (⟨2, ![n, a]⟩ : Shape).Idx → α) (vk : (⟨2, ![n, b]⟩ : Shape).Idx → α)
    (us : (⟨2, ![m, a]⟩ : Shape).Idx → α) (vs : (⟨2, ![m, b]⟩ : Shape).Idx → α) (p : Fin n) (R : Fin m)
    (hu : ∀ j : Fin a, uk (ix2 p j) = us (ix2 R j)) (hv : ∀ j : Fin b, vk (ix2 p j) = vs (ix2 R j)) (j : Fin c) :
    concatenate ⟨2, ![n, c]⟩ 1 [⟨⟨2, ![n, a]⟩, uk⟩, ⟨⟨2, ![n, b]⟩, vk⟩] hK (ix2 p j)
      = concatenate ⟨2, ![m, c]⟩ 1 [⟨⟨2, ![m, a]⟩, us⟩, ⟨⟨2, ![m, b]⟩, vs⟩] hS (ix2 R j) := by
  have hj : j.val < c := j.isLt
  by_cases hlt : j.val < a
  · rw [concatenate_pair_apply_left (t := ⟨2, ![n, c]⟩) (s₁ := ⟨2, ![n, a]⟩) (s₂ := ⟨2, ![n, b]⟩) (1 : Fin 2) uk vk hK
        (ix2 p j) rfl (ix2 p (⟨j.val, hlt⟩ : Fin a)) (fun ax => by
          match ax with
          | ⟨0, _⟩ => rfl
          | ⟨1, _⟩ => rfl),
      concatenate_pair_apply_left (t := ⟨2, ![m, c]⟩) (s₁ := ⟨2, ![m, a]⟩) (s₂ := ⟨2, ![m, b]⟩) (1 : Fin 2) us vs hS
        (ix2 R j) rfl (ix2 R (⟨j.val, hlt⟩ : Fin a)) (fun ax => by
          match ax with
          | ⟨0, _⟩ => rfl
          | ⟨1, _⟩ => rfl)]
    exact hu _
  · have hjb : j.val - a < b := by omega
    rw [concatenate_pair_apply_right (t := ⟨2, ![n, c]⟩) (s₁ := ⟨2, ![n, a]⟩) (s₂ := ⟨2, ![n, b]⟩) (1 : Fin 2) uk vk hK
        (ix2 p j) rfl rfl (ix2 p (⟨j.val - a, hjb⟩ : Fin b)) (fun ax hax => by
          match ax with
          | ⟨0, _⟩ => rfl
          | ⟨1, _⟩ => exact absurd rfl hax) (by show j.val - a + a = j.val; omega),
      concatenate_pair_apply_right (t := ⟨2, ![m, c]⟩) (s₁ := ⟨2, ![m, a]⟩) (s₂ := ⟨2, ![m, b]⟩) (1 : Fin 2) us vs hS
        (ix2 R j) rfl rfl (ix2 R (⟨j.val - a, hjb⟩ : Fin b)) (fun ax hax => by
          match ax with
          | ⟨0, _⟩ => rfl
          | ⟨1, _⟩ => exact absurd rfl hax) (by show j.val - a + a = j.val; omega)]
    exact hv _

end Layers

/-! ## The body's payload at a row, against the specification at the same row -/

/-- The dimension records of the six products are the plain rows-by-columns product at their extents. -/
theorem dotK_64_16 : dot_S8000x64_S64x16_S8000x16_1_0_0_1_n_n = DotDims.plain 8000 64 16 := rfl
theorem dotK_16_32 : dot_S8000x16_S16x32_S8000x32_1_0_0_1_n_n = DotDims.plain 8000 16 32 := rfl
theorem dotK_16_64 : dot_S8000x16_S16x64_S8000x64_1_0_0_1_n_n = DotDims.plain 8000 16 64 := rfl
theorem dotS_64_16 : Cert.ReferenceIdeal.dot_S1600000x64_S64x16_S1600000x16_1_0_0_1_n_n = DotDims.plain 1600000 64 16 := rfl
theorem dotS_16_32 : Cert.ReferenceIdeal.dot_S1600000x16_S16x32_S1600000x32_1_0_0_1_n_n = DotDims.plain 1600000 16 32 := rfl
theorem dotS_16_64 : Cert.ReferenceIdeal.dot_S1600000x16_S16x64_S1600000x64_1_0_0_1_n_n = DotDims.plain 1600000 16 64 := rfl

/-- Row p of what the body stores is row R of the specification's message array, where row p of the body's block of
    edge attributes is row R of the attribute array and row p of its block of source rows is row R of the source-row
    array: layer by layer, each layer's row depending on the same row of the layer before. -/
theorem payload_agree (x0 : Vec Ideal S8000x64 .f32) (x1 : Vec Ideal S8000x32 .f32)
    (U1 : Vec Ideal S64x16 .f32) (c1 : Vec Ideal S16 .f32) (U2 : Vec Ideal S16x32 .f32) (c2 : Vec Ideal S32 .f32)
    (G1 : Vec Ideal S64x16 .f32) (g1 : Vec Ideal S16 .f32) (G2 : Vec Ideal S16x64 .f32) (g2 : Vec Ideal S64 .f32)
    (A : FVec Ideal S1600000x64 .f32) (NJ : FVec Ideal S1600000x32 .f32) (p : Fin 8000) (R : Fin 1600000)
    (hA : ∀ i : Fin 64, x0 (ix2 p i) = A (ix2 R i)) (hN : ∀ j : Fin 32, x1 (ix2 p j) = NJ (ix2 R j)) (q : Fin 64) :
    k1_pay1 (k1_pay2 x0 U1 c1 U2 c2 x1 G1 g1) (Scalar.ofBits .f32 0x00000000#32) G2 g2 (ix2 p q)
      = Cert.Spec.msgOf (Cert.Spec.edgeEnc A U1 c1 U2 c2) NJ G1 g1 G2 g2 (ix2 R q) := by
  unfold k1_pay1 k1_pay2 Cert.Spec.msgOf Cert.Spec.edgeEnc
  refine lrelu_agree _ _ _ _ _ ?_
  refine affine_agree _ dotK_16_64 _ dotS_16_64 _ _ _ _ _ _ _ _ _ p R (fun k => ?_) q
  refine lrelu_agree _ _ _ _ _ ?_
  refine affine_agree _ dotK_64_16 _ dotS_64_16 _ _ _ _ _ _ _ _ _ p R (fun j => ?_) k
  refine concat_agree (a := 32) (b := 32) (c := 64) rfl _ _ _ _ _ _ p R (fun j' => ?_) (fun j' => ?_) j
  · refine lrelu_agree _ _ _ _ _ ?_
    refine affine_agree _ dotK_16_32 _ dotS_16_32 _ _ _ _ _ _ _ _ _ p R (fun k' => ?_) j'
    refine lrelu_agree _ _ _ _ _ ?_
    exact affine_agree _ dotK_64_16 _ dotS_64_16 _ _ _ _ _ _ _ _ _ p R hA k'
  · rw [shapeCast_self]
    exact hN j'

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 200 points: the two row-blocked inputs and the output are at block t of
    the rows and block 0 of the columns; every weight is at its one block. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ win1_3.index t (0 : Fin 1) = 0
    ∧ (win1_4.index t (0 : Fin 2) = 0 ∧ win1_4.index t (1 : Fin 2) = 0)
    ∧ win1_5.index t (0 : Fin 1) = 0
    ∧ (win1_6.index t (0 : Fin 2) = 0 ∧ win1_6.index t (1 : Fin 2) = 0)
    ∧ win1_7.index t (0 : Fin 1) = 0
    ∧ (win1_8.index t (0 : Fin 2) = 0 ∧ win1_8.index t (1 : Fin 2) = 0)
    ∧ win1_9.index t (0 : Fin 1) = 0
    ∧ (win1_10.index t (0 : Fin 2) = t.val ∧ win1_10.index t (1 : Fin 2) = 0) :=
  (by decide +kernel : ∀ t : Fin grid1.N, _)

/-- The edge attributes' block at point t is rows 8000·t … 8000·t + 7999 of the attribute array. -/
theorem attr_blk (c : Dev nD) (t : Fin cfg1.N) (x : S8000x64.Idx) (k : S1600000x64.Idx)
    (hk0 : (k 0).val = 8000 * t.val + (x 0).val) (hk1 : (k 1).val = (x 1).val) :
    (iblk1 V c 0 t : Vec Ideal S8000x64 .f32) x = (V c main_arg2 : S1600000x64.Idx → Elt Ideal .f32) k := by
  obtain ⟨⟨h0, h1⟩, -⟩ := idx_facts t
  unfold iblk1
  rw [View.read_apply]
  show V c main_arg2 _ = V c main_arg2 _
  congr 1
  funext a
  apply Fin.ext
  match a with
  | ⟨0, _⟩ => show win1_0.index t 0 * 8000 + 1 * (x 0).val = (k 0).val; rw [h0, hk0]; omega
  | ⟨1, _⟩ => show win1_0.index t 1 * 64 + 1 * (x 1).val = (k 1).val; rw [h1, hk1]; omega

/-- The source rows' block at point t is the same rows of the source-row array. -/
theorem src_blk (c : Dev nD) (t : Fin cfg1.N) (x : S8000x32.Idx) (k : S1600000x32.Idx)
    (hk0 : (k 0).val = 8000 * t.val + (x 0).val) (hk1 : (k 1).val = (x 1).val) :
    (iblk1 V c 1 t : Vec Ideal S8000x32 .f32) x = (V c main_v5 : S1600000x32.Idx → Elt Ideal .f32) k := by
  obtain ⟨-, ⟨h0, h1⟩, -⟩ := idx_facts t
  unfold iblk1
  rw [View.read_apply]
  show V c main_v5 _ = V c main_v5 _
  congr 1
  funext a
  apply Fin.ext
  match a with
  | ⟨0, _⟩ => show win1_1.index t 0 * 8000 + 1 * (x 0).val = (k 0).val; rw [h0, hk0]; omega
  | ⟨1, _⟩ => show win1_1.index t 1 * 32 + 1 * (x 1).val = (k 1).val; rw [h1, hk1]; omega

/-- Each weight's block at every point is the whole weight. -/
theorem w2_blk (c : Dev nD) (t : Fin cfg1.N) : (iblk1 V c 2 t : Vec Ideal S64x16 .f32) = V c main_arg7 := by
  obtain ⟨-, -, ⟨h0, h1⟩, -⟩ := idx_facts t
  funext j
  unfold iblk1
  rw [View.read_apply]
  show V c main_arg7 _ = V c main_arg7 j
  congr 1
  funext a
  apply Fin.ext
  match a with
  | ⟨0, _⟩ => show win1_2.index t 0 * 64 + 1 * (j 0).val = (j 0).val; rw [h0]; omega
  | ⟨1, _⟩ => show win1_2.index t 1 * 16 + 1 * (j 1).val = (j 1).val; rw [h1]; omega

theorem w3_blk (c : Dev nD) (t : Fin cfg1.N) : (iblk1 V c 3 t : Vec Ideal S16 .f32) = V c main_arg8 := by
  obtain ⟨-, -, -, h0, -⟩ := idx_facts t
  funext j
  unfold iblk1
  rw [View.read_apply]
  show V c main_arg8 _ = V c main_arg8 j
  congr 1
  funext a
  apply Fin.ext
  match a with
  | ⟨0, _⟩ => show win1_3.index t 0 * 16 + 1 * (j 0).val = (j 0).val; rw [h0]; omega

theorem w4_blk (c : Dev nD) (t : Fin cfg1.N) : (iblk1 V c 4 t : Vec Ideal S16x32 .f32) = V c main_arg9 := by
  obtain ⟨-, -, -, -, h4, h5, h6, h7, h8, h9, -⟩ := idx_facts t
  funext j
  unfold iblk1
  rw [View.read_apply]
  show V c main_arg9 _ = V c main_arg9 j
  congr 1
  funext a
  apply Fin.ext
  match a with
  | ⟨0, _⟩ => show win1_4.index t 0 * 16 + 1 * (j 0).val = (j 0).val; rw [h4.1]; omega
  | ⟨1, _⟩ => show win1_4.index t 1 * 32 + 1 * (j 1).val = (j 1).val; rw [h4.2]; omega

theorem w5_blk (c : Dev nD) (t : Fin cfg1.N) : (iblk1 V c 5 t : Vec Ideal S32 .f32) = V c main_arg10 := by
  obtain ⟨-, -, -, -, h4, h5, h6, h7, h8, h9, -⟩ := idx_facts t
  funext j
  unfold iblk1
  rw [View.read_apply]
  show V c main_arg10 _ = V c main_arg10 j
  congr 1
  funext a
  apply Fin.ext
  match a with
  | ⟨0, _⟩ => show win1_5.index t 0 * 32 + 1 * (j 0).val = (j 0).val; rw [h5]; omega

theorem w6_blk (c : Dev nD) (t : Fin cfg1.N) : (iblk1 V c 6 t : Vec Ideal S64x16 .f32) = V c main_arg11 := by
  obtain ⟨-, -, -, -, h4, h5, h6, h7, h8, h9, -⟩ := idx_facts t
  funext j
  unfold iblk1
  rw [View.read_apply]
  show V c main_arg11 _ = V c main_arg11 j
  congr 1
  funext a
  apply Fin.ext
  match a with
  | ⟨0, _⟩ => show win1_6.index t 0 * 64 + 1 * (j 0).val = (j 0).val; rw [h6.1]; omega
  | ⟨1, _⟩ => show win1_6.index t 1 * 16 + 1 * (j 1).val = (j 1).val; rw [h6.2]; omega

theorem w7_blk (c : Dev nD) (t : Fin cfg1.N) : (iblk1 V c 7 t : Vec Ideal S16 .f32) = V c main_arg12 := by
  obtain ⟨-, -, -, -, h4, h5, h6, h7, h8, h9, -⟩ := idx_facts t
  funext j
  unfold iblk1
  rw [View.read_apply]
  show V c main_arg12 _ = V c main_arg12 j
  congr 1
  funext a
  apply Fin.ext
  match a with
  | ⟨0, _⟩ => show win1_7.index t 0 * 16 + 1 * (j 0).val = (j 0).val; rw [h7]; omega

theorem w8_blk (c : Dev nD) (t : Fin cfg1.N) : (iblk1 V c 8 t : Vec Ideal S16x64 .f32) = V c main_arg13 := by
  obtain ⟨-, -, -, -, h4, h5, h6, h7, h8, h9, -⟩ := idx_facts t
  funext j
  unfold iblk1
  rw [View.read_apply]
  show V c main_arg13 _ = V c main_arg13 j
  congr 1
  funext a
  apply Fin.ext
  match a with
  | ⟨0, _⟩ => show win1_8.index t 0 * 16 + 1 * (j 0).val = (j 0).val; rw [h8.1]; omega
  | ⟨1, _⟩ => show win1_8.index t 1 * 64 + 1 * (j 1).val = (j 1).val; rw [h8.2]; omega

theorem w9_blk (c : Dev nD) (t : Fin cfg1.N) : (iblk1 V c 9 t : Vec Ideal S64 .f32) = V c main_arg14 := by
  obtain ⟨-, -, -, -, h4, h5, h6, h7, h8, h9, -⟩ := idx_facts t
  funext j
  unfold iblk1
  rw [View.read_apply]
  show V c main_arg14 _ = V c main_arg14 j
  congr 1
  funext a
  apply Fin.ext
  match a with
  | ⟨0, _⟩ => show win1_9.index t 0 * 64 + 1 * (j 0).val = (j 0).val; rw [h9]; omega

/-- The specification's message array, of the arrays as the region finds them. -/
abbrev msgArr (c : Dev nD) : FVec Ideal S1600000x64 .f32 :=
  Cert.Spec.msgOf (Cert.Spec.edgeEnc (V c main_arg2) (V c main_arg7) (V c main_arg8) (V c main_arg9) (V c main_arg10))
    (V c main_v5) (V c main_arg11) (V c main_arg12) (V c main_arg13) (V c main_arg14)

/-- Entry (p, q) of what the body computes on the blocks of point t is entry (8000·t + p, q) of the specification's
    message array: the weights' blocks are the weights, and row p of the two row-blocked inputs is row 8000·t + p of
    their arrays. -/
theorem block_apply (c : Dev nD) (t : Fin cfg1.N) (p : Fin 8000) (q : Fin 64) (R : Fin 1600000)
    (hR : R.val = 8000 * t.val + p.val) :
    k1_pay1 (F := Ideal)
        (k1_pay2 (iblk1 V c 0 t) (iblk1 V c 2 t) (iblk1 V c 3 t) (iblk1 V c 4 t) (iblk1 V c 5 t) (iblk1 V c 1 t)
          (iblk1 V c 6 t) (iblk1 V c 7 t))
        (Scalar.ofBits .f32 0x00000000#32) (iblk1 V c 8 t) (iblk1 V c 9 t) (ix2 p q)
      = msgArr V c (ix2 R q) := by
  rw [w2_blk V c t, w3_blk V c t, w4_blk V c t, w5_blk V c t, w6_blk V c t, w7_blk V c t, w8_blk V c t, w9_blk V c t]
  exact payload_agree (iblk1 V c 0 t) (iblk1 V c 1 t) (V c main_arg7) (V c main_arg8) (V c main_arg9) (V c main_arg10)
    (V c main_arg11) (V c main_arg12) (V c main_arg13) (V c main_arg14) (V c main_arg2) (V c main_v5) p R
    (fun i => attr_blk V c t (ix2 p i) (ix2 R i) hR rfl) (fun j => src_blk V c t (ix2 p j) (ix2 R j) hR rfl) q

/-- Entry (p, q) of the output's block at point t sits at (8000·t + p, q) of the message array. -/
theorem out_emb (t : Fin cfg1.N) (p : Fin 8000) (q : Fin 64) (R : Fin 1600000) (hR : R.val = 8000 * t.val + p.val) :
    ((cfg1.win 10).blk t).view.emb (ix2 p q : S8000x64.Idx) = (ix2 R q : S1600000x64.Idx) := by
  obtain ⟨-, -, -, -, -, -, -, -, -, -, h0, h1⟩ := idx_facts t
  funext a
  apply Fin.ext
  match a with
  | ⟨0, _⟩ => show win1_10.index t (0 : Fin 2) * 8000 + 1 * p.val = R.val; rw [h0, hR]; omega
  | ⟨1, _⟩ => show win1_10.index t (1 : Fin 2) * 64 + 1 * q.val = q.val; rw [h1]; omega

/-- What point t writes back is block t of the specification's message array: the body's one store fills the
    staging buffer with its payload of the point's input blocks. -/
theorem flushed_eq (c : Dev nD) (t : Fin cfg1.N) :
    (dat1 (F := Ideal) V c).flushed 10 t = ((cfg1.win 10).blk t).view.read (Elt Ideal) (msgArr V c) := by
  show (cfg1.win 10).cut (grid1.coords t) ((dat1 (F := Ideal) V c).after 10 t) = _
  rw [after1_10]
  unfold out1_10
  rw [View.canon_unit_zero hz2]
  simp only [View.ld_unit_zero (S := S8000x64) hz2, View.ld_unit_zero (S := S8000x32) hz2,
    View.ld_unit_zero (S := S64x16) hz2, View.ld_unit_zero (S := S16x32) hz2, View.ld_unit_zero (S := S16x64) hz2,
    View.ld_unit_zero (S := S16) hz1, View.ld_unit_zero (S := S32) hz1, View.ld_unit_zero (S := S64) hz1]
  have ht : t.val < 200 := lt_of_lt_of_eq t.isLt N_1
  funext j
  obtain ⟨p, q, rfl⟩ : ∃ (p : Fin 8000) (q : Fin 64), j = ix2 p q := ⟨j 0, j 1, eq_ix2 j⟩
  have hR : 8000 * t.val + p.val < 1600000 := by have := p.isLt; omega
  show k1_pay1 (F := Ideal)
        (k1_pay2 (iblk1 V c 0 t) (iblk1 V c 2 t) (iblk1 V c 3 t) (iblk1 V c 4 t) (iblk1 V c 5 t) (iblk1 V c 1 t)
          (iblk1 V c 6 t) (iblk1 V c 7 t))
        (Scalar.ofBits .f32 0x00000000#32) (iblk1 V c 8 t) (iblk1 V c 9 t) (ix2 p q)
      = msgArr V c (((cfg1.win 10).blk t).view.emb (ix2 p q : S8000x64.Idx))
  rw [out_emb t p q ⟨8000 * t.val + p.val, hR⟩ rfl]
  exact block_apply V c t p q ⟨8000 * t.val + p.val, hR⟩ rfl

/-- Row R of the message array lies in the block of point R / 8000, which is written back: the 200 blocks tile the
    array. -/
theorem cover (i : S1600000x64.Idx) :
    ∃ t : Fin cfg1.N, (cfg1.win 10).flush t = true ∧ i ∈ ((cfg1.win 10).blk t).view.set := by
  have hi0 : (i 0).val < 1600000 := (i 0).isLt
  have hi1 : (i 1).val < 64 := (i 1).isLt
  obtain ⟨t, ht⟩ : ∃ t : Fin cfg1.N, t.val = (i 0).val / 8000 :=
    ⟨⟨(i 0).val / 8000, lt_of_lt_of_eq (by omega : (i 0).val / 8000 < 200) N_1.symm⟩, rfl⟩
  obtain ⟨-, -, -, -, -, -, -, -, -, -, h0, h1⟩ := idx_facts t
  refine ⟨t, flush1_10 t, ?_⟩
  show i ∈ ((View.whole main_v6).slice (win1_10.rect t)).set
  rw [View.set_slice_whole, Rect.mem_set_unit]
  intro a
  match a with
  | ⟨0, _⟩ =>
    show win1_10.index t (0 : Fin 2) * 8000 ≤ (i 0).val ∧ (i 0).val < win1_10.index t (0 : Fin 2) * 8000 + 8000
    rw [h0, ht]; omega
  | ⟨1, _⟩ =>
    show win1_10.index t (1 : Fin 2) * 64 ≤ (i 1).val ∧ (i 1).val < win1_10.index t (1 : Fin 2) * 64 + 64
    rw [h1]; omega

/-- What region 1 leaves in its output array is the message array of the specification, of the edge attributes and
    the gathered source rows as the region finds them. -/
theorem msg (c : Dev nD) :
    (dat1 (F := Ideal) V c).arrAt 10 cfg1.N
      = Cert.Spec.msgOf (Cert.Spec.edgeEnc (V c main_arg2) (V c main_arg7) (V c main_arg8) (V c main_arg9) (V c main_arg10))
          (V c main_v5) (V c main_arg11) (V c main_arg12) (V c main_arg13) (V c main_arg14) :=
  (dat1 (F := Ideal) V c).arrAt_eq_of_cover 10 (msgArr V c) (fun t _ => flushed_eq V c t) cover

end Cert.KernelIdeal.Region1

end
-- ==== Proof.Region2.lean ====
/-
  Region 2, the post-processing, over a grid of 20 points: point t fetches rows 5000·t … 5000·t + 4999 of the
  aggregate and of the node features, sets them side by side (192 entries a row), normalises each row by its mean and
  variance, scales and shifts, and applies three affine layers with the leaky rectifier after the first two. Every
  row of the result depends on the same row of the two inputs only.

  The proof reads both sides at an entry (R, q): the kernel's payload at row p of block t and the specification at
  row R = 5000·t + p are the same function `outRow` of row R of the aggregate, row R of the node features and the
  weights. A lane sum and the host's row sum are the sum over the 192 coordinates; a matrix product into a zero
  accumulator and the host's product are the sum over the contracted coordinate; the host's sum starts from zero
  (0 + s = s) and the host's rectifier multiplies by the slope on the other side (commutativity of the product).
-/
import proofs.«413093_j68839735820749_1_alg».proof.Proof.Gen.KernelIdeal.Frame
import proofs.«413093_j68839735820749_1_alg».proof.Proof.Spec
import Idealize.ShloMosaic.Lib.KernelVsHost
import Idealize.ShloMosaic.Lib.ValueLayout
import Idealize.ShloMosaic.Lib.StackMember

set_option maxRecDepth 16384

noncomputable section

namespace Cert.KernelIdeal.Region2

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-! ## One row's arithmetic on the extended reals -/

/-- The leaky rectifier at one entry: v where v ≥ 0, v times the slope elsewhere. -/
def lr (v : EReal) : EReal :=
  Scalar.select (FloatOps.cmpf (F := Ideal) (φ := FTy.f32) .oge v (Ideal.ofBits .f32 0x00000000#32)) v
    (v * Ideal.ofBits .f32 0x3C23D70A#32)

/-- Two rows side by side. -/
def catRow {A B C : Nat} (hC : A + B = C) (u : Fin A → EReal) (v : Fin B → EReal) : Fin C → EReal :=
  fun k => if h : k.val < A then u ⟨k.val, h⟩ else v ⟨k.val - A, by have := k.isLt; omega⟩

/-- A row's sum divided by 192. -/
def meanRow {N : Nat} (h : Fin N → EReal) : EReal := Ideal.div (∑ k, h k) (Ideal.ofBits .f32 0x43400000#32)

/-- A row normalised by its mean and variance, scaled and shifted. -/
def normRow {N : Nat} (h g b : Fin N → EReal) : Fin N → EReal := fun j =>
  ((h j - meanRow h)
      * Ideal.rsqrt (meanRow (fun k => (h k - meanRow h) * (h k - meanRow h)) + Ideal.ofBits .f32 0x3727C5AC#32))
    * g j + b j

/-- A row times a matrix, plus a bias row. -/
def affRow {K N : Nat} (v : Fin K → EReal) (w : Fin K → Fin N → EReal) (b : Fin N → EReal) : Fin N → EReal :=
  fun n => (∑ k, v k * w k n) + b n

section Layout
variable {α : Type}

/-- A vector cast to a column reads, at (i, 0), the vector at i. -/
theorem shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column broadcast along the rows reads, at (p, c), the column at p. -/
theorem broadcastTo_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column along the rows, likewise. -/
theorem broadcastInDim_col_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a vector to a column reads, at (p, 0), the vector at p. -/
theorem broadcastInDim_vecCol_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's broadcast of a vector to a one-row matrix reads, at (0, c), the vector at c. -/
theorem broadcastInDim_vecRow_apply {n : ℕ} (v : (⟨1, ![n]⟩ : Shape).Idx → α)
    (h : (⟨1, ![n]⟩ : Shape).BroadcastsInDim ⟨2, ![1, n]⟩ ![1]) (u : Fin 1) (c : Fin n) :
    broadcastInDim ⟨2, ![1, n]⟩ ![1] h v (ix2 u c) = v (ix1 c) := by
  refine broadcastInDim_apply ![1] h v (ix2 u c) (ix1 c) fun ax => ?_
  match ax with
  | ⟨0, _⟩ =>
    show c.val = if n = 1 then 0 else c.val
    split
    · have := c.isLt; omega
    · rfl

/-- The host's bias row: a vector laid along every row of a matrix reads, at (p, c), the vector at c. -/
theorem hostBias_apply {m n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (c : Fin n) :
    broadcastInDim ⟨2, ![m, n]⟩ ![0, 1] h2 (broadcastInDim ⟨2, ![1, n]⟩ ![1] h1 v) (ix2 p c) = v (ix1 c) :=
  (broadcastInDim_oneRow_apply h2 _ p c).trans (broadcastInDim_vecRow_apply v h1 0 c)

/-- The kernel's bias row: the vector cast to one row and broadcast down the rows. -/
theorem kernelBias_apply {m n : ℕ} (v : (⟨1, ![n]⟩ : Shape).Idx → α)
    (h1 : (⟨1, ![n]⟩ : Shape).ShapeCasts ⟨2, ![1, n]⟩) (h2 : (⟨2, ![1, n]⟩ : Shape).Broadcasts ⟨2, ![m, n]⟩)
    (p : Fin m) (c : Fin n) :
    broadcastTo ⟨2, ![m, n]⟩ (shapeCast ⟨2, ![1, n]⟩ v h1) h2 (ix2 p c) = v (ix1 c) :=
  (broadcastTo_1b_ab_apply _ h2 p c).trans (shapeCast_a_1a_apply v h1 0 c)

/-- Two matrices side by side read, at (p, k), the row of the one or the other. -/
theorem concat_cols_apply {M A B C : ℕ} (hC : A + B = C) (u : (⟨2, ![M, A]⟩ : Shape).Idx → EReal)
    (v : (⟨2, ![M, B]⟩ : Shape).Idx → EReal)
    (h : Shape.Concatenates [⟨2, ![M, A]⟩, ⟨2, ![M, B]⟩] ⟨2, ![M, C]⟩ 1) (p : Fin M) (k : Fin C) :
    concatenate ⟨2, ![M, C]⟩ 1 [⟨⟨2, ![M, A]⟩, u⟩, ⟨⟨2, ![M, B]⟩, v⟩] h (ix2 p k)
      = catRow hC (fun a => u (ix2 p a)) (fun b => v (ix2 p b)) k := by
  unfold catRow
  by_cases hk : k.val < A
  · rw [dif_pos hk]
    refine concatenate_pair_apply_left 1 u v h (ix2 p k) rfl (ix2 p ⟨k.val, hk⟩) fun b => ?_
    match b with
    | ⟨0, _⟩ => rfl
    | ⟨1, _⟩ => rfl
  · rw [dif_neg hk]
    refine concatenate_pair_apply_right 1 u v h (ix2 p k) rfl rfl (ix2 p ⟨k.val - A, by have := k.isLt; omega⟩) (fun b hb => ?_) ?_
    · match b with
      | ⟨0, _⟩ => rfl
      | ⟨1, _⟩ => exact absurd rfl hb
    · show k.val - A + A = k.val
      omega

end Layout

/-! ## The sums -/

/-- The kernel's lane sum of a row. -/
theorem kernelRowSum_apply {M N : ℕ} (src : FVec Ideal ⟨2, ![M, N]⟩ .f32) (h : Shape.Reduces ⟨2, ![M, N]⟩ [1] ⟨1, ![M]⟩)
    (hφ : FKind.Formats .f32) (hacc : (0x00000000#32 : BitVec 32) = FKind.add.neutral .f32 hφ) (p : Fin M) :
    multiReduction .add [1] ⟨1, ![M]⟩ src 0x00000000#32 h hφ hacc (ix1 p) = ∑ k : Fin N, src (ix2 p k) := by
  refine (Ideal.multiReduction_add_single src _ h hφ hacc (ix1 p)).trans ?_
  refine Finset.sum_congr rfl fun k _ => congrArg src ?_
  funext c
  apply Fin.ext
  match c with
  | ⟨0, _⟩ => rfl
  | ⟨1, _⟩ => rfl

/-- The host's sum of a row from the zero initial value. -/
theorem hostRowSum_apply {M N : ℕ} (x : FVec Ideal ⟨2, ![M, N]⟩ .f32) (h' : Shape.ReducesTo ⟨2, ![M, N]⟩ [1] ⟨1, ![M]⟩)
    (h : Shape.Reduces ⟨2, ![M, N]⟩ [1] ⟨1, ![M]⟩) (hu : 0 < (⟨0, ![]⟩ : Shape).numel) (p : Fin M) :
    Host.reduceAdd (F := Ideal) x (constant (F := Ideal) ⟨0, ![]⟩ .f32 0x00000000#32) h' hu (ix1 p)
      = ∑ k : Fin N, x (ix2 p k) := by
  show Ideal.hostReduceAdd h' x (Ideal.ofBits .f32 0x00000000#32) (ix1 p) = _
  rw [Ideal.hostReduceAdd_single h' h, Ideal.ofBits_zero_f32, zero_add]
  refine Finset.sum_congr rfl fun k _ => congrArg x ?_
  funext c
  apply Fin.ext
  match c with
  | ⟨0, _⟩ => rfl
  | ⟨1, _⟩ => rfl

/-! ## The products -/

/-- The kernel's matrix product into the zero accumulator reads, at (p, n), the sum over the contracted coordinate. -/
theorem kernelDot_apply {M K N : ℕ} (D : DotDims ⟨2, ![M, K]⟩ ⟨2, ![K, N]⟩ ⟨2, ![M, N]⟩) (hD : D = DotDims.plain M K N)
    (X : FVec Ideal ⟨2, ![M, K]⟩ .f32) (W : FVec Ideal ⟨2, ![K, N]⟩ .f32) (hbf : FTy.bits .bf16 < FTy.bits .f32)
    (p : Fin M) (n : Fin N) :
    matmul D none (truncf .bf16 X hbf) (truncf .bf16 W hbf) (constant (F := Ideal) ⟨2, ![M, N]⟩ .f32 0x00000000#32) (ix2 p n)
      = ∑ k : Fin K, X (ix2 p k) * W (ix2 k n) := by
  subst hD
  rw [matmul_zero_eq_dotGeneral]
  exact StackMember.dotGeneral_plain_apply none (truncf .bf16 X hbf) (truncf .bf16 W hbf) p n

/-- The host's matrix product likewise. -/
theorem hostDot_apply {M K N : ℕ} (D : DotDims ⟨2, ![M, K]⟩ ⟨2, ![K, N]⟩ ⟨2, ![M, N]⟩) (hD : D = DotDims.plain M K N)
    (X : FVec Ideal ⟨2, ![M, K]⟩ .f32) (W : FVec Ideal ⟨2, ![K, N]⟩ .f32) (p : Fin M) (n : Fin N) :
    Host.dotGeneral D none X W (ix2 p n) = ∑ k : Fin K, X (ix2 p k) * W (ix2 k n) := by
  subst hD
  exact StackMember.dotGeneral_plain_apply none X W p n

/-- One row of the result: the two input rows side by side, normalised, then three layers. -/
def outRow (a : Fin 64 → EReal) (x : Fin 128 → EReal) (g b : Fin 192 → EReal) (w1 : Fin 192 → Fin 32 → EReal)
    (b1 : Fin 32 → EReal) (w2 : Fin 32 → Fin 32 → EReal) (b2 : Fin 32 → EReal) (w3 : Fin 32 → Fin 64 → EReal)
    (b3 : Fin 64 → EReal) : Fin 64 → EReal :=
  affRow (fun k => lr (affRow (fun k' => lr (affRow (normRow (catRow (A := 64) (B := 128) rfl a x) g b) w1 b1 k')) w2 b2 k)) w3 b3

/-- `outRow` depends on its arguments entry by entry. -/
theorem outRow_congr {a a' : Fin 64 → EReal} {x x' : Fin 128 → EReal} {g g' b b' : Fin 192 → EReal}
    {w1 w1' : Fin 192 → Fin 32 → EReal} {b1 b1' : Fin 32 → EReal} {w2 w2' : Fin 32 → Fin 32 → EReal}
    {b2 b2' : Fin 32 → EReal} {w3 w3' : Fin 32 → Fin 64 → EReal} {b3 b3' : Fin 64 → EReal}
    (ha : ∀ k, a k = a' k) (hx : ∀ k, x k = x' k) (hg : ∀ k, g k = g' k) (hb : ∀ k, b k = b' k)
    (hw1 : ∀ k n, w1 k n = w1' k n) (hb1 : ∀ k, b1 k = b1' k) (hw2 : ∀ k n, w2 k n = w2' k n) (hb2 : ∀ k, b2 k = b2' k)
    (hw3 : ∀ k n, w3 k n = w3' k n) (hb3 : ∀ k, b3 k = b3' k) :
    outRow a x g b w1 b1 w2 b2 w3 b3 = outRow a' x' g' b' w1' b1' w2' b2' w3' b3' := by
  obtain rfl : a = a' := funext ha
  obtain rfl : x = x' := funext hx
  obtain rfl : g = g' := funext hg
  obtain rfl : b = b' := funext hb
  obtain rfl : w1 = w1' := funext fun k => funext (hw1 k)
  obtain rfl : b1 = b1' := funext hb1
  obtain rfl : w2 = w2' := funext fun k => funext (hw2 k)
  obtain rfl : b2 = b2' := funext hb2
  obtain rfl : w3 = w3' := funext fun k => funext (hw3 k)
  obtain rfl : b3 = b3' := funext hb3
  rfl

/-! ## The kernel's stages at an entry -/

/-- The kernel's rectifier at an entry. -/
theorem kernelLr_apply {S : Shape} (v : FVec Ideal S .f32) (i : S.Idx) :
    select (cmpf .oge v (broadcast S (Scalar.ofBits (F := Ideal) .f32 0x00000000#32))) v
        (mulf v (broadcast S (Scalar.ofBits (F := Ideal) .f32 0x3C23D70A#32))) i = lr (v i) := rfl

/-- The kernel's affine layer at an entry. -/
theorem kernelAff_apply {M K N : ℕ} (D : DotDims ⟨2, ![M, K]⟩ ⟨2, ![K, N]⟩ ⟨2, ![M, N]⟩) (hD : D = DotDims.plain M K N)
    (X : FVec Ideal ⟨2, ![M, K]⟩ .f32) (W : FVec Ideal ⟨2, ![K, N]⟩ .f32) (bias : FVec Ideal ⟨1, ![N]⟩ .f32)
    (hbf : FTy.bits .bf16 < FTy.bits .f32) (h1 : (⟨1, ![N]⟩ : Shape).ShapeCasts ⟨2, ![1, N]⟩)
    (h2 : (⟨2, ![1, N]⟩ : Shape).Broadcasts ⟨2, ![M, N]⟩) (p : Fin M) (n : Fin N) :
    addf (matmul D none (truncf .bf16 X hbf) (truncf .bf16 W hbf) (constant (F := Ideal) ⟨2, ![M, N]⟩ .f32 0x00000000#32))
        (broadcastTo ⟨2, ![M, N]⟩ (shapeCast ⟨2, ![1, N]⟩ bias h1) h2) (ix2 p n)
      = affRow (fun k => X (ix2 p k)) (fun k n => W (ix2 k n)) (fun n => bias (ix1 n)) n :=
  congrArg₂ (· + ·) (kernelDot_apply D hD X W hbf p n) (kernelBias_apply bias h1 h2 p n)

/-- The kernel's row mean, as a column. -/
abbrev kMean {M N : ℕ} (src : FVec Ideal ⟨2, ![M, N]⟩ .f32) (h : Shape.Reduces ⟨2, ![M, N]⟩ [1] ⟨1, ![M]⟩)
    (hφ : FKind.Formats .f32) (hacc : (0x00000000#32 : BitVec 32) = FKind.add.neutral .f32 hφ)
    (hsc : (⟨1, ![M]⟩ : Shape).ShapeCasts ⟨2, ![M, 1]⟩) : FVec Ideal ⟨2, ![M, 1]⟩ .f32 :=
  divf (shapeCast ⟨2, ![M, 1]⟩ (multiReduction .add [1] ⟨1, ![M]⟩ src 0x00000000#32 h hφ hacc) hsc)
    (broadcast ⟨2, ![M, 1]⟩ (Scalar.ofBits (F := Ideal) .f32 0x43400000#32))

theorem kMean_apply {M N : ℕ} (src : FVec Ideal ⟨2, ![M, N]⟩ .f32) (h : Shape.Reduces ⟨2, ![M, N]⟩ [1] ⟨1, ![M]⟩)
    (hφ : FKind.Formats .f32) (hacc : (0x00000000#32 : BitVec 32) = FKind.add.neutral .f32 hφ)
    (hsc : (⟨1, ![M]⟩ : Shape).ShapeCasts ⟨2, ![M, 1]⟩) (p : Fin M) (u : Fin 1) :
    kMean src h hφ hacc hsc (ix2 p u) = meanRow (fun k => src (ix2 p k)) :=
  congrArg (fun s => Ideal.div s (Ideal.ofBits .f32 0x43400000#32))
    ((shapeCast_col_apply _ hsc p u).trans (kernelRowSum_apply src h hφ hacc p))

/-- The kernel's centred rows. -/
abbrev kCentred {M N : ℕ} (src : FVec Ideal ⟨2, ![M, N]⟩ .f32) (h : Shape.Reduces ⟨2, ![M, N]⟩ [1] ⟨1, ![M]⟩)
    (hφ : FKind.Formats .f32) (hacc : (0x00000000#32 : BitVec 32) = FKind.add.neutral .f32 hφ)
    (hsc : (⟨1, ![M]⟩ : Shape).ShapeCasts ⟨2, ![M, 1]⟩) (hbc : (⟨2, ![M, 1]⟩ : Shape).Broadcasts ⟨2, ![M, N]⟩) :
    FVec Ideal ⟨2, ![M, N]⟩ .f32 :=
  subf src (broadcastTo ⟨2, ![M, N]⟩ (kMean src h hφ hacc hsc) hbc)

theorem kCentred_apply {M N : ℕ} (src : FVec Ideal ⟨2, ![M, N]⟩ .f32) (h : Shape.Reduces ⟨2, ![M, N]⟩ [1] ⟨1, ![M]⟩)
    (hφ : FKind.Formats .f32) (hacc : (0x00000000#32 : BitVec 32) = FKind.add.neutral .f32 hφ)
    (hsc : (⟨1, ![M]⟩ : Shape).ShapeCasts ⟨2, ![M, 1]⟩) (hbc : (⟨2, ![M, 1]⟩ : Shape).Broadcasts ⟨2, ![M, N]⟩)
    (p : Fin M) (k : Fin N) :
    kCentred src h hφ hacc hsc hbc (ix2 p k) = src (ix2 p k) - meanRow (fun k => src (ix2 p k)) :=
  congrArg (fun s => src (ix2 p k) - s) ((broadcastTo_col_apply _ hbc p k).trans (kMean_apply src h hφ hacc hsc p 0))

/-- The kernel's row normalisation at an entry. -/
theorem kernelNorm_apply {M N : ℕ} (src : FVec Ideal ⟨2, ![M, N]⟩ .f32) (g b : FVec Ideal ⟨1, ![N]⟩ .f32)
    (h : Shape.Reduces ⟨2, ![M, N]⟩ [1] ⟨1, ![M]⟩)
    (hφ : FKind.Formats .f32) (hacc : (0x00000000#32 : BitVec 32) = FKind.add.neutral .f32 hφ)
    (hsc : (⟨1, ![M]⟩ : Shape).ShapeCasts ⟨2, ![M, 1]⟩) (hbc : (⟨2, ![M, 1]⟩ : Shape).Broadcasts ⟨2, ![M, N]⟩)
    (h1 : (⟨1, ![N]⟩ : Shape).ShapeCasts ⟨2, ![1, N]⟩) (h2 : (⟨2, ![1, N]⟩ : Shape).Broadcasts ⟨2, ![M, N]⟩)
    (p : Fin M) (j : Fin N) :
    addf (mulf (mulf (kCentred src h hφ hacc hsc hbc)
          (broadcastTo ⟨2, ![M, N]⟩
            (rsqrt (addf (kMean (mulf (kCentred src h hφ hacc hsc hbc) (kCentred src h hφ hacc hsc hbc)) h hφ hacc hsc)
              (broadcast ⟨2, ![M, 1]⟩ (Scalar.ofBits (F := Ideal) .f32 0x3727C5AC#32)))) hbc))
          (broadcastTo ⟨2, ![M, N]⟩ (shapeCast ⟨2, ![1, N]⟩ g h1) h2))
        (broadcastTo ⟨2, ![M, N]⟩ (shapeCast ⟨2, ![1, N]⟩ b h1) h2) (ix2 p j)
      = normRow (fun k => src (ix2 p k)) (fun k => g (ix1 k)) (fun k => b (ix1 k)) j := by
  have hd : ∀ k, kCentred src h hφ hacc hsc hbc (ix2 p k) = src (ix2 p k) - meanRow (fun k => src (ix2 p k)) :=
    kCentred_apply src h hφ hacc hsc hbc p
  have hv : kMean (mulf (kCentred src h hφ hacc hsc hbc) (kCentred src h hφ hacc hsc hbc)) h hφ hacc hsc (ix2 p (0 : Fin 1))
      = meanRow (fun k => (src (ix2 p k) - meanRow (fun k => src (ix2 p k))) * (src (ix2 p k) - meanRow (fun k => src (ix2 p k)))) :=
    (kMean_apply _ h hφ hacc hsc p 0).trans (congrArg meanRow (funext fun k =>
      congrArg₂ (· * ·) (hd k) (hd k)))
  have hr : broadcastTo ⟨2, ![M, N]⟩
            (rsqrt (addf (kMean (mulf (kCentred src h hφ hacc hsc hbc) (kCentred src h hφ hacc hsc hbc)) h hφ hacc hsc)
              (broadcast ⟨2, ![M, 1]⟩ (Scalar.ofBits (F := Ideal) .f32 0x3727C5AC#32)))) hbc (ix2 p j)
      = Ideal.rsqrt (meanRow (fun k => (src (ix2 p k) - meanRow (fun k => src (ix2 p k))) * (src (ix2 p k) - meanRow (fun k => src (ix2 p k))))
          + Ideal.ofBits .f32 0x3727C5AC#32) :=
    (broadcastTo_col_apply _ hbc p j).trans
      (congrArg (fun s => Ideal.rsqrt (s + Ideal.ofBits .f32 0x3727C5AC#32)) hv)
  exact congrArg₂ (· + ·)
    (congrArg₂ (· * ·) (congrArg₂ (· * ·) (hd j) hr) (kernelBias_apply g h1 h2 p j))
    (kernelBias_apply b h1 h2 p j)

/-! ## The specification's stages at an entry -/

/-- The specification's rectifier at an entry: the slope multiplies on the other side. -/
theorem hostLr_apply {S : Shape} (hb : Cert.ReferenceIdeal.S_.BroadcastsInDim S (![] : Fin 0 → Fin S.rank))
    (v : FVec Ideal S .f32) (i : S.Idx) : Cert.Spec.lrelu hb v i = lr (v i) := by
  show Scalar.select (FloatOps.cmpf (F := Ideal) (φ := FTy.f32) .oge (v i) (Ideal.ofBits .f32 0x00000000#32)) (v i)
      (Ideal.ofBits .f32 0x3C23D70A#32 * v i) = _
  unfold lr
  rw [mul_comm]

/-- The specification's affine layer at an entry. -/
theorem hostAff_apply {M K N : ℕ} (D : DotDims ⟨2, ![M, K]⟩ ⟨2, ![K, N]⟩ ⟨2, ![M, N]⟩) (hD : D = DotDims.plain M K N)
    (X : FVec Ideal ⟨2, ![M, K]⟩ .f32) (W : FVec Ideal ⟨2, ![K, N]⟩ .f32) (bias : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (n : Fin N) :
    addf (Host.dotGeneral D none X W)
        (broadcastInDim ⟨2, ![M, N]⟩ ![0, 1] h2 (broadcastInDim ⟨2, ![1, N]⟩ ![1] h1 bias)) (ix2 p n)
      = affRow (fun k => X (ix2 p k)) (fun k n => W (ix2 k n)) (fun n => bias (ix1 n)) n :=
  congrArg₂ (· + ·) (hostDot_apply D hD X W p n) (hostBias_apply bias h1 h2 p n)

open Cert.ReferenceIdeal in
/-- The specification's row mean at an entry. -/
theorem rowMean_apply (h : FVec Ideal S100000x192 .f32) (p : Fin 100000) (u : Fin 1) :
    Cert.Spec.rowMean h (ix2 p u) = meanRow (fun k => h (ix2 p k)) := by
  unfold Cert.Spec.rowMean
  exact congrArg (fun s => Ideal.div s (Ideal.ofBits .f32 0x43400000#32))
    ((broadcastInDim_vecCol_apply _ _ p u).trans (hostRowSum_apply h _ (by decide) _ p))

open Cert.ReferenceIdeal in
/-- The specification's centred rows at an entry. -/
theorem centred_apply (h : FVec Ideal S100000x192 .f32) (p : Fin 100000) (k : Fin 192) :
    Cert.Spec.centred h (ix2 p k) = h (ix2 p k) - meanRow (fun k => h (ix2 p k)) := by
  unfold Cert.Spec.centred
  exact congrArg (fun s => h (ix2 p k) - s) ((broadcastInDim_col_apply _ _ p k).trans (rowMean_apply h p 0))

open Cert.ReferenceIdeal in
/-- The specification's row normalisation at an entry. -/
theorem layerNorm_apply (h : FVec Ideal S100000x192 .f32) (g b : FVec Ideal S192 .f32) (p : Fin 100000) (j : Fin 192) :
    Cert.Spec.layerNorm h g b (ix2 p j) = normRow (fun k => h (ix2 p k)) (fun k => g (ix1 k)) (fun k => b (ix1 k)) j := by
  have hd : ∀ k, Cert.Spec.centred h (ix2 p k) = h (ix2 p k) - meanRow (fun k => h (ix2 p k)) := centred_apply h p
  have hv : Cert.Spec.rowMean (mulf (Cert.Spec.centred h) (Cert.Spec.centred h)) (ix2 p (0 : Fin 1))
      = meanRow (fun k => (h (ix2 p k) - meanRow (fun k => h (ix2 p k))) * (h (ix2 p k) - meanRow (fun k => h (ix2 p k)))) :=
    (rowMean_apply _ p 0).trans (congrArg meanRow (funext fun k => congrArg₂ (· * ·) (hd k) (hd k)))
  unfold Cert.Spec.layerNorm
  refine congrArg₂ (· + ·) (congrArg₂ (· * ·) (congrArg₂ (· * ·) (hd j) ?_) (hostBias_apply g _ _ p j)) (hostBias_apply b _ _ p j)
  exact (broadcastInDim_col_apply _ _ p j).trans
    (congrArg (fun s => Ideal.rsqrt (s + Ideal.ofBits .f32 0x3727C5AC#32)) hv)

open Cert.ReferenceIdeal in
/-- THE SPECIFICATION AT AN ENTRY: row R of the output is `outRow` of row R of the aggregate and of the node features. -/
theorem postProc_apply (agg : FVec Ideal S100000x64 .f32) (x : FVec Ideal S100000x128 .f32) (g b : FVec Ideal S192 .f32)
    (w1 : FVec Ideal S192x32 .f32) (b1 : FVec Ideal S32 .f32) (w2 : FVec Ideal S32x32 .f32) (b2 : FVec Ideal S32 .f32)
    (w3 : FVec Ideal S32x64 .f32) (b3 : FVec Ideal S64 .f32) (R : Fin 100000) (q : Fin 64) :
    Cert.Spec.postProc agg x g b w1 b1 w2 b2 w3 b3 (ix2 R q)
      = outRow (fun k => agg (ix2 R k)) (fun k => x (ix2 R k)) (fun k => g (ix1 k)) (fun k => b (ix1 k))
          (fun k n => w1 (ix2 k n)) (fun n => b1 (ix1 n)) (fun k n => w2 (ix2 k n)) (fun n => b2 (ix1 n))
          (fun k n => w3 (ix2 k n)) (fun n => b3 (ix1 n)) q := by
  unfold Cert.Spec.postProc outRow
  refine (hostAff_apply _ rfl _ _ _ _ _ R q).trans ?_
  refine congrArg (fun v => affRow v _ _ q) (funext fun k => ?_)
  refine (hostLr_apply _ _ (ix2 R k)).trans (congrArg lr ?_)
  refine (hostAff_apply _ rfl _ _ _ _ _ R k).trans ?_
  refine congrArg (fun v => affRow v _ _ k) (funext fun k' => ?_)
  refine (hostLr_apply _ _ (ix2 R k')).trans (congrArg lr ?_)
  refine (hostAff_apply _ rfl _ _ _ _ _ R k').trans ?_
  refine congrArg (fun v => affRow v _ _ k') (funext fun j => ?_)
  refine (layerNorm_apply _ g b R j).trans ?_
  refine congrArg (fun h => normRow h _ _ j) (funext fun i => ?_)
  exact concat_cols_apply rfl agg x _ R i

/-! ## The kernel's payload at an entry -/

/-- The first part of the body (the rows side by side, normalised, the first layer and its rectifier) at an entry. -/
theorem pay2_apply (x0 : Vec Ideal S5000x64 .f32) (x1 : Vec Ideal S5000x128 .f32) (x2 x3 : Vec Ideal S192 .f32)
    (x4 : Vec Ideal S192x32 .f32) (x5 : Vec Ideal S32 .f32) (p : Fin 5000) (n : Fin 32) :
    k2_pay2 (F := Ideal) x0 x1 x2 x3 x4 x5 (ix2 p n)
      = lr (affRow (normRow (catRow (A := 64) (B := 128) rfl (fun k => x0 (ix2 p k)) (fun k => x1 (ix2 p k)))
          (fun k => x2 (ix1 k)) (fun k => x3 (ix1 k))) (fun k n => x4 (ix2 k n)) (fun n => x5 (ix1 n)) n) := by
  unfold k2_pay2
  refine (kernelLr_apply _ (ix2 p n)).trans (congrArg lr ?_)
  refine (kernelAff_apply _ rfl _ _ _ _ _ _ p n).trans ?_
  refine congrArg (fun v => affRow v _ _ n) (funext fun j => ?_)
  refine (kernelNorm_apply _ x2 x3 _ _ _ _ _ _ _ p j).trans ?_
  refine congrArg (fun h => normRow h _ _ j) (funext fun i => ?_)
  refine (concat_cols_apply rfl _ x1 _ p i).trans ?_
  exact congrArg (fun u => catRow (A := 64) (B := 128) rfl u _ i) (funext fun a => congrFun (shapeCast_self x0 _) (ix2 p a))

/-- THE KERNEL'S PAYLOAD AT AN ENTRY: row p of what a point stores is `outRow` of row p of its two input blocks. -/
theorem pay_apply (x0 : Vec Ideal S5000x64 .f32) (x1 : Vec Ideal S5000x128 .f32) (x2 x3 : Vec Ideal S192 .f32)
    (x4 : Vec Ideal S192x32 .f32) (x5 : Vec Ideal S32 .f32) (x6 : Vec Ideal S32x32 .f32) (x7 : Vec Ideal S32 .f32)
    (x8 : Vec Ideal S32x64 .f32) (x9 : Vec Ideal S64 .f32) (p : Fin 5000) (q : Fin 64) :
    k2_pay1 (F := Ideal) (k2_pay2 (F := Ideal) x0 x1 x2 x3 x4 x5) x6 x7 x8 x9 (ix2 p q)
      = outRow (fun k => x0 (ix2 p k)) (fun k => x1 (ix2 p k)) (fun k => x2 (ix1 k)) (fun k => x3 (ix1 k))
          (fun k n => x4 (ix2 k n)) (fun n => x5 (ix1 n)) (fun k n => x6 (ix2 k n)) (fun n => x7 (ix1 n))
          (fun k n => x8 (ix2 k n)) (fun n => x9 (ix1 n)) q := by
  unfold k2_pay1 outRow
  refine (kernelAff_apply _ rfl _ _ _ _ _ _ p q).trans ?_
  refine congrArg (fun v => affRow v _ _ q) (funext fun k => ?_)
  refine (kernelLr_apply _ (ix2 p k)).trans (congrArg lr ?_)
  refine (kernelAff_apply _ rfl _ _ _ _ _ _ p k).trans ?_
  refine congrArg (fun v => affRow v _ _ k) (funext fun k' => ?_)
  exact pay2_apply x0 x1 x2 x3 x4 x5 p k'

/-! ## From blocks to the array -/

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the two row blocks and the output's move with the point, the weights stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0 ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 1) = 0
    ∧ win2_8.index t (0 : Fin 2) = 0 ∧ win2_8.index t (1 : Fin 2) = 0
    ∧ win2_9.index t (0 : Fin 1) = 0
    ∧ win2_10.index t (0 : Fin 2) = t.val ∧ win2_10.index t (1 : Fin 2) = 0 :=
  (by decide +kernel : ∀ t : Fin grid2.N, _)

variable (V : (c : Dev nD) → (b : Ref sig .tc) → Buf (Elt Ideal) ((c : Thread nD τ).loc b))

/-- Row p of the aggregate's block at point t is row 5000·t + p of the aggregate. -/
theorem blk0_apply (c : Dev nD) (t : Fin cfg2.N) (p : Fin 5000) (k : Fin 64) (R : Fin 100000) (hR : R.val = 5000 * t.val + p.val) :
    (iblk2 V c 0 t : Vec Ideal S5000x64 .f32) (ix2 p k) = (V c main_v9 : S100000x64.Idx → Elt Ideal .f32) (ix2 R k) := by
  have e := idx_facts t
  show (V c main_v9 : S100000x64.Idx → Elt Ideal .f32) (((cfg2.win 0).blk t).view.emb (ix2 p k)) = _
  refine congrArg _ (funext fun a => Fin.ext ?_)
  match a with
  | ⟨0, _⟩ => show win2_0.index t (0 : Fin 2) * 5000 + 1 * p.val = R.val; omega
  | ⟨1, _⟩ => show win2_0.index t (1 : Fin 2) * 64 + 1 * k.val = k.val; omega

/-- Row p of the node features' block at point t is row 5000·t + p of the node features. -/
theorem blk1_apply (c : Dev nD) (t : Fin cfg2.N) (p : Fin 5000) (k : Fin 128) (R : Fin 100000) (hR : R.val = 5000 * t.val + p.val) :
    (iblk2 V c 1 t : Vec Ideal S5000x128 .f32) (ix2 p k) = (V c main_arg0 : S100000x128.Idx → Elt Ideal .f32) (ix2 R k) := by
  have e := idx_facts t
  show (V c main_arg0 : S100000x128.Idx → Elt Ideal .f32) (((cfg2.win 1).blk t).view.emb (ix2 p k)) = _
  refine congrArg _ (funext fun a => Fin.ext ?_)
  match a with
  | ⟨0, _⟩ => show win2_1.index t (0 : Fin 2) * 5000 + 1 * p.val = R.val; omega
  | ⟨1, _⟩ => show win2_1.index t (1 : Fin 2) * 128 + 1 * k.val = k.val; omega

/-- The scale's block at every point is the scale. -/
theorem blk2_apply (c : Dev nD) (t : Fin cfg2.N) (k : Fin 192) :
    (iblk2 V c 2 t : Vec Ideal S192 .f32) (ix1 k) = (V c main_arg15 : S192.Idx → Elt Ideal .f32) (ix1 k) := by
  have e := idx_facts t
  show (V c main_arg15 : S192.Idx → Elt Ideal .f32) (((cfg2.win 2).blk t).view.emb (ix1 k)) = _
  refine congrArg _ (funext fun a => Fin.ext ?_)
  match a with
  | ⟨0, _⟩ => show win2_2.index t (0 : Fin 1) * 192 + 1 * k.val = k.val; omega

/-- The shift's block at every point is the shift. -/
theorem blk3_apply (c : Dev nD) (t : Fin cfg2.N) (k : Fin 192) :
    (iblk2 V c 3 t : Vec Ideal S192 .f32) (ix1 k) = (V c main_arg16 : S192.Idx → Elt Ideal .f32) (ix1 k) := by
  have e := idx_facts t
  show (V c main_arg16 : S192.Idx → Elt Ideal .f32) (((cfg2.win 3).blk t).view.emb (ix1 k)) = _
  refine congrArg _ (funext fun a => Fin.ext ?_)
  match a with
  | ⟨0, _⟩ => show win2_3.index t (0 : Fin 1) * 192 + 1 * k.val = k.val; omega

/-- The first layer's matrix is fetched whole. -/
theorem blk4_apply (c : Dev nD) (t : Fin cfg2.N) (k : Fin 192) (n : Fin 32) :
    (iblk2 V c 4 t : Vec Ideal S192x32 .f32) (ix2 k n) = (V c main_arg17 : S192x32.Idx → Elt Ideal .f32) (ix2 k n) := by
  have e := idx_facts t
  show (V c main_arg17 : S192x32.Idx → Elt Ideal .f32) (((cfg2.win 4).blk t).view.emb (ix2 k n)) = _
  refine congrArg _ (funext fun a => Fin.ext ?_)
  match a with
  | ⟨0, _⟩ => show win2_4.index t (0 : Fin 2) * 192 + 1 * k.val = k.val; omega
  | ⟨1, _⟩ => show win2_4.index t (1 : Fin 2) * 32 + 1 * n.val = n.val; omega

/-- The first layer's bias is fetched whole. -/
theorem blk5_apply (c : Dev nD) (t : Fin cfg2.N) (k : Fin 32) :
    (iblk2 V c 5 t : Vec Ideal S32 .f32) (ix1 k) = (V c main_arg18 : S32.Idx → Elt Ideal .f32) (ix1 k) := by
  have e := idx_facts t
  show (V c main_arg18 : S32.Idx → Elt Ideal .f32) (((cfg2.win 5).blk t).view.emb (ix1 k)) = _
  refine congrArg _ (funext fun a => Fin.ext ?_)
  match a with
  | ⟨0, _⟩ => show win2_5.index t (0 : Fin 1) * 32 + 1 * k.val = k.val; omega

/-- The second layer's matrix is fetched whole. -/
theorem blk6_apply (c : Dev nD) (t : Fin cfg2.N) (k : Fin 32) (n : Fin 32) :
    (iblk2 V c 6 t : Vec Ideal S32x32 .f32) (ix2 k n) = (V c main_arg19 : S32x32.Idx → Elt Ideal .f32) (ix2 k n) := by
  have e := idx_facts t
  show (V c main_arg19 : S32x32.Idx → Elt Ideal .f32) (((cfg2.win 6).blk t).view.emb (ix2 k n)) = _
  refine congrArg _ (funext fun a => Fin.ext ?_)
  match a with
  | ⟨0, _⟩ => show win2_6.index t (0 : Fin 2) * 32 + 1 * k.val = k.val; omega
  | ⟨1, _⟩ => show win2_6.index t (1 : Fin 2) * 32 + 1 * n.val = n.val; omega

/-- The second layer's bias is fetched whole. -/
theorem blk7_apply (c : Dev nD) (t : Fin cfg2.N) (k : Fin 32) :
    (iblk2 V c 7 t : Vec Ideal S32 .f32) (ix1 k) = (V c main_arg20 : S32.Idx → Elt Ideal .f32) (ix1 k) := by
  have e := idx_facts t
  show (V c main_arg20 : S32.Idx → Elt Ideal .f32) (((cfg2.win 7).blk t).view.emb (ix1 k)) = _
  refine congrArg _ (funext fun a => Fin.ext ?_)
  match a with
  | ⟨0, _⟩ => show win2_7.index t (0 : Fin 1) * 32 + 1 * k.val = k.val; omega

/-- The third layer's matrix is fetched whole. -/
theorem blk8_apply (c : Dev nD) (t : Fin cfg2.N) (k : Fin 32) (n : Fin 64) :
    (iblk2 V c 8 t : Vec Ideal S32x64 .f32) (ix2 k n) = (V c main_arg21 : S32x64.Idx → Elt Ideal .f32) (ix2 k n) := by
  have e := idx_facts t
  show (V c main_arg21 : S32x64.Idx → Elt Ideal .f32) (((cfg2.win 8).blk t).view.emb (ix2 k n)) = _
  refine congrArg _ (funext fun a => Fin.ext ?_)
  match a with
  | ⟨0, _⟩ => show win2_8.index t (0 : Fin 2) * 32 + 1 * k.val = k.val; omega
  | ⟨1, _⟩ => show win2_8.index t (1 : Fin 2) * 64 + 1 * n.val = n.val; omega

/-- The third layer's bias is fetched whole. -/
theorem blk9_apply (c : Dev nD) (t : Fin cfg2.N) (k : Fin 64) :
    (iblk2 V c 9 t : Vec Ideal S64 .f32) (ix1 k) = (V c main_arg22 : S64.Idx → Elt Ideal .f32) (ix1 k) := by
  have e := idx_facts t
  show (V c main_arg22 : S64.Idx → Elt Ideal .f32) (((cfg2.win 9).blk t).view.emb (ix1 k)) = _
  refine congrArg _ (funext fun a => Fin.ext ?_)
  match a with
  | ⟨0, _⟩ => show win2_9.index t (0 : Fin 1) * 64 + 1 * k.val = k.val; omega

/-- WHAT POINT t WRITES BACK is block t of the specification's output of the arrays as the region finds them. -/
theorem flushed_eq (c : Dev nD) (t : Fin cfg2.N) :
    (dat2 (F := Ideal) V c).flushed 10 t = ((cfg2.win 10).blk t).view.read (Elt Ideal)
      (Cert.Spec.postProc (V c main_v9) (V c main_arg0) (V c main_arg15) (V c main_arg16) (V c main_arg17) (V c main_arg18)
        (V c main_arg19) (V c main_arg20) (V c main_arg21) (V c main_arg22)) := by
  show (cfg2.win 10).cut (grid2.coords t) ((dat2 V c).after 10 t) = _
  rw [after2_10]
  unfold out2_10
  rw [View.canon_unit_zero hz2]
  simp only [View.ld_unit_zero (S := S5000x64) hz2, View.ld_unit_zero (S := S5000x128) hz2, View.ld_unit_zero (S := S192) hz1,
    View.ld_unit_zero (S := S192x32) hz2, View.ld_unit_zero (S := S32) hz1, View.ld_unit_zero (S := S32x32) hz2,
    View.ld_unit_zero (S := S32x64) hz2, View.ld_unit_zero (S := S64) hz1]
  funext j
  obtain ⟨p, q, rfl⟩ : ∃ (p : Fin 5000) (q : Fin 64), j = ix2 p q := ⟨j 0, j 1, eq_ix2 j⟩
  have hp := p.isLt
  have hN : cfg2.N = 20 := N_2
  have ht := t.isLt
  have e := idx_facts t
  have hemb : ((cfg2.win 10).blk t).view.emb (ix2 p q) = ix2 (⟨5000 * t.val + p.val, by omega⟩ : Fin 100000) q := by
    funext a
    apply Fin.ext
    match a with
    | ⟨0, _⟩ => show win2_10.index t (0 : Fin 2) * 5000 + 1 * p.val = 5000 * t.val + p.val; omega
    | ⟨1, _⟩ => show win2_10.index t (1 : Fin 2) * 64 + 1 * q.val = q.val; omega
  show k2_pay1 (F := Ideal) (k2_pay2 (F := Ideal) (iblk2 V c 0 t) (iblk2 V c 1 t) (iblk2 V c 2 t) (iblk2 V c 3 t) (iblk2 V c 4 t) (iblk2 V c 5 t))
      (iblk2 V c 6 t) (iblk2 V c 7 t) (iblk2 V c 8 t) (iblk2 V c 9 t) (ix2 p q)
    = Cert.Spec.postProc (V c main_v9) (V c main_arg0) (V c main_arg15) (V c main_arg16) (V c main_arg17) (V c main_arg18)
        (V c main_arg19) (V c main_arg20) (V c main_arg21) (V c main_arg22) (((cfg2.win 10).blk t).view.emb (ix2 p q))
  refine (pay_apply (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) p q).trans ?_
  refine Eq.trans ?_ (congrArg (Cert.Spec.postProc (V c main_v9) (V c main_arg0) (V c main_arg15) (V c main_arg16) (V c main_arg17)
    (V c main_arg18) (V c main_arg19) (V c main_arg20) (V c main_arg21) (V c main_arg22)) hemb).symm
  refine Eq.trans ?_ (postProc_apply (V c main_v9) (V c main_arg0) (V c main_arg15) (V c main_arg16) (V c main_arg17)
    (V c main_arg18) (V c main_arg19) (V c main_arg20) (V c main_arg21) (V c main_arg22) ⟨5000 * t.val + p.val, by omega⟩ q).symm
  exact congrFun (outRow_congr (fun k => blk0_apply V c t p k _ rfl) (fun k => blk1_apply V c t p k _ rfl)
    (blk2_apply V c t) (blk3_apply V c t) (blk4_apply V c t) (blk5_apply V c t) (blk6_apply V c t) (blk7_apply V c t)
    (blk8_apply V c t) (blk9_apply V c t)) q

/-- An entry of the output array is in point t's block iff its row is among the block's 5000 rows. -/
theorem mem_blk (t : Fin cfg2.N) (i : S100000x64.Idx) :
    i ∈ ((cfg2.win 10).blk t).view.set ↔ ∀ a : Fin 2, win2_10.index t a * S5000x64.size a ≤ (i a).val
      ∧ (i a).val < win2_10.index t a * S5000x64.size a + S5000x64.size a := by
  show i ∈ ((View.whole main_v10).slice (win2_10.rect t)).set ↔ _
  rw [View.set_slice_whole, Rect.mem_set_unit]
  exact Iff.rfl

/-- Row R of the output is covered by point R / 5000. -/
theorem cover (i : S100000x64.Idx) : ∃ t : Fin cfg2.N, (cfg2.win 10).flush t = true ∧ i ∈ ((cfg2.win 10).blk t).view.set := by
  have h0 : (i 0).val < 100000 := (i 0).isLt
  have h1 : (i 1).val < 64 := (i 1).isLt
  have hN : cfg2.N = 20 := N_2
  obtain ⟨T, hT⟩ : ∃ T : Fin cfg2.N, T.val = (i 0).val / 5000 := ⟨⟨(i 0).val / 5000, by omega⟩, rfl⟩
  have e := idx_facts T
  refine ⟨T, flush2_10 T, ?_⟩
  rw [mem_blk]
  intro a
  match a with
  | ⟨0, _⟩ =>
    show win2_10.index T (0 : Fin 2) * 5000 ≤ (i 0).val ∧ (i 0).val < win2_10.index T (0 : Fin 2) * 5000 + 5000
    omega
  | ⟨1, _⟩ =>
    show win2_10.index T (1 : Fin 2) * 64 ≤ (i 1).val ∧ (i 1).val < win2_10.index T (1 : Fin 2) * 64 + 64
    omega

/-- What region 2 leaves in its output array is the specification's output stage of the aggregate and the node
    features as the region finds them. -/
theorem out (c : Dev nD) :
    (dat2 (F := Ideal) V c).arrAt 10 cfg2.N
      = Cert.Spec.postProc (V c main_v9) (V c main_arg0) (V c main_arg15) (V c main_arg16) (V c main_arg17) (V c main_arg18)
          (V c main_arg19) (V c main_arg20) (V c main_arg21) (V c main_arg22) :=
  (dat2 (F := Ideal) V c).arrAt_eq_of_cover 10 _ (fun t _ => flushed_eq V c t) cover

end Cert.KernelIdeal.Region2

end
-- ==== Proof.SrcRange.lean ====
/-
  The precondition read at the edge index. The printed precondition ends with the conjunction of the finiteness tests
  and one test of the edge index's first row: every source index s satisfies 0 ≤ s and s < 100000 as signed words,
  reduced over all edges by "and" from 1. The whole function being 1 therefore gives, at every edge, both comparisons,
  which are comparisons of the signed values against 0 and 100000.
-/
import proofs.«413093_j68839735820749_1_alg».proof.Defs
import proofs.«413093_j68839735820749_1_alg».proof.Proof.Gen.Pre_finite_inputs
import proofs.«413093_j68839735820749_1_alg».proof.Proof.Gen.KernelIdeal
import proofs.«413093_j68839735820749_1_alg».proof.Proof.Spec
import Idealize.ShloMosaic.Lib.ReduceAll
import Idealize.ShloMosaic.Lib.StableHlo.Predicate

noncomputable section

namespace Cert.KernelIdeal.SrcRange

open Idealize.ShloMosaic Idealize.SL.Sem Cert.KernelIdeal

/-- The rank-zero shape has one index. -/
instance : Subsingleton Cert.Pre_finite_inputs.S_.Idx := ⟨fun a b => funext fun d => d.elim0⟩

/-- A word that is at least 0 and below 100000 as a signed word has its signed value in that range. -/
theorem toInt_range (w : BitVec 32) (h0 : IntOp.cmpi .sge w (0#32) = 1#1) (h1 : IntOp.cmpi .slt w (100000#32) = 1#1) :
    0 ≤ w.toInt ∧ w.toInt < 100000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (100000#32 : BitVec 32).toInt = 100000 := by decide
  rw [e0] at h0
  rw [e1] at h1
  exact ⟨h0, h1⟩

/-- Under the precondition every source index of the edge index is a node: at least 0 and below 100000, signed. -/
theorem src_in_range (m : (ℓ : Loc nD τ sig) → Buf (Elt Ideal) ℓ) (hpre : Cert.Pre_KernelIdeal m) (c : Dev nD) (e : Cert.ReferenceIdeal.S1600000.Idx) :
    0 ≤ (Cert.Spec.srcOf (m ((c.tc : Thread nD τ).loc main_arg1)) e).toInt
      ∧ (Cert.Spec.srcOf (m ((c.tc : Thread nD τ).loc main_arg1)) e).toInt < 100000 := by
  have h := congrFun (hpre c) (fun d => d.elim0)
  have h3 := (IntOp.andi_eq_one.1 h).2
  have h4 := Host.reduce_andi_all _ _ _ _ _ h3 e
  obtain ⟨h0, h1⟩ := IntOp.andi_eq_one.1 h4
  exact toInt_range _ h0 h1

end Cert.KernelIdeal.SrcRange

end
-- ==== Proof.TakeStage.lean ====
/-
  The gather of the source rows. Between the node encoder and the edge region the kernel program takes the rows of the
  node encoding at the source indices with the fill convention: an index outside [0, 100000) after wrapping negative
  entries yields a fill value instead of a row. Under the precondition every source index lies in [0, 100000), so
  the wrapped index is the index itself, the in-range mask is true at every edge, and the take is the plain gather
  of the specification.
-/
import proofs.«413093_j68839735820749_1_alg».proof.Defs
import proofs.«413093_j68839735820749_1_alg».proof.Proof.Gen.Pre_finite_inputs
import proofs.«413093_j68839735820749_1_alg».proof.Proof.Gen.KernelIdeal.Frame
import proofs.«413093_j68839735820749_1_alg».proof.Proof.Spec
import proofs.«413093_j68839735820749_1_alg».proof.Proof.SrcRange
import Idealize.ShloMosaic.Lib.StableHlo.Run
import Idealize.ShloMosaic.Lib.StableHlo.Predicate

set_option maxRecDepth 16384

noncomputable section

namespace Cert.KernelIdeal.TakeStage

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## Words: a source index in range -/

/-- A word in [0, 100000) read signed is not negative, so the wrap leaves it, and it passes both bounds of the mask:
    it is at least 0 and at most 99999. -/
theorem word_in_range (w : BitVec 32) (h0 : 0 ≤ w.toInt) (h1 : w.toInt < 100000) :
    IntOp.cmpi .slt w 0#32 = 0#1 ∧ IntOp.cmpi .sge w 0#32 = 1#1 ∧ IntOp.cmpi .sle w 99999#32 = 1#1 := by
  have e0 : (0#32 : BitVec 32).toInt = 0 := by decide
  have e2 : (99999#32 : BitVec 32).toInt = 99999 := by decide
  unfold IntOp.cmpi
  refine ⟨?_, ?_, ?_⟩
  · have hf : w.slt 0#32 = false := by
      simp only [BitVec.slt, e0, decide_eq_false_iff_not]; omega
    rw [hf]; rfl
  · rw [StableHlo.Predicate.ofBool_eq_one_iff]
    simp only [BitVec.sle, e0, decide_eq_true_eq]; exact h0
  · rw [StableHlo.Predicate.ofBool_eq_one_iff]
    simp only [BitVec.sle, e2, decide_eq_true_eq]; omega

/-! ## A conjunction of ones is one -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- An and-reduce from the constant 1 of an array of ones is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x hx _

/-! ## The take under an all-true mask -/

/-- The source indices with negative entries wrapped by the number of nodes, as a column: the index array of the
    kernel program's gather. -/
def wrapCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The take's in-range mask, one bit per edge: the conjunction over the column's unit axis of 0 ≤ index ≤ 99999. -/
def inRange (idx : IVec S1600000x1 32) : IVec S1600000 1 :=
  Host.reduce IntOp.andi
    (andi (cmpi .sge idx (broadcastInDim S1600000x1 ![] bcast_S_S1600000x1 (constantI S_ 32 0#32)))
      (cmpi .sle idx (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The kernel program's take: the gathered row where the edge's index is in range, the fill value elsewhere. -/
def takeK (ne : FVec Ideal S100000x32 .f32) (src : IVec S1600000 32) : FVec Ideal S1600000x32 .f32 :=
  select (broadcastInDim S1600000x32 ![0] bcast_S1600000_S1600000x32_0 (inRange (wrapCol src)))
    (Host.gather gather_S100000x32_S1600000x1_S1600000x32_1_0_n_n_0_1_132 ne (wrapCol src))
    (broadcastInDim S1600000x32 ![] bcast_S_S1600000x32 (constant (F := Ideal) S_ .f32 0x7FC00000#32))

/-- An entry of the wrapped column is the wrap of one source index. -/
theorem wrapCol_apply (src : IVec S1600000 32) (i : S1600000x1.Idx) :
    ∃ k : S1600000.Idx, wrapCol src i
      = Scalar.select (IntOp.cmpi .slt (src k) 0#32) (IntOp.addi (src k) 100000#32) (src k) := ⟨_, rfl⟩

/-- With every source index in [0, 100000) the mask is true at every edge. -/
theorem inRange_ones (src : IVec S1600000 32) (hsrc : ∀ e, 0 ≤ (src e).toInt ∧ (src e).toInt < 100000)
    (j : S1600000.Idx) : inRange (wrapCol src) j = 1#1 := by
  unfold inRange
  refine reduce_andi_ones _ _ _ _ (fun i => ?_) (fun _ => rfl) j
  obtain ⟨k, hk⟩ := wrapCol_apply src i
  obtain ⟨hneg, hge, hle⟩ := word_in_range _ (hsrc k).1 (hsrc k).2
  have hw : wrapCol src i = src k := by rw [hk, hneg]; exact if_neg (by decide)
  show IntOp.andi (IntOp.cmpi .sge (wrapCol src i) 0#32) (IntOp.cmpi .sle (wrapCol src i) 99999#32) = 1#1
  rw [hw, hge, hle]; decide

/-- Then the take is the plain gather at the wrapped column. -/
theorem takeK_eq_gather (ne : FVec Ideal S100000x32 .f32) (src : IVec S1600000 32)
    (hsrc : ∀ e, 0 ≤ (src e).toInt ∧ (src e).toInt < 100000) :
    takeK ne src = Host.gather gather_S100000x32_S1600000x1_S1600000x32_1_0_n_n_0_1_132 ne (wrapCol src) := by
  funext i
  unfold takeK
  have hm : broadcastInDim S1600000x32 ![0] bcast_S1600000_S1600000x32_0 (inRange (wrapCol src)) i = 1#1 :=
    inRange_ones src hsrc _
  show Scalar.select (broadcastInDim S1600000x32 ![0] bcast_S1600000_S1600000x32_0 (inRange (wrapCol src)) i) _ _ = _
  rw [hm]; exact if_pos rfl

/-- The specification's gather is the same term: the same wrap, the same column, the same dimension numbers. -/
theorem nodeJ_eq (ne : FVec Ideal S100000x32 .f32) (ei : IVec S2x1600000 32) :
    Cert.Spec.nodeJ ne ei
      = Host.gather gather_S100000x32_S1600000x1_S1600000x32_1_0_n_n_0_1_132 ne (wrapCol (Cert.Spec.srcOf ei)) := rfl

/-! ## The buffers the take reads and the buffer it writes -/

/-- A transport along an equation between a type and itself is the identity. -/
theorem cast_self {α : Sort _} (h : α = α) (a : α) : cast h a = a := (cast_eq h a).trans rfl

/-- Row 0 of the edge index at region 0's exit: written by the first host stretch from the launch memory's edge
    index, and no window of region 0. -/
theorem W2_main_v1 (c : Dev nD) :
    W2 (F := Ideal) m ρ c (Proc.devRef .tc main_v1) = Cert.Spec.srcOf (m ((c.tc : Thread nD τ).loc main_arg1)) := by
  have h1 : W2 m ρ c (Proc.devRef .tc main_v1) = W1 m ρ c (Proc.devRef .tc main_v1) :=
    W2_of_ne m ρ c main_v1 (by decide)
  refine h1.trans ?_
  show StableHlo.after hostOps0 (W0 m ρ c) (Proc.devRef .tc main_v1) = _
  unfold hostOps0
  after_results
  rfl

set_option maxHeartbeats 1000000 in
/-- What the second host stretch leaves in main_v5: the take of the node encoding at row 0 of the edge index, both as
    region 0 leaves them. -/
theorem V3_main_v5 (c : Dev nD) :
    V3 (F := Ideal) m ρ c main_v5
      = takeK (W2 (F := Ideal) m ρ c (Proc.devRef .tc main_v4)) (W2 (F := Ideal) m ρ c (Proc.devRef .tc main_v1)) := by
  show StableHlo.after hostOps1 (W2 m ρ c) (Proc.devRef .tc main_v5) = _
  unfold hostOps1
  after_results_simp
  simp only [StableHlo.TRef.ofBuf, StableHlo.TRef.toBuf, cast_self]
  unfold takeK inRange wrapCol
  rfl

/-- Under the precondition, what the kernel program's take leaves in main_v5 at region 1's entry is the
    specification's gather of the node encoding (as region 0 left it) at the source indices of the launch memory. -/
theorem node_j (hpre : Cert.Pre_KernelIdeal m) (c : Dev nD) :
    V3 (F := Ideal) m ρ c main_v5
      = Cert.Spec.nodeJ (V2 (F := Ideal) m ρ c main_v4) (m ((c.tc : Thread nD τ).loc main_arg1)) := by
  refine (V3_main_v5 m ρ c).trans ?_
  refine (congrArg (takeK (W2 (F := Ideal) m ρ c (Proc.devRef .tc main_v4))) (W2_main_v1 m ρ c)).trans ?_
  refine (takeK_eq_gather _ _ (fun e => Cert.KernelIdeal.SrcRange.src_in_range m hpre c e)).trans ?_
  exact (nodeJ_eq _ _).symm

end Cert.KernelIdeal.TakeStage

end
-- ==== Proof.Chain.lean ====
/-
  From the last region's exit back to the launch memory. The kernel program is: host operations (the two rows of the
  edge index), region 0 (node encoding), host operations (the take of the source rows), region 1 (messages), host
  operations (the sum of the messages at their destination nodes), region 2 (the output). Each region reads its
  weights and inputs from buffers no earlier step has written except where one stage feeds the next, so the contents a
  region finds are the launch memory's arguments and the previous stage's result; composing the three regions'
  values with the two host stages gives the specification's function of the launch memory.
-/
import proofs.«413093_j68839735820749_1_alg».proof.Proof.Region0
import proofs.«413093_j68839735820749_1_alg».proof.Proof.Region1
import proofs.«413093_j68839735820749_1_alg».proof.Proof.Region2
import proofs.«413093_j68839735820749_1_alg».proof.Proof.TakeStage
import Idealize.ShloMosaic.Lib.StableHlo.Run

set_option maxRecDepth 16384

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## Buffers that reach a region's entry untouched -/

/-- The first host stretch keeps a buffer it does not write. -/
theorem through0 (c : Dev nD) (b : Ref sig .tc)
    (h : ∀ op ∈ (hostOps0 : List (HloOp τ sig (Elt Ideal))), (Proc.devRef .tc b : DevRef τ sig) ∉ op.writes) :
    W1 m ρ c (Proc.devRef .tc b) = m ((c : Thread nD τ).loc b) :=
  (StableHlo.after_of_forall_not_mem _ _ h).trans rfl

/-- A buffer that is no array of region 0 and that the first two host stretches do not write holds at region 1's
    entry what the launch memory holds. -/
theorem at_entry1 (c : Dev nD) (b : Ref sig .tc)
    (h0 : ∀ op ∈ (hostOps0 : List (HloOp τ sig (Elt Ideal))), (Proc.devRef .tc b : DevRef τ sig) ∉ op.writes)
    (hw0 : ∀ w, Pipeline.arrRef spec0 w ≠ b)
    (h1 : ∀ op ∈ (hostOps1 : List (HloOp τ sig (Elt Ideal))), (Proc.devRef .tc b : DevRef τ sig) ∉ op.writes) :
    W3 m ρ c (Proc.devRef .tc b) = m ((c : Thread nD τ).loc b) :=
  (StableHlo.after_of_forall_not_mem _ _ h1).trans ((W2_of_ne m ρ c b hw0).trans (through0 m ρ c b h0))

/-- A buffer that is no array of regions 0 and 1 and that no host stretch writes holds at region 2's entry what the
    launch memory holds. -/
theorem at_entry2 (c : Dev nD) (b : Ref sig .tc)
    (h0 : ∀ op ∈ (hostOps0 : List (HloOp τ sig (Elt Ideal))), (Proc.devRef .tc b : DevRef τ sig) ∉ op.writes)
    (hw0 : ∀ w, Pipeline.arrRef spec0 w ≠ b)
    (h1 : ∀ op ∈ (hostOps1 : List (HloOp τ sig (Elt Ideal))), (Proc.devRef .tc b : DevRef τ sig) ∉ op.writes)
    (hw1 : ∀ w, Pipeline.arrRef spec1 w ≠ b)
    (h2 : ∀ op ∈ (hostOps2 : List (HloOp τ sig (Elt Ideal))), (Proc.devRef .tc b : DevRef τ sig) ∉ op.writes) :
    W5 m ρ c (Proc.devRef .tc b) = m ((c : Thread nD τ).loc b) :=
  (StableHlo.after_of_forall_not_mem _ _ h2).trans ((W4_of_ne m ρ c b hw1).trans (at_entry1 m ρ c b h0 hw0 h1))

/-- No operation of a host stretch writes the buffer: each operation's one written buffer is another one. -/
local macro "not_written " ops:ident : tactic => `(tactic|
  exact List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ### Region 0's weights and input -/
theorem V1_arg0 (c : Dev nD) : V1 m ρ c main_arg0 = m ((c : Thread nD τ).loc main_arg0) := through0 m ρ c main_arg0 (by not_written hostOps0)
theorem V1_arg3 (c : Dev nD) : V1 m ρ c main_arg3 = m ((c : Thread nD τ).loc main_arg3) := through0 m ρ c main_arg3 (by not_written hostOps0)
theorem V1_arg4 (c : Dev nD) : V1 m ρ c main_arg4 = m ((c : Thread nD τ).loc main_arg4) := through0 m ρ c main_arg4 (by not_written hostOps0)
theorem V1_arg5 (c : Dev nD) : V1 m ρ c main_arg5 = m ((c : Thread nD τ).loc main_arg5) := through0 m ρ c main_arg5 (by not_written hostOps0)
theorem V1_arg6 (c : Dev nD) : V1 m ρ c main_arg6 = m ((c : Thread nD τ).loc main_arg6) := through0 m ρ c main_arg6 (by not_written hostOps0)

/-! ### Region 1's weights and edge attributes -/
theorem V3_arg2 (c : Dev nD) : V3 m ρ c main_arg2 = m ((c : Thread nD τ).loc main_arg2) :=
  at_entry1 m ρ c main_arg2 (by not_written hostOps0) (by decide) (by not_written hostOps1)
theorem V3_arg7 (c : Dev nD) : V3 m ρ c main_arg7 = m ((c : Thread nD τ).loc main_arg7) :=
  at_entry1 m ρ c main_arg7 (by not_written hostOps0) (by decide) (by not_written hostOps1)
theorem V3_arg8 (c : Dev nD) : V3 m ρ c main_arg8 = m ((c : Thread nD τ).loc main_arg8) :=
  at_entry1 m ρ c main_arg8 (by not_written hostOps0) (by decide) (by not_written hostOps1)
theorem V3_arg9 (c : Dev nD) : V3 m ρ c main_arg9 = m ((c : Thread nD τ).loc main_arg9) :=
  at_entry1 m ρ c main_arg9 (by not_written hostOps0) (by decide) (by not_written hostOps1)
theorem V3_arg10 (c : Dev nD) : V3 m ρ c main_arg10 = m ((c : Thread nD τ).loc main_arg10) :=
  at_entry1 m ρ c main_arg10 (by not_written hostOps0) (by decide) (by not_written hostOps1)
theorem V3_arg11 (c : Dev nD) : V3 m ρ c main_arg11 = m ((c : Thread nD τ).loc main_arg11) :=
  at_entry1 m ρ c main_arg11 (by not_written hostOps0) (by decide) (by not_written hostOps1)
theorem V3_arg12 (c : Dev nD) : V3 m ρ c main_arg12 = m ((c : Thread nD τ).loc main_arg12) :=
  at_entry1 m ρ c main_arg12 (by not_written hostOps0) (by decide) (by not_written hostOps1)
theorem V3_arg13 (c : Dev nD) : V3 m ρ c main_arg13 = m ((c : Thread nD τ).loc main_arg13) :=
  at_entry1 m ρ c main_arg13 (by not_written hostOps0) (by decide) (by not_written hostOps1)
theorem V3_arg14 (c : Dev nD) : V3 m ρ c main_arg14 = m ((c : Thread nD τ).loc main_arg14) :=
  at_entry1 m ρ c main_arg14 (by not_written hostOps0) (by decide) (by not_written hostOps1)

/-! ### Region 2's weights; the node features, which region 0 read through an input window and left as they were -/
theorem V5_arg15 (c : Dev nD) : V5 m ρ c main_arg15 = m ((c : Thread nD τ).loc main_arg15) :=
  at_entry2 m ρ c main_arg15 (by not_written hostOps0) (by decide) (by not_written hostOps1) (by decide) (by not_written hostOps2)
theorem V5_arg16 (c : Dev nD) : V5 m ρ c main_arg16 = m ((c : Thread nD τ).loc main_arg16) :=
  at_entry2 m ρ c main_arg16 (by not_written hostOps0) (by decide) (by not_written hostOps1) (by decide) (by not_written hostOps2)
theorem V5_arg17 (c : Dev nD) : V5 m ρ c main_arg17 = m ((c : Thread nD τ).loc main_arg17) :=
  at_entry2 m ρ c main_arg17 (by not_written hostOps0) (by decide) (by not_written hostOps1) (by decide) (by not_written hostOps2)
theorem V5_arg18 (c : Dev nD) : V5 m ρ c main_arg18 = m ((c : Thread nD τ).loc main_arg18) :=
  at_entry2 m ρ c main_arg18 (by not_written hostOps0) (by decide) (by not_written hostOps1) (by decide) (by not_written hostOps2)
theorem V5_arg19 (c : Dev nD) : V5 m ρ c main_arg19 = m ((c : Thread nD τ).loc main_arg19) :=
  at_entry2 m ρ c main_arg19 (by not_written hostOps0) (by decide) (by not_written hostOps1) (by decide) (by not_written hostOps2)
theorem V5_arg20 (c : Dev nD) : V5 m ρ c main_arg20 = m ((c : Thread nD τ).loc main_arg20) :=
  at_entry2 m ρ c main_arg20 (by not_written hostOps0) (by decide) (by not_written hostOps1) (by decide) (by not_written hostOps2)
theorem V5_arg21 (c : Dev nD) : V5 m ρ c main_arg21 = m ((c : Thread nD τ).loc main_arg21) :=
  at_entry2 m ρ c main_arg21 (by not_written hostOps0) (by decide) (by not_written hostOps1) (by decide) (by not_written hostOps2)
theorem V5_arg22 (c : Dev nD) : V5 m ρ c main_arg22 = m ((c : Thread nD τ).loc main_arg22) :=
  at_entry2 m ρ c main_arg22 (by not_written hostOps0) (by decide) (by not_written hostOps1) (by decide) (by not_written hostOps2)
theorem V5_arg0 (c : Dev nD) : V5 m ρ c main_arg0 = m ((c : Thread nD τ).loc main_arg0) :=
  (StableHlo.after_of_forall_not_mem _ _ (by not_written hostOps2)).trans ((W4_of_ne m ρ c main_arg0 (by decide)).trans
    ((StableHlo.after_of_forall_not_mem _ _ (by not_written hostOps1)).trans
      (((W2_arr m ρ c 0).trans (((dat0 (V1 m ρ) c).arrAt_in 0 rfl _).trans (A_eq0 (V1 m ρ) c 0))).trans (V1_arg0 m ρ c))))

/-! ## The destination indices and the aggregation -/

/-- Row 1 of the edge index, written by the first host stretch, reaches the third stretch untouched. -/
theorem dst_at4 (c : Dev nD) : W4 m ρ c (Proc.devRef .tc main_v3) = Cert.Spec.dstOf (m ((c : Thread nD τ).loc main_arg1)) := by
  refine (W4_of_ne m ρ c main_v3 (by decide)).trans ((StableHlo.after_of_forall_not_mem _ _ (by not_written hostOps1)).trans
    ((W2_of_ne m ρ c main_v3 (by decide)).trans ?_))
  show StableHlo.after hostOps0 (W0 m ρ c) (Proc.devRef .tc main_v3) = _
  after_results
  rfl

/-- The third host stretch sums the messages region 1 left at their destination nodes. -/
theorem agg (c : Dev nD) : V5 m ρ c main_v9 = Cert.Spec.aggOf (V4 m ρ c main_v6) (m ((c : Thread nD τ).loc main_arg1)) := by
  show StableHlo.after hostOps2 (W4 m ρ c) (Proc.devRef .tc main_v9) = _
  after_results
  rw [dst_at4 m ρ c]
  rfl

/-! ## The composition -/

/-- What region 0 leaves: the node encoding of the launch memory's node features and weights. -/
theorem node_enc_at2 (c : Dev nD) :
    V2 m ρ c main_v4 = Cert.Spec.nodeEnc (m ((c : Thread nD τ).loc main_arg0)) (m ((c : Thread nD τ).loc main_arg3)) (m ((c : Thread nD τ).loc main_arg4)) (m ((c : Thread nD τ).loc main_arg5)) (m ((c : Thread nD τ).loc main_arg6)) := by
  refine (W2_arr m ρ c 5).trans ((Cert.KernelIdeal.Region0.node_enc (V1 m ρ) c).trans ?_)
  rw [V1_arg0, V1_arg3, V1_arg4, V1_arg5, V1_arg6]

/-- What region 1 leaves, under the precondition: the messages of the launch memory's edges. -/
theorem msg_at4 (hpre : Cert.Pre_KernelIdeal m) (c : Dev nD) :
    V4 m ρ c main_v6 = Cert.Spec.msgOf (Cert.Spec.edgeEnc (m ((c : Thread nD τ).loc main_arg2)) (m ((c : Thread nD τ).loc main_arg7)) (m ((c : Thread nD τ).loc main_arg8)) (m ((c : Thread nD τ).loc main_arg9)) (m ((c : Thread nD τ).loc main_arg10)))
      (Cert.Spec.nodeJ (Cert.Spec.nodeEnc (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg1))) (m ((c : Thread nD τ).loc main_arg11)) (m ((c : Thread nD τ).loc main_arg12)) (m ((c : Thread nD τ).loc main_arg13)) (m ((c : Thread nD τ).loc main_arg14)) := by
  refine (W4_arr m ρ c 10).trans ((Cert.KernelIdeal.Region1.msg (V3 m ρ) c).trans ?_)
  rw [Cert.KernelIdeal.TakeStage.node_j m ρ hpre c, node_enc_at2 m ρ c]
  rw [V3_arg2, V3_arg7, V3_arg8, V3_arg9, V3_arg10]
  rw [V3_arg11, V3_arg12, V3_arg13, V3_arg14]

/-- Under the precondition the result array, as the last region leaves it, is the specification's function of the
    launch memory's arguments. -/
theorem value (hpre : Cert.Pre_KernelIdeal m) (c : Dev nD) :
    W6 m ρ c (Proc.devRef .tc main_v10)
      = Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (W6_arr m ρ c 10).trans ((Cert.KernelIdeal.Region2.out (V5 m ρ) c).trans ?_)
  rw [agg m ρ c, msg_at4 m ρ hpre c]
  rw [V5_arg0, V5_arg15, V5_arg16, V5_arg17, V5_arg18]
  rw [V5_arg19, V5_arg20, V5_arg21, V5_arg22]
  rfl

end Cert.KernelIdeal.Chain

end
-- ==== Proof.RefRun.lean ====
/-
  The run of the jnp program read back: every weakly fair execution of its @main terminates, nothing faulting, with
  the result array at the specification's function of the argument arrays and the arguments unchanged. The program is
  a straight line of host operations (the leaky rectifiers are outlined functions, each a compare, a product by the
  slope and a select), so its run is the composition of its operations, which is the specification term by term.
-/
import proofs.«413093_j68839735820749_1_alg».proof.Proof.Spec
import Idealize.ShloMosaic.Lib.StableHlo.Run

noncomputable section

namespace Cert.ReferenceIdeal.RefRun

open Idealize.ShloMosaic Idealize.SL.Sem Cert.ReferenceIdeal

/-! ## The line of operations and what each stretch of it leaves

@main's two windows and the eight calls of the rectifier, unfolded, are one straight line of 148 operations. It is cut
into eight consecutive stretches at the values the specification names (the edge index's rows, the node and edge
encodings, the gathered rows, the messages, their sums, the normalised rows, the output); each stretch's result is
the corresponding function of what the stretch reads, a buffer a stretch does not write keeps its contents, and the
whole line's result is the composition. -/

section Line

open Idealize.ShloMosaic.TcCoe Idealize.ShloMosaic.StableHlo Cert.ReferenceIdeal.Facts₀ Cert.ReferenceIdeal.Facts

section Lists

variable {F : FTy → Type} [FloatOps F]

/-- The two rows of the edge index, each as a vector: four operations. -/
abbrev opsA : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- The node encoding: two affine layers, each followed by the rectifier's seven operations. -/
abbrev opsB : List (HloOp τ sig (Elt F)) :=
  [ StableHlo.binary main_arg0 main_arg3 main_v4 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    StableHlo.unary main_arg4 main_v5 (broadcastInDim S1x16 ![1] bcast_S16_S1x16_1 : (⟨S16, .f32⟩ : BufTy).Contents (Elt F) → (⟨S1x16, .f32⟩ : BufTy).Contents (Elt F)),
    StableHlo.unary main_v5 main_v6 (broadcastInDim S100000x16 ![0, 1] bcast_S1x16_S100000x16_0_1 : (⟨S1x16, .f32⟩ : BufTy).Contents (Elt F) → (⟨S100000x16, .f32⟩ : BufTy).Contents (Elt F)),
    StableHlo.binary main_v4 main_v6 main_v7 (addf : (⟨S100000x16, .f32⟩ : BufTy).Contents (Elt F) → (⟨S100000x16, .f32⟩ : BufTy).Contents (Elt F) → (⟨S100000x16, .f32⟩ : BufTy).Contents (Elt F)),
    StableHlo.nullary main_cst (constant S_ .f32 0x3C23D70A#32),
    TRef.nullary main_call0.cst (constant S_ .f32 0x00000000#32),
    TRef.unary main_call0.cst main_call0.v0 (broadcastInDim S100000x16 ![] bcast_S_S100000x16),
    TRef.binary (.of main_v7 : TRef sig ⟨S100000x16, .f32⟩) main_call0.v0 main_call0.v1 (cmpf .oge),
    TRef.unary (.of main_cst : TRef sig ⟨S_, .f32⟩) main_call0.v2 id,
    TRef.unary main_call0.v2 main_call0.v3 (broadcastInDim S100000x16 ![] bcast_S_S100000x16),
    TRef.binary main_call0.v3 (.of main_v7 : TRef sig ⟨S100000x16, .f32⟩) main_call0.v4 mulf,
    TRef.ternary main_call0.v1 (.of main_v7 : TRef sig ⟨S100000x16, .f32⟩) main_call0.v4 main_call0.call0.v0 select,
    StableHlo.binary main_v8 main_arg5 main_v9 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    StableHlo.unary main_arg6 main_v10 (broadcastInDim S1x32 ![1] bcast_S32_S1x32_1 : (⟨S32, .f32⟩ : BufTy).Contents (Elt F) → (⟨S1x32, .f32⟩ : BufTy).Contents (Elt F)),
    StableHlo.unary main_v10 main_v11 (broadcastInDim S100000x32 ![0, 1] bcast_S1x32_S100000x32_0_1 : (⟨S1x32, .f32⟩ : BufTy).Contents (Elt F) → (⟨S100000x32, .f32⟩ : BufTy).Contents (Elt F)),
    StableHlo.binary main_v9 main_v11 main_v12 (addf : (⟨S100000x32, .f32⟩ : BufTy).Contents (Elt F) → (⟨S100000x32, .f32⟩ : BufTy).Contents (Elt F) → (⟨S100000x32, .f32⟩ : BufTy).Contents (Elt F)),
    StableHlo.nullary main_cst_0 (constant S_ .f32 0x3C23D70A#32),
    TRef.nullary main_call1.cst (constant S_ .f32 0x00000000#32),
    TRef.unary main_call1.cst main_call1.v0 (broadcastInDim S100000x32 ![] bcast_S_S100000x32),
    TRef.binary (.of main_v12 : TRef sig ⟨S100000x32, .f32⟩) main_call1.v0 main_call1.v1 (cmpf .oge),
    TRef.unary (.of main_cst_0 : TRef sig ⟨S_, .f32⟩) main_call1.v2 id,
    TRef.unary main_call1.v2 main_call1.v3 (broadcastInDim S100000x32 ![] bcast_S_S100000x32),
    TRef.binary main_call1.v3 (.of main_v12 : TRef sig ⟨S100000x32, .f32⟩) main_call1.v4 mulf,
    TRef.ternary main_call1.v1 (.of main_v12 : TRef sig ⟨S100000x32, .f32⟩) main_call1.v4 main_call1.call0.v0 select ]

/-- The edge encoding, likewise. -/
abbrev opsC : List (HloOp τ sig (Elt F)) :=
  [ StableHlo.binary main_arg2 main_arg7 main_v14 ((fun l r => Host.dotGeneral dot_S1600000x64_S64x16_S1600000x16_1_0_0_1_n_n none l r) : (⟨S1600000x64, .f32⟩ : BufTy).Contents (Elt F) → (⟨S64x16, .f32⟩ : BufTy).Contents (Elt F) → (⟨S1600000x16, .f32⟩ : BufTy).Contents (Elt F)),
    StableHlo.unary main_arg8 main_v15 (broadcastInDim S1x16 ![1] bcast_S16_S1x16_1 : (⟨S16, .f32⟩ : BufTy).Contents (Elt F) → (⟨S1x16, .f32⟩ : BufTy).Contents (Elt F)),
    StableHlo.unary main_v15 main_v16 (broadcastInDim S1600000x16 ![0, 1] bcast_S1x16_S1600000x16_0_1 : (⟨S1x16, .f32⟩ : BufTy).Contents (Elt F) → (⟨S1600000x16, .f32⟩ : BufTy).Contents (Elt F)),
    StableHlo.binary main_v14 main_v16 main_v17 (addf : (⟨S1600000x16, .f32⟩ : BufTy).Contents (Elt F) → (⟨S1600000x16, .f32⟩ : BufTy).Contents (Elt F) → (⟨S1600000x16, .f32⟩ : BufTy).Contents (Elt F)),
    StableHlo.nullary main_cst_1 (constant S_ .f32 0x3C23D70A#32),
    TRef.nullary main_call2.cst (constant S_ .f32 0x00000000#32),
    TRef.unary main_call2.cst main_call2.v0 (broadcastInDim S1600000x16 ![] bcast_S_S1600000x16),
    TRef.binary (.of main_v17 : TRef sig ⟨S1600000x16, .f32⟩) main_call2.v0 main_call2.v1 (cmpf .oge),
    TRef.unary (.of main_cst_1 : TRef sig ⟨S_, .f32⟩) main_call2.v2 id,
    TRef.unary main_call2.v2 main_call2.v3 (broadcastInDim S1600000x16 ![] bcast_S_S1600000x16),
    TRef.binary main_call2.v3 (.of main_v17 : TRef sig ⟨S1600000x16, .f32⟩) main_call2.v4 mulf,
    TRef.ternary main_call2.v1 (.of main_v17 : TRef sig ⟨S1600000x16, .f32⟩) main_call2.v4 main_call2.call0.v0 select,
    StableHlo.binary main_v18 main_arg9 main_v19 ((fun l r => Host.dotGeneral dot_S1600000x16_S16x32_S1600000x32_1_0_0_1_n_n none l r) : (⟨S1600000x16, .f32⟩ : BufTy).Contents (Elt F) → (⟨S16x32, .f32⟩ : BufTy).Contents (Elt F) → (⟨S1600000x32, .f32⟩ : BufTy).Contents (Elt F)),
    StableHlo.unary main_arg10 main_v20 (broadcastInDim S1x32 ![1] bcast_S32_S1x32_1 : (⟨S32, .f32⟩ : BufTy).Contents (Elt F) → (⟨S1x32, .f32⟩ : BufTy).Contents (Elt F)),
    StableHlo.unary main_v20 main_v21 (broadcastInDim S1600000x32 ![0, 1] bcast_S1x32_S1600000x32_0_1 : (⟨S1x32, .f32⟩ : BufTy).Contents (Elt F) → (⟨S1600000x32, .f32⟩ : BufTy).Contents (Elt F)),
    StableHlo.binary main_v19 main_v21 main_v22 (addf : (⟨S1600000x32, .f32⟩ : BufTy).Contents (Elt F) → (⟨S1600000x32, .f32⟩ : BufTy).Contents (Elt F) → (⟨S1600000x32, .f32⟩ : BufTy).Contents (Elt F)),
    StableHlo.nullary main_cst_2 (constant S_ .f32 0x3C23D70A#32),
    TRef.nullary main_call3.cst (constant S_ .f32 0x00000000#32),
    TRef.unary main_call3.cst main_call3.v0 (broadcastInDim S1600000x32 ![] bcast_S_S1600000x32),
    TRef.binary (.of main_v22 : TRef sig ⟨S1600000x32, .f32⟩) main_call3.v0 main_call3.v1 (cmpf .oge),
    TRef.unary (.of main_cst_2 : TRef sig ⟨S_, .f32⟩) main_call3.v2 id,
    TRef.unary main_call3.v2 main_call3.v3 (broadcastInDim S1600000x32 ![] bcast_S_S1600000x32),
    TRef.binary main_call3.v3 (.of main_v22 : TRef sig ⟨S1600000x32, .f32⟩) main_call3.v4 mulf,
    TRef.ternary main_call3.v1 (.of main_v22 : TRef sig ⟨S1600000x32, .f32⟩) main_call3.v4 main_call3.call0.v0 select ]

/-- The source indices wrapped, and the gather of the node encoding's rows. -/
abbrev opsD : List (HloOp τ sig (Elt F)) :=
  [ StableHlo.nullary main_c (constantI S_ 32 0#32),
    StableHlo.unary main_c main_v24 (broadcastInDim S1600000 ![] bcast_S_S1600000 : (⟨S_, .i32⟩ : BufTy).Contents (Elt F) → (⟨S1600000, .i32⟩ : BufTy).Contents (Elt F)),
    StableHlo.binary main_v1 main_v24 main_v25 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v26 (broadcastInDim S1600000 ![] bcast_S_S1600000 : (⟨S_, .i32⟩ : BufTy).Contents (Elt F) → (⟨S1600000, .i32⟩ : BufTy).Contents (Elt F)),
    StableHlo.binary main_v1 main_v26 main_v27 (addi : (⟨S1600000, .i32⟩ : BufTy).Contents (Elt F) → (⟨S1600000, .i32⟩ : BufTy).Contents (Elt F) → (⟨S1600000, .i32⟩ : BufTy).Contents (Elt F)),
    StableHlo.ternary main_v25 main_v27 main_v1 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v28 main_v29 (broadcastInDim S1600000x1 ![0] bcast_S1600000_S1600000x1_0 : (⟨S1600000, .i32⟩ : BufTy).Contents (Elt F) → (⟨S1600000x1, .i32⟩ : BufTy).Contents (Elt F)),
    StableHlo.binary main_v13 main_v29 main_v30 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)) ]

/-- The message: the concatenation, then two layers with their rectifiers. -/
abbrev opsE : List (HloOp τ sig (Elt F)) :=
  [ StableHlo.binary main_v23 main_v30 main_v31 ((fun a b => concatenate S1600000x64 1 [⟨S1600000x32, a⟩, ⟨S1600000x32, b⟩] concatenates_S1600000x32_S1600000x32_S1600000x64_d1) : (⟨S1600000x32, .f32⟩ : BufTy).Contents (Elt F) → (⟨S1600000x32, .f32⟩ : BufTy).Contents (Elt F) → (⟨S1600000x64, .f32⟩ : BufTy).Contents (Elt F)),
    StableHlo.binary main_v31 main_arg11 main_v32 ((fun l r => Host.dotGeneral dot_S1600000x64_S64x16_S1600000x16_1_0_0_1_n_n none l r) : (⟨S1600000x64, .f32⟩ : BufTy).Contents (Elt F) → (⟨S64x16, .f32⟩ : BufTy).Contents (Elt F) → (⟨S1600000x16, .f32⟩ : BufTy).Contents (Elt F)),
    StableHlo.unary main_arg12 main_v33 (broadcastInDim S1x16 ![1] bcast_S16_S1x16_1 : (⟨S16, .f32⟩ : BufTy).Contents (Elt F) → (⟨S1x16, .f32⟩ : BufTy).Contents (Elt F)),
    StableHlo.unary main_v33 main_v34 (broadcastInDim S1600000x16 ![0, 1] bcast_S1x16_S1600000x16_0_1 : (⟨S1x16, .f32⟩ : BufTy).Contents (Elt F) → (⟨S1600000x16, .f32⟩ : BufTy).Contents (Elt F)),
    StableHlo.binary main_v32 main_v34 main_v35 (addf : (⟨S1600000x16, .f32⟩ : BufTy).Contents (Elt F) → (⟨S1600000x16, .f32⟩ : BufTy).Contents (Elt F) → (⟨S1600000x16, .f32⟩ : BufTy).Contents (Elt F)),
    StableHlo.nullary main_cst_4 (constant S_ .f32 0x3C23D70A#32),
    TRef.nullary main_call4.cst (constant S_ .f32 0x00000000#32),
    TRef.unary main_call4.cst main_call4.v0 (broadcastInDim S1600000x16 ![] bcast_S_S1600000x16),
    TRef.binary (.of main_v35 : TRef sig ⟨S1600000x16, .f32⟩) main_call4.v0 main_call4.v1 (cmpf .oge),
    TRef.unary (.of main_cst_4 : TRef sig ⟨S_, .f32⟩) main_call4.v2 id,
    TRef.unary main_call4.v2 main_call4.v3 (broadcastInDim S1600000x16 ![] bcast_S_S1600000x16),
    TRef.binary main_call4.v3 (.of main_v35 : TRef sig ⟨S1600000x16, .f32⟩) main_call4.v4 mulf,
    TRef.ternary main_call4.v1 (.of main_v35 : TRef sig ⟨S1600000x16, .f32⟩) main_call4.v4 main_call4.call0.v0 select,
    StableHlo.binary main_v36 main_arg13 main_v37 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)),
    StableHlo.unary main_arg14 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S1600000x64 ![0, 1] bcast_S1x64_S1600000x64_0_1 : (⟨S1x64, .f32⟩ : BufTy).Contents (Elt F) → (⟨S1600000x64, .f32⟩ : BufTy).Contents (Elt F)),
    StableHlo.binary main_v37 main_v39 main_v40 (addf : (⟨S1600000x64, .f32⟩ : BufTy).Contents (Elt F) → (⟨S1600000x64, .f32⟩ : BufTy).Contents (Elt F) → (⟨S1600000x64, .f32⟩ : BufTy).Contents (Elt F)),
    StableHlo.nullary main_cst_5 (constant S_ .f32 0x3C23D70A#32),
    TRef.nullary main_call5.cst (constant S_ .f32 0x00000000#32),
    TRef.unary main_call5.cst main_call5.v0 (broadcastInDim S1600000x64 ![] bcast_S_S1600000x64),
    TRef.binary (.of main_v40 : TRef sig ⟨S1600000x64, .f32⟩) main_call5.v0 main_call5.v1 (cmpf .oge),
    TRef.unary (.of main_cst_5 : TRef sig ⟨S_, .f32⟩) main_call5.v2 id,
    TRef.unary main_call5.v2 main_call5.v3 (broadcastInDim S1600000x64 ![] bcast_S_S1600000x64),
    TRef.binary main_call5.v3 (.of main_v40 : TRef sig ⟨S1600000x64, .f32⟩) main_call5.v4 mulf,
    TRef.ternary main_call5.v1 (.of main_v40 : TRef sig ⟨S1600000x64, .f32⟩) main_call5.v4 main_call5.call0.v0 select ]

/-- The sum of the messages at their destinations, from zero. -/
abbrev opsF : List (HloOp τ sig (Elt F)) :=
  [ StableHlo.nullary main_cst_6 (constant S_ .f32 0x00000000#32),
    StableHlo.unary main_cst_6 main_v42 (broadcastInDim S100000x64 ![] bcast_S_S100000x64 : (⟨S_, .f32⟩ : BufTy).Contents (Elt F) → (⟨S100000x64, .f32⟩ : BufTy).Contents (Elt F)),
    StableHlo.unary main_v3 main_v43 (broadcastInDim S1600000x1 ![0] bcast_S1600000_S1600000x1_0 : (⟨S1600000, .i32⟩ : BufTy).Contents (Elt F) → (⟨S1600000x1, .i32⟩ : BufTy).Contents (Elt F)),
    StableHlo.ternary main_v42 main_v43 main_v41 main_v44 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The aggregate beside the node features, and the row normalisation. -/
abbrev opsG : List (HloOp τ sig (Elt F)) :=
  [ StableHlo.binary main_v44 main_arg0 main_v45 ((fun a b => concatenate S100000x192 1 [⟨S100000x64, a⟩, ⟨S100000x128, b⟩] concatenates_S100000x64_S100000x128_S100000x192_d1) : (⟨S100000x64, .f32⟩ : BufTy).Contents (Elt F) → (⟨S100000x128, .f32⟩ : BufTy).Contents (Elt F) → (⟨S100000x192, .f32⟩ : BufTy).Contents (Elt F)),
    StableHlo.nullary main_cst_7 (constant S_ .f32 0x00000000#32),
    StableHlo.binary main_v45 main_cst_7 main_v46 ((fun x v => Host.reduceAdd x v reducesTo_S100000x192_S100000_d1 h_S_) : (⟨S100000x192, .f32⟩ : BufTy).Contents (Elt F) → (⟨S_, .f32⟩ : BufTy).Contents (Elt F) → (⟨S100000, .f32⟩ : BufTy).Contents (Elt F)),
    StableHlo.unary main_v46 main_v47 (broadcastInDim S100000x1 ![0] bcast_S100000_S100000x1_0 : (⟨S100000, .f32⟩ : BufTy).Contents (Elt F) → (⟨S100000x1, .f32⟩ : BufTy).Contents (Elt F)),
    StableHlo.nullary main_cst_8 (constant S_ .f32 0x43400000#32),
    StableHlo.unary main_cst_8 main_v48 (broadcastInDim S100000x1 ![] bcast_S_S100000x1 : (⟨S_, .f32⟩ : BufTy).Contents (Elt F) → (⟨S100000x1, .f32⟩ : BufTy).Contents (Elt F)),
    StableHlo.binary main_v47 main_v48 main_v49 (Host.divf : (⟨S100000x1, .f32⟩ : BufTy).Contents (Elt F) → (⟨S100000x1, .f32⟩ : BufTy).Contents (Elt F) → (⟨S100000x1, .f32⟩ : BufTy).Contents (Elt F)),
    StableHlo.unary main_v49 main_v50 (broadcastInDim S100000x192 ![0, 1] bcast_S100000x1_S100000x192_0_1 : (⟨S100000x1, .f32⟩ : BufTy).Contents (Elt F) → (⟨S100000x192, .f32⟩ : BufTy).Contents (Elt F)),
    StableHlo.binary main_v45 main_v50 main_v51 (subf : (⟨S100000x192, .f32⟩ : BufTy).Contents (Elt F) → (⟨S100000x192, .f32⟩ : BufTy).Contents (Elt F) → (⟨S100000x192, .f32⟩ : BufTy).Contents (Elt F)),
    StableHlo.binary main_v51 main_v51 main_v52 (mulf : (⟨S100000x192, .f32⟩ : BufTy).Contents (Elt F) → (⟨S100000x192, .f32⟩ : BufTy).Contents (Elt F) → (⟨S100000x192, .f32⟩ : BufTy).Contents (Elt F)),
    StableHlo.nullary main_cst_9 (constant S_ .f32 0x00000000#32),
    StableHlo.binary main_v52 main_cst_9 main_v53 ((fun x v => Host.reduceAdd x v reducesTo_S100000x192_S100000_d1 h_S_) : (⟨S100000x192, .f32⟩ : BufTy).Contents (Elt F) → (⟨S_, .f32⟩ : BufTy).Contents (Elt F) → (⟨S100000, .f32⟩ : BufTy).Contents (Elt F)),
    StableHlo.unary main_v53 main_v54 (broadcastInDim S100000x1 ![0] bcast_S100000_S100000x1_0 : (⟨S100000, .f32⟩ : BufTy).Contents (Elt F) → (⟨S100000x1, .f32⟩ : BufTy).Contents (Elt F)),
    StableHlo.nullary main_cst_10 (constant S_ .f32 0x43400000#32),
    StableHlo.unary main_cst_10 main_v55 (broadcastInDim S100000x1 ![] bcast_S_S100000x1 : (⟨S_, .f32⟩ : BufTy).Contents (Elt F) → (⟨S100000x1, .f32⟩ : BufTy).Contents (Elt F)),
    StableHlo.binary main_v54 main_v55 main_v56 (Host.divf : (⟨S100000x1, .f32⟩ : BufTy).Contents (Elt F) → (⟨S100000x1, .f32⟩ : BufTy).Contents (Elt F) → (⟨S100000x1, .f32⟩ : BufTy).Contents (Elt F)),
    StableHlo.unary main_v49 main_v57 (broadcastInDim S100000x192 ![0, 1] bcast_S100000x1_S100000x192_0_1 : (⟨S100000x1, .f32⟩ : BufTy).Contents (Elt F) → (⟨S100000x192, .f32⟩ : BufTy).Contents (Elt F)),
    StableHlo.binary main_v45 main_v57 main_v58 (subf : (⟨S100000x192, .f32⟩ : BufTy).Contents (Elt F) → (⟨S100000x192, .f32⟩ : BufTy).Contents (Elt F) → (⟨S100000x192, .f32⟩ : BufTy).Contents (Elt F)),
    StableHlo.nullary main_cst_11 (constant S_ .f32 0x3727C5AC#32),
    StableHlo.unary main_cst_11 main_v59 (broadcastInDim S100000x1 ![] bcast_S_S100000x1 : (⟨S_, .f32⟩ : BufTy).Contents (Elt F) → (⟨S100000x1, .f32⟩ : BufTy).Contents (Elt F)),
    StableHlo.binary main_v56 main_v59 main_v60 (addf : (⟨S100000x1, .f32⟩ : BufTy).Contents (Elt F) → (⟨S100000x1, .f32⟩ : BufTy).Contents (Elt F) → (⟨S100000x1, .f32⟩ : BufTy).Contents (Elt F)),
    StableHlo.unary main_v60 main_v61 (Host.rsqrt : (⟨S100000x1, .f32⟩ : BufTy).Contents (Elt F) → (⟨S100000x1, .f32⟩ : BufTy).Contents (Elt F)),
    StableHlo.unary main_v61 main_v62 (broadcastInDim S100000x192 ![0, 1] bcast_S100000x1_S100000x192_0_1 : (⟨S100000x1, .f32⟩ : BufTy).Contents (Elt F) → (⟨S100000x192, .f32⟩ : BufTy).Contents (Elt F)),
    StableHlo.binary main_v58 main_v62 main_v63 (mulf : (⟨S100000x192, .f32⟩ : BufTy).Contents (Elt F) → (⟨S100000x192, .f32⟩ : BufTy).Contents (Elt F) → (⟨S100000x192, .f32⟩ : BufTy).Contents (Elt F)),
    StableHlo.unary main_arg15 main_v64 (broadcastInDim S1x192 ![1] bcast_S192_S1x192_1 : (⟨S192, .f32⟩ : BufTy).Contents (Elt F) → (⟨S1x192, .f32⟩ : BufTy).Contents (Elt F)),
    StableHlo.unary main_v64 main_v65 (broadcastInDim S100000x192 ![0, 1] bcast_S1x192_S100000x192_0_1 : (⟨S1x192, .f32⟩ : BufTy).Contents (Elt F) → (⟨S100000x192, .f32⟩ : BufTy).Contents (Elt F)),
    StableHlo.binary main_v63 main_v65 main_v66 (mulf : (⟨S100000x192, .f32⟩ : BufTy).Contents (Elt F) → (⟨S100000x192, .f32⟩ : BufTy).Contents (Elt F) → (⟨S100000x192, .f32⟩ : BufTy).Contents (Elt F)),
    StableHlo.unary main_arg16 main_v67 (broadcastInDim S1x192 ![1] bcast_S192_S1x192_1 : (⟨S192, .f32⟩ : BufTy).Contents (Elt F) → (⟨S1x192, .f32⟩ : BufTy).Contents (Elt F)),
    StableHlo.unary main_v67 main_v68 (broadcastInDim S100000x192 ![0, 1] bcast_S1x192_S100000x192_0_1 : (⟨S1x192, .f32⟩ : BufTy).Contents (Elt F) → (⟨S100000x192, .f32⟩ : BufTy).Contents (Elt F)),
    StableHlo.binary main_v66 main_v68 main_v69 (addf : (⟨S100000x192, .f32⟩ : BufTy).Contents (Elt F) → (⟨S100000x192, .f32⟩ : BufTy).Contents (Elt F) → (⟨S100000x192, .f32⟩ : BufTy).Contents (Elt F)) ]

/-- The three output layers. -/
abbrev opsH : List (HloOp τ sig (Elt F)) :=
  [ StableHlo.binary main_v69 main_arg17 main_v70 ((fun l r => Host.dotGeneral dot_S100000x192_S192x32_S100000x32_1_0_0_1_n_n none l r) : (⟨S100000x192, .f32⟩ : BufTy).Contents (Elt F) → (⟨S192x32, .f32⟩ : BufTy).Contents (Elt F) → (⟨S100000x32, .f32⟩ : BufTy).Contents (Elt F)),
    StableHlo.unary main_arg18 main_v71 (broadcastInDim S1x32 ![1] bcast_S32_S1x32_1 : (⟨S32, .f32⟩ : BufTy).Contents (Elt F) → (⟨S1x32, .f32⟩ : BufTy).Contents (Elt F)),
    StableHlo.unary main_v71 main_v72 (broadcastInDim S100000x32 ![0, 1] bcast_S1x32_S100000x32_0_1 : (⟨S1x32, .f32⟩ : BufTy).Contents (Elt F) → (⟨S100000x32, .f32⟩ : BufTy).Contents (Elt F)),
    StableHlo.binary main_v70 main_v72 main_v73 (addf : (⟨S100000x32, .f32⟩ : BufTy).Contents (Elt F) → (⟨S100000x32, .f32⟩ : BufTy).Contents (Elt F) → (⟨S100000x32, .f32⟩ : BufTy).Contents (Elt F)),
    StableHlo.nullary main_cst_12 (constant S_ .f32 0x3C23D70A#32),
    TRef.nullary main_call6.cst (constant S_ .f32 0x00000000#32),
    TRef.unary main_call6.cst main_call6.v0 (broadcastInDim S100000x32 ![] bcast_S_S100000x32),
    TRef.binary (.of main_v73 : TRef sig ⟨S100000x32, .f32⟩) main_call6.v0 main_call6.v1 (cmpf .oge),
    TRef.unary (.of main_cst_12 : TRef sig ⟨S_, .f32⟩) main_call6.v2 id,
    TRef.unary main_call6.v2 main_call6.v3 (broadcastInDim S100000x32 ![] bcast_S_S100000x32),
    TRef.binary main_call6.v3 (.of main_v73 : TRef sig ⟨S100000x32, .f32⟩) main_call6.v4 mulf,
    TRef.ternary main_call6.v1 (.of main_v73 : TRef sig ⟨S100000x32, .f32⟩) main_call6.v4 main_call6.call0.v0 select,
    StableHlo.binary main_v74 main_arg19 main_v75 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg20 main_v76 (broadcastInDim S1x32 ![1] bcast_S32_S1x32_1 : (⟨S32, .f32⟩ : BufTy).Contents (Elt F) → (⟨S1x32, .f32⟩ : BufTy).Contents (Elt F)),
    StableHlo.unary main_v76 main_v77 (broadcastInDim S100000x32 ![0, 1] bcast_S1x32_S100000x32_0_1 : (⟨S1x32, .f32⟩ : BufTy).Contents (Elt F) → (⟨S100000x32, .f32⟩ : BufTy).Contents (Elt F)),
    StableHlo.binary main_v75 main_v77 main_v78 (addf : (⟨S100000x32, .f32⟩ : BufTy).Contents (Elt F) → (⟨S100000x32, .f32⟩ : BufTy).Contents (Elt F) → (⟨S100000x32, .f32⟩ : BufTy).Contents (Elt F)),
    StableHlo.nullary main_cst_13 (constant S_ .f32 0x3C23D70A#32),
    TRef.nullary main_call7.cst (constant S_ .f32 0x00000000#32),
    TRef.unary main_call7.cst main_call7.v0 (broadcastInDim S100000x32 ![] bcast_S_S100000x32),
    TRef.binary (.of main_v78 : TRef sig ⟨S100000x32, .f32⟩) main_call7.v0 main_call7.v1 (cmpf .oge),
    TRef.unary (.of main_cst_13 : TRef sig ⟨S_, .f32⟩) main_call7.v2 id,
    TRef.unary main_call7.v2 main_call7.v3 (broadcastInDim S100000x32 ![] bcast_S_S100000x32),
    TRef.binary main_call7.v3 (.of main_v78 : TRef sig ⟨S100000x32, .f32⟩) main_call7.v4 mulf,
    TRef.ternary main_call7.v1 (.of main_v78 : TRef sig ⟨S100000x32, .f32⟩) main_call7.v4 main_call7.call0.v0 select,
    StableHlo.binary main_v79 main_arg21 main_v80 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.unary main_arg22 main_v81 (broadcastInDim S1x64 ![1] bcast_S64_S1x64_1 : (⟨S64, .f32⟩ : BufTy).Contents (Elt F) → (⟨S1x64, .f32⟩ : BufTy).Contents (Elt F)),
    StableHlo.unary main_v81 main_v82 (broadcastInDim S100000x64 ![0, 1] bcast_S1x64_S100000x64_0_1 : (⟨S1x64, .f32⟩ : BufTy).Contents (Elt F) → (⟨S100000x64, .f32⟩ : BufTy).Contents (Elt F)),
    StableHlo.binary main_v80 main_v82 main_v83 (addf : (⟨S100000x64, .f32⟩ : BufTy).Contents (Elt F) → (⟨S100000x64, .f32⟩ : BufTy).Contents (Elt F) → (⟨S100000x64, .f32⟩ : BufTy).Contents (Elt F)) ]

/-- @main's operations in order, the calls unfolded at their sites. -/
abbrev ops : List (HloOp τ sig (Elt F)) :=
  opsA ++ (opsB ++ (opsC ++ (opsD ++ (opsE ++ (opsF ++ (opsG ++ opsH))))))

theorem opsA_sub : (opsA : List (HloOp τ sig (Elt F))).Forall fun op => op.bufs ⊆ tcRefs τ sig :=
  ⟨unary_bufs_sub .., reshape_bufs_sub .., unary_bufs_sub .., reshape_bufs_sub ..⟩
theorem opsA_fresh : (opsA : List (HloOp τ sig (Elt F))).Forall fun op => op.fresh = ∅ :=
  ⟨rfl, rfl, rfl, rfl⟩
theorem opsB_sub : (opsB : List (HloOp τ sig (Elt F))).Forall fun op => op.bufs ⊆ tcRefs τ sig :=
  ⟨binary_bufs_sub .., unary_bufs_sub .., unary_bufs_sub .., binary_bufs_sub .., nullary_bufs_sub ..,
    nullary_bufs_sub .., unary_bufs_sub .., binary_bufs_sub .., unary_bufs_sub .., unary_bufs_sub ..,
    binary_bufs_sub .., ternary_bufs_sub .., binary_bufs_sub .., unary_bufs_sub .., unary_bufs_sub ..,
    binary_bufs_sub .., nullary_bufs_sub .., nullary_bufs_sub .., unary_bufs_sub .., binary_bufs_sub ..,
    unary_bufs_sub .., unary_bufs_sub .., binary_bufs_sub .., ternary_bufs_sub ..⟩
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl⟩
theorem opsC_sub : (opsC : List (HloOp τ sig (Elt F))).Forall fun op => op.bufs ⊆ tcRefs τ sig :=
  ⟨binary_bufs_sub .., unary_bufs_sub .., unary_bufs_sub .., binary_bufs_sub .., nullary_bufs_sub ..,
    nullary_bufs_sub .., unary_bufs_sub .., binary_bufs_sub .., unary_bufs_sub .., unary_bufs_sub ..,
    binary_bufs_sub .., ternary_bufs_sub .., binary_bufs_sub .., unary_bufs_sub .., unary_bufs_sub ..,
    binary_bufs_sub .., nullary_bufs_sub .., nullary_bufs_sub .., unary_bufs_sub .., binary_bufs_sub ..,
    unary_bufs_sub .., unary_bufs_sub .., binary_bufs_sub .., ternary_bufs_sub ..⟩
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl⟩
theorem opsD_sub : (opsD : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., binary_bufs_sub ..⟩
theorem opsD_fresh : (opsD : List (HloOp τ sig (Elt F))).Forall fun op => op.fresh = ∅ :=
  ⟨rfl, rfl, rfl, rfl, rfl, rfl, rfl, rfl, rfl⟩
theorem opsE_sub : (opsE : List (HloOp τ sig (Elt F))).Forall fun op => op.bufs ⊆ tcRefs τ sig :=
  ⟨binary_bufs_sub .., binary_bufs_sub .., unary_bufs_sub .., unary_bufs_sub .., binary_bufs_sub ..,
    nullary_bufs_sub .., nullary_bufs_sub .., unary_bufs_sub .., binary_bufs_sub .., unary_bufs_sub ..,
    unary_bufs_sub .., binary_bufs_sub .., ternary_bufs_sub .., binary_bufs_sub .., unary_bufs_sub ..,
    unary_bufs_sub .., binary_bufs_sub .., nullary_bufs_sub .., nullary_bufs_sub .., unary_bufs_sub ..,
    binary_bufs_sub .., unary_bufs_sub .., unary_bufs_sub .., binary_bufs_sub .., ternary_bufs_sub ..⟩
theorem opsE_fresh : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl⟩
theorem opsF_sub : (opsF : List (HloOp τ sig (Elt F))).Forall fun op => op.bufs ⊆ tcRefs τ sig :=
  ⟨nullary_bufs_sub .., unary_bufs_sub .., unary_bufs_sub .., ternary_bufs_sub ..⟩
theorem opsF_fresh : (opsF : List (HloOp τ sig (Elt F))).Forall fun op => op.fresh = ∅ :=
  ⟨rfl, rfl, rfl, rfl⟩
theorem opsG_sub : (opsG : List (HloOp τ sig (Elt F))).Forall fun op => op.bufs ⊆ tcRefs τ sig :=
  ⟨binary_bufs_sub .., nullary_bufs_sub .., binary_bufs_sub .., unary_bufs_sub .., nullary_bufs_sub ..,
    unary_bufs_sub .., binary_bufs_sub .., unary_bufs_sub .., binary_bufs_sub .., binary_bufs_sub ..,
    nullary_bufs_sub .., binary_bufs_sub .., unary_bufs_sub .., nullary_bufs_sub .., unary_bufs_sub ..,
    binary_bufs_sub .., unary_bufs_sub .., binary_bufs_sub .., nullary_bufs_sub .., unary_bufs_sub ..,
    binary_bufs_sub .., unary_bufs_sub .., unary_bufs_sub .., binary_bufs_sub .., unary_bufs_sub ..,
    unary_bufs_sub .., binary_bufs_sub .., unary_bufs_sub .., unary_bufs_sub .., binary_bufs_sub ..⟩
theorem opsG_fresh : (opsG : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl⟩
theorem opsH_sub : (opsH : List (HloOp τ sig (Elt F))).Forall fun op => op.bufs ⊆ tcRefs τ sig :=
  ⟨binary_bufs_sub .., unary_bufs_sub .., unary_bufs_sub .., binary_bufs_sub .., nullary_bufs_sub ..,
    nullary_bufs_sub .., unary_bufs_sub .., binary_bufs_sub .., unary_bufs_sub .., unary_bufs_sub ..,
    binary_bufs_sub .., ternary_bufs_sub .., binary_bufs_sub .., unary_bufs_sub .., unary_bufs_sub ..,
    binary_bufs_sub .., nullary_bufs_sub .., nullary_bufs_sub .., unary_bufs_sub .., binary_bufs_sub ..,
    unary_bufs_sub .., unary_bufs_sub .., binary_bufs_sub .., ternary_bufs_sub .., binary_bufs_sub ..,
    unary_bufs_sub .., unary_bufs_sub .., binary_bufs_sub ..⟩
theorem opsH_fresh : (opsH : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl⟩

theorem ops_sub : (ops : List (HloOp τ sig (Elt F))).Forall fun op => op.bufs ⊆ tcRefs τ sig := by
  simp only [ops, List.forall_append]
  exact ⟨opsA_sub, opsB_sub, opsC_sub, opsD_sub, opsE_sub, opsF_sub, opsG_sub, opsH_sub⟩

theorem ops_fresh : ∀ op ∈ (ops : List (HloOp τ sig (Elt F))), op.fresh = ∅ := by
  refine List.forall_iff_forall_mem.1 ?_
  simp only [ops, List.forall_append]
  exact ⟨opsA_fresh, opsB_fresh, opsC_fresh, opsD_fresh, opsE_fresh, opsF_fresh, opsG_fresh, opsH_fresh⟩

set_option maxRecDepth 8192 in
set_option maxHeartbeats 4000000 in
/-- @main is that straight line: the two windows in order, the functions' definitions unfolded at their calls, and
    sequencing reassociated. -/
theorem main_eq (c : Dev nD) : main (F := F) c = seq ops := by
  simp only [main, main_part0, main_part1, fn_leaky_relu.body, fn_leaky_relu_0.body, fn_leaky_relu_2.body, fn_leaky_relu_4.body, fn_leaky_relu_6.body, fn_where.body, fn_where_1.body, fn_where_3.body, fn_where_5.body, fn_where_7.body,
    ops, opsA, opsB, opsC, opsD, opsE, opsF, opsG, opsH, List.cons_append, List.nil_append, seq, bind_assoc, pure_bind]

end Lists

theorem scopedRefs_eq : (Finset.univ.filter fun b : Ref sig .tc => b.isScoped) = ∅ := by decide
theorem scopedSems_eq : (Finset.univ.filter fun sm : SemLoc sig => sm.isScoped .tc) = ∅ := by decide

/-- Two lines run one after the other fold as the second over the first's contents. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => after_app l₁ l₂ (op.result V)

/-- An operation whose one written buffer is among a list of references writes inside the list. -/
theorem writes_sub_of_mem {W : List (Ref sig .tc)} {op : HloOp τ sig (Elt Ideal)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-- The buffers the operations of `opsA` write. -/
abbrev wrA : List (Ref sig .tc) :=
  [main_v0, main_v1, main_v2, main_v3]
theorem opsA_writes : (opsA (F := Ideal)).Forall fun op => op.writes ⊆ (wrA.map (Proc.devRef (τ := τ) .tc)).toFinset :=
  ⟨writes_sub_of_mem (y := main_v0) rfl (by decide), writes_sub_of_mem (y := main_v1) rfl (by decide),
    writes_sub_of_mem (y := main_v2) rfl (by decide), writes_sub_of_mem (y := main_v3) rfl (by decide)⟩
/-- A buffer `opsA` does not write keeps its contents. -/
theorem frameA {V : Valuation τ sig (Elt Ideal)} {r : Ref sig .tc} (hr : r ∉ wrA) :
    after (opsA (F := Ideal)) V (Proc.devRef .tc r) = V (Proc.devRef .tc r) :=
  after_of_writes_sub opsA V opsA_writes hr

/-- The buffers the operations of `opsB` write. -/
abbrev wrB : List (Ref sig .tc) :=
  [main_v4, main_v5, main_v6, main_v7, main_cst, main_call0_cst, main_call0_v0, main_call0_v1,
    main_call0_v2, main_call0_v3, main_call0_v4, main_v8, main_v9, main_v10, main_v11, main_v12,
    main_cst_0, main_call1_cst, main_call1_v0, main_call1_v1, main_call1_v2, main_call1_v3, main_call1_v4, main_v13]
theorem opsB_writes : (opsB (F := Ideal)).Forall fun op => op.writes ⊆ (wrB.map (Proc.devRef (τ := τ) .tc)).toFinset :=
  ⟨writes_sub_of_mem (y := main_v4) rfl (by decide), writes_sub_of_mem (y := main_v5) rfl (by decide),
    writes_sub_of_mem (y := main_v6) rfl (by decide), writes_sub_of_mem (y := main_v7) rfl (by decide),
    writes_sub_of_mem (y := main_cst) rfl (by decide), writes_sub_of_mem (y := main_call0_cst) rfl (by decide),
    writes_sub_of_mem (y := main_call0_v0) rfl (by decide), writes_sub_of_mem (y := main_call0_v1) rfl (by decide),
    writes_sub_of_mem (y := main_call0_v2) rfl (by decide), writes_sub_of_mem (y := main_call0_v3) rfl (by decide),
    writes_sub_of_mem (y := main_call0_v4) rfl (by decide), writes_sub_of_mem (y := main_v8) rfl (by decide),
    writes_sub_of_mem (y := main_v9) rfl (by decide), writes_sub_of_mem (y := main_v10) rfl (by decide),
    writes_sub_of_mem (y := main_v11) rfl (by decide), writes_sub_of_mem (y := main_v12) rfl (by decide),
    writes_sub_of_mem (y := main_cst_0) rfl (by decide), writes_sub_of_mem (y := main_call1_cst) rfl (by decide),
    writes_sub_of_mem (y := main_call1_v0) rfl (by decide), writes_sub_of_mem (y := main_call1_v1) rfl (by decide),
    writes_sub_of_mem (y := main_call1_v2) rfl (by decide), writes_sub_of_mem (y := main_call1_v3) rfl (by decide),
    writes_sub_of_mem (y := main_call1_v4) rfl (by decide), writes_sub_of_mem (y := main_v13) rfl (by decide)⟩
/-- A buffer `opsB` does not write keeps its contents. -/
theorem frameB {V : Valuation τ sig (Elt Ideal)} {r : Ref sig .tc} (hr : r ∉ wrB) :
    after (opsB (F := Ideal)) V (Proc.devRef .tc r) = V (Proc.devRef .tc r) :=
  after_of_writes_sub opsB V opsB_writes hr

/-- The buffers the operations of `opsC` write. -/
abbrev wrC : List (Ref sig .tc) :=
  [main_v14, main_v15, main_v16, main_v17, main_cst_1, main_call2_cst, main_call2_v0, main_call2_v1,
    main_call2_v2, main_call2_v3, main_call2_v4, main_v18, main_v19, main_v20, main_v21, main_v22,
    main_cst_2, main_call3_cst, main_call3_v0, main_call3_v1, main_call3_v2, main_call3_v3, main_call3_v4, main_v23]
theorem opsC_writes : (opsC (F := Ideal)).Forall fun op => op.writes ⊆ (wrC.map (Proc.devRef (τ := τ) .tc)).toFinset :=
  ⟨writes_sub_of_mem (y := main_v14) rfl (by decide), writes_sub_of_mem (y := main_v15) rfl (by decide),
    writes_sub_of_mem (y := main_v16) rfl (by decide), writes_sub_of_mem (y := main_v17) rfl (by decide),
    writes_sub_of_mem (y := main_cst_1) rfl (by decide), writes_sub_of_mem (y := main_call2_cst) rfl (by decide),
    writes_sub_of_mem (y := main_call2_v0) rfl (by decide), writes_sub_of_mem (y := main_call2_v1) rfl (by decide),
    writes_sub_of_mem (y := main_call2_v2) rfl (by decide), writes_sub_of_mem (y := main_call2_v3) rfl (by decide),
    writes_sub_of_mem (y := main_call2_v4) rfl (by decide), writes_sub_of_mem (y := main_v18) rfl (by decide),
    writes_sub_of_mem (y := main_v19) rfl (by decide), writes_sub_of_mem (y := main_v20) rfl (by decide),
    writes_sub_of_mem (y := main_v21) rfl (by decide), writes_sub_of_mem (y := main_v22) rfl (by decide),
    writes_sub_of_mem (y := main_cst_2) rfl (by decide), writes_sub_of_mem (y := main_call3_cst) rfl (by decide),
    writes_sub_of_mem (y := main_call3_v0) rfl (by decide), writes_sub_of_mem (y := main_call3_v1) rfl (by decide),
    writes_sub_of_mem (y := main_call3_v2) rfl (by decide), writes_sub_of_mem (y := main_call3_v3) rfl (by decide),
    writes_sub_of_mem (y := main_call3_v4) rfl (by decide), writes_sub_of_mem (y := main_v23) rfl (by decide)⟩
/-- A buffer `opsC` does not write keeps its contents. -/
theorem frameC {V : Valuation τ sig (Elt Ideal)} {r : Ref sig .tc} (hr : r ∉ wrC) :
    after (opsC (F := Ideal)) V (Proc.devRef .tc r) = V (Proc.devRef .tc r) :=
  after_of_writes_sub opsC V opsC_writes hr

/-- The buffers the operations of `opsD` write. -/
abbrev wrD : List (Ref sig .tc) :=
  [main_c, main_v24, main_v25, main_c_3, main_v26, main_v27, main_v28, main_v29,
    main_v30]
theorem opsD_writes : (opsD (F := Ideal)).Forall fun op => op.writes ⊆ (wrD.map (Proc.devRef (τ := τ) .tc)).toFinset :=
  ⟨writes_sub_of_mem (y := main_c) rfl (by decide), writes_sub_of_mem (y := main_v24) rfl (by decide),
    writes_sub_of_mem (y := main_v25) rfl (by decide), writes_sub_of_mem (y := main_c_3) rfl (by decide),
    writes_sub_of_mem (y := main_v26) rfl (by decide), writes_sub_of_mem (y := main_v27) rfl (by decide),
    writes_sub_of_mem (y := main_v28) rfl (by decide), writes_sub_of_mem (y := main_v29) rfl (by decide),
    writes_sub_of_mem (y := main_v30) rfl (by decide)⟩
/-- A buffer `opsD` does not write keeps its contents. -/
theorem frameD {V : Valuation τ sig (Elt Ideal)} {r : Ref sig .tc} (hr : r ∉ wrD) :
    after (opsD (F := Ideal)) V (Proc.devRef .tc r) = V (Proc.devRef .tc r) :=
  after_of_writes_sub opsD V opsD_writes hr

/-- The buffers the operations of `opsE` write. -/
abbrev wrE : List (Ref sig .tc) :=
  [main_v31, main_v32, main_v33, main_v34, main_v35, main_cst_4, main_call4_cst, main_call4_v0,
    main_call4_v1, main_call4_v2, main_call4_v3, main_call4_v4, main_v36, main_v37, main_v38, main_v39,
    main_v40, main_cst_5, main_call5_cst, main_call5_v0, main_call5_v1, main_call5_v2, main_call5_v3, main_call5_v4,
    main_v41]
theorem opsE_writes : (opsE (F := Ideal)).Forall fun op => op.writes ⊆ (wrE.map (Proc.devRef (τ := τ) .tc)).toFinset :=
  ⟨writes_sub_of_mem (y := main_v31) rfl (by decide), writes_sub_of_mem (y := main_v32) rfl (by decide),
    writes_sub_of_mem (y := main_v33) rfl (by decide), writes_sub_of_mem (y := main_v34) rfl (by decide),
    writes_sub_of_mem (y := main_v35) rfl (by decide), writes_sub_of_mem (y := main_cst_4) rfl (by decide),
    writes_sub_of_mem (y := main_call4_cst) rfl (by decide), writes_sub_of_mem (y := main_call4_v0) rfl (by decide),
    writes_sub_of_mem (y := main_call4_v1) rfl (by decide), writes_sub_of_mem (y := main_call4_v2) rfl (by decide),
    writes_sub_of_mem (y := main_call4_v3) rfl (by decide), writes_sub_of_mem (y := main_call4_v4) rfl (by decide),
    writes_sub_of_mem (y := main_v36) rfl (by decide), writes_sub_of_mem (y := main_v37) rfl (by decide),
    writes_sub_of_mem (y := main_v38) rfl (by decide), writes_sub_of_mem (y := main_v39) rfl (by decide),
    writes_sub_of_mem (y := main_v40) rfl (by decide), writes_sub_of_mem (y := main_cst_5) rfl (by decide),
    writes_sub_of_mem (y := main_call5_cst) rfl (by decide), writes_sub_of_mem (y := main_call5_v0) rfl (by decide),
    writes_sub_of_mem (y := main_call5_v1) rfl (by decide), writes_sub_of_mem (y := main_call5_v2) rfl (by decide),
    writes_sub_of_mem (y := main_call5_v3) rfl (by decide), writes_sub_of_mem (y := main_call5_v4) rfl (by decide),
    writes_sub_of_mem (y := main_v41) rfl (by decide)⟩
/-- A buffer `opsE` does not write keeps its contents. -/
theorem frameE {V : Valuation τ sig (Elt Ideal)} {r : Ref sig .tc} (hr : r ∉ wrE) :
    after (opsE (F := Ideal)) V (Proc.devRef .tc r) = V (Proc.devRef .tc r) :=
  after_of_writes_sub opsE V opsE_writes hr

/-- The buffers the operations of `opsF` write. -/
abbrev wrF : List (Ref sig .tc) :=
  [main_cst_6, main_v42, main_v43, main_v44]
theorem opsF_writes : (opsF (F := Ideal)).Forall fun op => op.writes ⊆ (wrF.map (Proc.devRef (τ := τ) .tc)).toFinset :=
  ⟨writes_sub_of_mem (y := main_cst_6) rfl (by decide), writes_sub_of_mem (y := main_v42) rfl (by decide),
    writes_sub_of_mem (y := main_v43) rfl (by decide), writes_sub_of_mem (y := main_v44) rfl (by decide)⟩
/-- A buffer `opsF` does not write keeps its contents. -/
theorem frameF {V : Valuation τ sig (Elt Ideal)} {r : Ref sig .tc} (hr : r ∉ wrF) :
    after (opsF (F := Ideal)) V (Proc.devRef .tc r) = V (Proc.devRef .tc r) :=
  after_of_writes_sub opsF V opsF_writes hr

/-- The buffers the operations of `opsG` write. -/
abbrev wrG : List (Ref sig .tc) :=
  [main_v45, main_cst_7, main_v46, main_v47, main_cst_8, main_v48, main_v49, main_v50,
    main_v51, main_v52, main_cst_9, main_v53, main_v54, main_cst_10, main_v55, main_v56,
    main_v57, main_v58, main_cst_11, main_v59, main_v60, main_v61, main_v62, main_v63,
    main_v64, main_v65, main_v66, main_v67, main_v68, main_v69]
theorem opsG_writes : (opsG (F := Ideal)).Forall fun op => op.writes ⊆ (wrG.map (Proc.devRef (τ := τ) .tc)).toFinset :=
  ⟨writes_sub_of_mem (y := main_v45) rfl (by decide), writes_sub_of_mem (y := main_cst_7) rfl (by decide),
    writes_sub_of_mem (y := main_v46) rfl (by decide), writes_sub_of_mem (y := main_v47) rfl (by decide),
    writes_sub_of_mem (y := main_cst_8) rfl (by decide), writes_sub_of_mem (y := main_v48) rfl (by decide),
    writes_sub_of_mem (y := main_v49) rfl (by decide), writes_sub_of_mem (y := main_v50) rfl (by decide),
    writes_sub_of_mem (y := main_v51) rfl (by decide), writes_sub_of_mem (y := main_v52) rfl (by decide),
    writes_sub_of_mem (y := main_cst_9) rfl (by decide), writes_sub_of_mem (y := main_v53) rfl (by decide),
    writes_sub_of_mem (y := main_v54) rfl (by decide), writes_sub_of_mem (y := main_cst_10) rfl (by decide),
    writes_sub_of_mem (y := main_v55) rfl (by decide), writes_sub_of_mem (y := main_v56) rfl (by decide),
    writes_sub_of_mem (y := main_v57) rfl (by decide), writes_sub_of_mem (y := main_v58) rfl (by decide),
    writes_sub_of_mem (y := main_cst_11) rfl (by decide), writes_sub_of_mem (y := main_v59) rfl (by decide),
    writes_sub_of_mem (y := main_v60) rfl (by decide), writes_sub_of_mem (y := main_v61) rfl (by decide),
    writes_sub_of_mem (y := main_v62) rfl (by decide), writes_sub_of_mem (y := main_v63) rfl (by decide),
    writes_sub_of_mem (y := main_v64) rfl (by decide), writes_sub_of_mem (y := main_v65) rfl (by decide),
    writes_sub_of_mem (y := main_v66) rfl (by decide), writes_sub_of_mem (y := main_v67) rfl (by decide),
    writes_sub_of_mem (y := main_v68) rfl (by decide), writes_sub_of_mem (y := main_v69) rfl (by decide)⟩
/-- A buffer `opsG` does not write keeps its contents. -/
theorem frameG {V : Valuation τ sig (Elt Ideal)} {r : Ref sig .tc} (hr : r ∉ wrG) :
    after (opsG (F := Ideal)) V (Proc.devRef .tc r) = V (Proc.devRef .tc r) :=
  after_of_writes_sub opsG V opsG_writes hr

/-- The buffers the operations of `opsH` write. -/
abbrev wrH : List (Ref sig .tc) :=
  [main_v70, main_v71, main_v72, main_v73, main_cst_12, main_call6_cst, main_call6_v0, main_call6_v1,
    main_call6_v2, main_call6_v3, main_call6_v4, main_v74, main_v75, main_v76, main_v77, main_v78,
    main_cst_13, main_call7_cst, main_call7_v0, main_call7_v1, main_call7_v2, main_call7_v3, main_call7_v4, main_v79,
    main_v80, main_v81, main_v82, main_v83]
theorem opsH_writes : (opsH (F := Ideal)).Forall fun op => op.writes ⊆ (wrH.map (Proc.devRef (τ := τ) .tc)).toFinset :=
  ⟨writes_sub_of_mem (y := main_v70) rfl (by decide), writes_sub_of_mem (y := main_v71) rfl (by decide),
    writes_sub_of_mem (y := main_v72) rfl (by decide), writes_sub_of_mem (y := main_v73) rfl (by decide),
    writes_sub_of_mem (y := main_cst_12) rfl (by decide), writes_sub_of_mem (y := main_call6_cst) rfl (by decide),
    writes_sub_of_mem (y := main_call6_v0) rfl (by decide), writes_sub_of_mem (y := main_call6_v1) rfl (by decide),
    writes_sub_of_mem (y := main_call6_v2) rfl (by decide), writes_sub_of_mem (y := main_call6_v3) rfl (by decide),
    writes_sub_of_mem (y := main_call6_v4) rfl (by decide), writes_sub_of_mem (y := main_v74) rfl (by decide),
    writes_sub_of_mem (y := main_v75) rfl (by decide), writes_sub_of_mem (y := main_v76) rfl (by decide),
    writes_sub_of_mem (y := main_v77) rfl (by decide), writes_sub_of_mem (y := main_v78) rfl (by decide),
    writes_sub_of_mem (y := main_cst_13) rfl (by decide), writes_sub_of_mem (y := main_call7_cst) rfl (by decide),
    writes_sub_of_mem (y := main_call7_v0) rfl (by decide), writes_sub_of_mem (y := main_call7_v1) rfl (by decide),
    writes_sub_of_mem (y := main_call7_v2) rfl (by decide), writes_sub_of_mem (y := main_call7_v3) rfl (by decide),
    writes_sub_of_mem (y := main_call7_v4) rfl (by decide), writes_sub_of_mem (y := main_v79) rfl (by decide),
    writes_sub_of_mem (y := main_v80) rfl (by decide), writes_sub_of_mem (y := main_v81) rfl (by decide),
    writes_sub_of_mem (y := main_v82) rfl (by decide), writes_sub_of_mem (y := main_v83) rfl (by decide)⟩
/-- A buffer `opsH` does not write keeps its contents. -/
theorem frameH {V : Valuation τ sig (Elt Ideal)} {r : Ref sig .tc} (hr : r ∉ wrH) :
    after (opsH (F := Ideal)) V (Proc.devRef .tc r) = V (Proc.devRef .tc r) :=
  after_of_writes_sub opsH V opsH_writes hr

/-- A buffer no operation writes keeps its contents over the whole line. -/
theorem frame_all {V : Valuation τ sig (Elt Ideal)} {r : Ref sig .tc}
    (hA : r ∉ wrA) (hB : r ∉ wrB) (hC : r ∉ wrC) (hD : r ∉ wrD) (hE : r ∉ wrE) (hF : r ∉ wrF) (hG : r ∉ wrG) (hH : r ∉ wrH) :
    after (ops (F := Ideal)) V (Proc.devRef .tc r) = V (Proc.devRef .tc r) := by
  simp only [ops, after_app]
  rw [frameH hH, frameG hG, frameF hF, frameE hE, frameD hD, frameC hC, frameB hB, frameA hA]

/-- The three output layers over the normalised rows (no rectifier after the last). -/
def outLayers (h : FVec Ideal S100000x192 .f32) (w1 : FVec Ideal S192x32 .f32) (b1 : FVec Ideal S32 .f32)
    (w2 : FVec Ideal S32x32 .f32) (b2 : FVec Ideal S32 .f32) (w3 : FVec Ideal S32x64 .f32) (b3 : FVec Ideal S64 .f32) :
    FVec Ideal S100000x64 .f32 :=
  addf (Host.dotGeneral dot_S100000x32_S32x64_S100000x64_1_0_0_1_n_n none
      (Cert.Spec.lrelu bcast_S_S100000x32
        (addf (Host.dotGeneral dot_S100000x32_S32x32_S100000x32_1_0_0_1_n_n none
            (Cert.Spec.lrelu bcast_S_S100000x32
              (addf (Host.dotGeneral dot_S100000x192_S192x32_S100000x32_1_0_0_1_n_n none h w1)
                (broadcastInDim S100000x32 ![0, 1] bcast_S1x32_S100000x32_0_1 (broadcastInDim S1x32 ![1] bcast_S32_S1x32_1 b1)))) w2)
          (broadcastInDim S100000x32 ![0, 1] bcast_S1x32_S100000x32_0_1 (broadcastInDim S1x32 ![1] bcast_S32_S1x32_1 b2)))) w3)
    (broadcastInDim S100000x64 ![0, 1] bcast_S1x64_S100000x64_0_1 (broadcastInDim S1x64 ![1] bcast_S64_S1x64_1 b3))

/-- The wrapped source indices as a column, over the source row. -/
def srcCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The messages summed at the destination row's nodes, from zero. -/
def aggAt (msg : FVec Ideal S1600000x64 .f32) (d : IVec S1600000 32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d) msg

section Results

variable (V : Valuation τ sig (Elt Ideal))

theorem resA1 : after (opsA (F := Ideal)) V (main_v1 : DevRef τ sig) = Cert.Spec.srcOf (V (main_arg1 : DevRef τ sig)) := by
  after_results_simp
  rfl
theorem resA3 : after (opsA (F := Ideal)) V (main_v3 : DevRef τ sig) = Cert.Spec.dstOf (V (main_arg1 : DevRef τ sig)) := by
  after_results_simp
  rfl
theorem resB : after (opsB (F := Ideal)) V (main_v13 : DevRef τ sig)
    = Cert.Spec.nodeEnc (V (main_arg0 : DevRef τ sig)) (V (main_arg3 : DevRef τ sig)) (V (main_arg4 : DevRef τ sig)) (V (main_arg5 : DevRef τ sig)) (V (main_arg6 : DevRef τ sig)) := by
  after_results_simp
  rfl
theorem resC : after (opsC (F := Ideal)) V (main_v23 : DevRef τ sig)
    = Cert.Spec.edgeEnc (V (main_arg2 : DevRef τ sig)) (V (main_arg7 : DevRef τ sig)) (V (main_arg8 : DevRef τ sig)) (V (main_arg9 : DevRef τ sig)) (V (main_arg10 : DevRef τ sig)) := by
  after_results_simp
  rfl
theorem resD : after (opsD (F := Ideal)) V (main_v30 : DevRef τ sig)
    = Host.gather gather_S100000x32_S1600000x1_S1600000x32_1_0_n_n_0_1_132 (V (main_v13 : DevRef τ sig)) (srcCol (V (main_v1 : DevRef τ sig))) := by
  after_results_simp
  rfl
theorem resE : after (opsE (F := Ideal)) V (main_v41 : DevRef τ sig)
    = Cert.Spec.msgOf (V (main_v23 : DevRef τ sig)) (V (main_v30 : DevRef τ sig)) (V (main_arg11 : DevRef τ sig)) (V (main_arg12 : DevRef τ sig)) (V (main_arg13 : DevRef τ sig)) (V (main_arg14 : DevRef τ sig)) := by
  after_results_simp
  rfl
theorem resF : after (opsF (F := Ideal)) V (main_v44 : DevRef τ sig) = aggAt (V (main_v41 : DevRef τ sig)) (V (main_v3 : DevRef τ sig)) := by
  after_results_simp
  rfl
theorem resG : after (opsG (F := Ideal)) V (main_v69 : DevRef τ sig)
    = Cert.Spec.layerNorm (concatenate S100000x192 1 [⟨S100000x64, (V (main_v44 : DevRef τ sig))⟩, ⟨S100000x128, (V (main_arg0 : DevRef τ sig))⟩] concatenates_S100000x64_S100000x128_S100000x192_d1)
        (V (main_arg15 : DevRef τ sig)) (V (main_arg16 : DevRef τ sig)) := by
  after_results_simp
  rfl
theorem resH : after (opsH (F := Ideal)) V (main_v83 : DevRef τ sig)
    = outLayers (V (main_v69 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) := by
  after_results_simp
  rfl

end Results

/-- The result buffer after the whole line: the specification's function of the argument buffers. -/
theorem result_eq (V : Valuation τ sig (Elt Ideal)) :
    after (ops (F := Ideal)) V (main_v83 : DevRef τ sig)
      = Cert.Spec.result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) := by
  simp only [ops, after_app]
  rw [resH]
  rw [resG, frameG (r := main_arg17) (by decide), frameG (r := main_arg18) (by decide),
    frameG (r := main_arg19) (by decide), frameG (r := main_arg20) (by decide), frameG (r := main_arg21) (by decide),
    frameG (r := main_arg22) (by decide)]
  rw [resF, frameF (r := main_arg0) (by decide), frameF (r := main_arg15) (by decide),
    frameF (r := main_arg16) (by decide), frameF (r := main_arg17) (by decide), frameF (r := main_arg18) (by decide),
    frameF (r := main_arg19) (by decide), frameF (r := main_arg20) (by decide), frameF (r := main_arg21) (by decide),
    frameF (r := main_arg22) (by decide)]
  rw [resE, frameE (r := main_v3) (by decide), frameE (r := main_arg0) (by decide),
    frameE (r := main_arg15) (by decide), frameE (r := main_arg16) (by decide), frameE (r := main_arg17) (by decide),
    frameE (r := main_arg18) (by decide), frameE (r := main_arg19) (by decide), frameE (r := main_arg20) (by decide),
    frameE (r := main_arg21) (by decide), frameE (r := main_arg22) (by decide)]
  rw [resD, frameD (r := main_v23) (by decide), frameD (r := main_arg11) (by decide),
    frameD (r := main_arg12) (by decide), frameD (r := main_arg13) (by decide), frameD (r := main_arg14) (by decide),
    frameD (r := main_v3) (by decide), frameD (r := main_arg0) (by decide), frameD (r := main_arg15) (by decide),
    frameD (r := main_arg16) (by decide), frameD (r := main_arg17) (by decide), frameD (r := main_arg18) (by decide),
    frameD (r := main_arg19) (by decide), frameD (r := main_arg20) (by decide), frameD (r := main_arg21) (by decide),
    frameD (r := main_arg22) (by decide)]
  rw [resC, frameC (r := main_v13) (by decide), frameC (r := main_v1) (by decide),
    frameC (r := main_arg11) (by decide), frameC (r := main_arg12) (by decide), frameC (r := main_arg13) (by decide),
    frameC (r := main_arg14) (by decide), frameC (r := main_v3) (by decide), frameC (r := main_arg0) (by decide),
    frameC (r := main_arg15) (by decide), frameC (r := main_arg16) (by decide), frameC (r := main_arg17) (by decide),
    frameC (r := main_arg18) (by decide), frameC (r := main_arg19) (by decide), frameC (r := main_arg20) (by decide),
    frameC (r := main_arg21) (by decide), frameC (r := main_arg22) (by decide)]
  rw [resB, frameB (r := main_arg2) (by decide), frameB (r := main_arg7) (by decide),
    frameB (r := main_arg8) (by decide), frameB (r := main_arg9) (by decide), frameB (r := main_arg10) (by decide),
    frameB (r := main_v1) (by decide), frameB (r := main_arg11) (by decide), frameB (r := main_arg12) (by decide),
    frameB (r := main_arg13) (by decide), frameB (r := main_arg14) (by decide), frameB (r := main_v3) (by decide),
    frameB (r := main_arg0) (by decide), frameB (r := main_arg15) (by decide), frameB (r := main_arg16) (by decide),
    frameB (r := main_arg17) (by decide), frameB (r := main_arg18) (by decide), frameB (r := main_arg19) (by decide),
    frameB (r := main_arg20) (by decide), frameB (r := main_arg21) (by decide), frameB (r := main_arg22) (by decide)]
  rw [resA1, resA3, frameA (r := main_arg0) (by decide),
    frameA (r := main_arg3) (by decide), frameA (r := main_arg4) (by decide), frameA (r := main_arg5) (by decide),
    frameA (r := main_arg6) (by decide), frameA (r := main_arg2) (by decide), frameA (r := main_arg7) (by decide),
    frameA (r := main_arg8) (by decide), frameA (r := main_arg9) (by decide), frameA (r := main_arg10) (by decide),
    frameA (r := main_arg11) (by decide), frameA (r := main_arg12) (by decide), frameA (r := main_arg13) (by decide),
    frameA (r := main_arg14) (by decide), frameA (r := main_arg15) (by decide), frameA (r := main_arg16) (by decide),
    frameA (r := main_arg17) (by decide), frameA (r := main_arg18) (by decide), frameA (r := main_arg19) (by decide),
    frameA (r := main_arg20) (by decide), frameA (r := main_arg21) (by decide), frameA (r := main_arg22) (by decide)]
  rfl

end Line

/-- The jnp program's run: the result is the specification's function of the arguments, and the arguments are kept. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v83) = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run (Cert.ReferenceIdeal.defs (F := Ideal)) _ _).mono (fun _ h c => ⟨(h c main_v83).trans (result_eq _),
      (h c main_arg0).trans (frame_all (by decide) (by decide) (by decide) (by decide) (by decide) (by decide) (by decide) (by decide)),
      (h c main_arg1).trans (frame_all (by decide) (by decide) (by decide) (by decide) (by decide) (by decide) (by decide) (by decide)),
      (h c main_arg2).trans (frame_all (by decide) (by decide) (by decide) (by decide) (by decide) (by decide) (by decide) (by decide)),
      (h c main_arg3).trans (frame_all (by decide) (by decide) (by decide) (by decide) (by decide) (by decide) (by decide) (by decide)),
      (h c main_arg4).trans (frame_all (by decide) (by decide) (by decide) (by decide) (by decide) (by decide) (by decide) (by decide)),
      (h c main_arg5).trans (frame_all (by decide) (by decide) (by decide) (by decide) (by decide) (by decide) (by decide) (by decide)),
      (h c main_arg6).trans (frame_all (by decide) (by decide) (by decide) (by decide) (by decide) (by decide) (by decide) (by decide)),
      (h c main_arg7).trans (frame_all (by decide) (by decide) (by decide) (by decide) (by decide) (by decide) (by decide) (by decide)),
      (h c main_arg8).trans (frame_all (by decide) (by decide) (by decide) (by decide) (by decide) (by decide) (by decide) (by decide)),
      (h c main_arg9).trans (frame_all (by decide) (by decide) (by decide) (by decide) (by decide) (by decide) (by decide) (by decide)),
      (h c main_arg10).trans (frame_all (by decide) (by decide) (by decide) (by decide) (by decide) (by decide) (by decide) (by decide)),
      (h c main_arg11).trans (frame_all (by decide) (by decide) (by decide) (by decide) (by decide) (by decide) (by decide) (by decide)),
      (h c main_arg12).trans (frame_all (by decide) (by decide) (by decide) (by decide) (by decide) (by decide) (by decide) (by decide)),
      (h c main_arg13).trans (frame_all (by decide) (by decide) (by decide) (by decide) (by decide) (by decide) (by decide) (by decide)),
      (h c main_arg14).trans (frame_all (by decide) (by decide) (by decide) (by decide) (by decide) (by decide) (by decide) (by decide)),
      (h c main_arg15).trans (frame_all (by decide) (by decide) (by decide) (by decide) (by decide) (by decide) (by decide) (by decide)),
      (h c main_arg16).trans (frame_all (by decide) (by decide) (by decide) (by decide) (by decide) (by decide) (by decide) (by decide)),
      (h c main_arg17).trans (frame_all (by decide) (by decide) (by decide) (by decide) (by decide) (by decide) (by decide) (by decide)),
      (h c main_arg18).trans (frame_all (by decide) (by decide) (by decide) (by decide) (by decide) (by decide) (by decide) (by decide)),
      (h c main_arg19).trans (frame_all (by decide) (by decide) (by decide) (by decide) (by decide) (by decide) (by decide) (by decide)),
      (h c main_arg20).trans (frame_all (by decide) (by decide) (by decide) (by decide) (by decide) (by decide) (by decide) (by decide)),
      (h c main_arg21).trans (frame_all (by decide) (by decide) (by decide) (by decide) (by decide) (by decide) (by decide) (by decide)),
      (h c main_arg22).trans (frame_all (by decide) (by decide) (by decide) (by decide) (by decide) (by decide) (by decide) (by decide))⟩)
    (StableHlo.run_seq scopedRefs_eq scopedSems_eq defs main (fun _ => ops) main_eq (fun _ => ops_sub) m ρ (fun _ => ops_fresh))

end Cert.ReferenceIdeal.RefRun

end
-- ==== Proof.lean ====
/-
  The certificate of a graph-network layer: a kernel program of three pallas_calls (node encoder; edge encoder fused
  with the message layers; layer normalisation with three affine layers) around a take of source rows and a sum of
  messages at destination nodes, against the jnp program that computes the same layer with whole-array operations.

  Over the extended reals the two programs are one function of the inputs (Proof/Spec.lean): every matrix product is
  the plain sum of products whatever the blocking, a change of float format is the identity, each block of rows of a
  region's output depends on the same rows of its inputs only, and the sum of messages is the same operation applied to
  equal operands. The one difference is the convention for a source index outside [0, 100000): the kernel program's
  take fills such rows with a constant, the jnp program gathers them unmasked; the precondition keeps the source
  indices inside the range, where the two agree (Proof/TakeStage.lean).

  Frames: the two kernel programs' are the generated frame certificates; the jnp program's is its run
  (Proof/RefRun.lean) with the result dropped. The idealization rewrote no operation, so `preserves` is trivial.
  The value claim: the kernel program's run with its result named (Proof/KernelRun.lean), the result read back region
  by region to the launch memory (Proof/Chain.lean over Proof/Region0.lean, Region1.lean, Region2.lean), and the jnp
  program's run, both at the specification's function of arguments that agree.
-/
import proofs.«413093_j68839735820749_1_alg».proof.Defs
import proofs.«413093_j68839735820749_1_alg».proof.Proof.Gen.Kernel
import proofs.«413093_j68839735820749_1_alg».proof.Proof.Gen.Kernel.Skeleton
import proofs.«413093_j68839735820749_1_alg».proof.Proof.Gen.Kernel.Launch
import proofs.«413093_j68839735820749_1_alg».proof.Proof.Gen.Kernel.Points
import proofs.«413093_j68839735820749_1_alg».proof.Proof.Gen.Kernel.Frame
import proofs.«413093_j68839735820749_1_alg».proof.Proof.Gen.KernelIdeal
import proofs.«413093_j68839735820749_1_alg».proof.Proof.Gen.KernelIdeal.Skeleton
import proofs.«413093_j68839735820749_1_alg».proof.Proof.Gen.KernelIdeal.Launch
import proofs.«413093_j68839735820749_1_alg».proof.Proof.Gen.KernelIdeal.Points
import proofs.«413093_j68839735820749_1_alg».proof.Proof.Gen.KernelIdeal.Frame
import proofs.«413093_j68839735820749_1_alg».proof.Proof.Gen.ReferenceIdeal
import proofs.«413093_j68839735820749_1_alg».proof.Proof.Gen.Pre_finite_inputs
import proofs.«413093_j68839735820749_1_alg».proof.Proof.KernelRun
import proofs.«413093_j68839735820749_1_alg».proof.Proof.Chain
import proofs.«413093_j68839735820749_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The jnp program's frame is its run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- Both programs end at the specification's function of their arguments, and the arguments agree. -/
theorem algebraic : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono
      (fun r h c => ⟨(h c).1.trans (Cert.KernelIdeal.Chain.value m ρ hpre c), (h c).2⟩) (Cert.KernelIdeal.Gen.run m ρ)
  · refine (θ_run Cert.ReferenceIdeal.defs _ _).mono (fun r h c => ⟨(h c).1.trans ?_, (h c).2⟩)
      (Cert.ReferenceIdeal.RefRun.run m' ρ')
    obtain ⟨a0, a1, a2, a3, a4, a5, a6, a7, a8, a9, a10, a11, a12, a13, a14, a15, a16, a17, a18, a19, a20, a21, a22⟩ := hagree c
    rw [a0, a1, a2, a3, a4, a5, a6, a7, a8, a9, a10, a11, a12, a13, a14, a15, a16, a17, a18, a19, a20, a21, a22]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
